-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S50000x3 : Shape := ⟨2, ![50000, 3]⟩
abbrev S800000x96 : Shape := ⟨2, ![800000, 96]⟩
abbrev S2x800000 : Shape := ⟨2, ![2, 800000]⟩
abbrev S192x96 : Shape := ⟨2, ![192, 96]⟩
abbrev S96 : Shape := ⟨1, ![96]⟩
abbrev S96x96 : Shape := ⟨2, ![96, 96]⟩
abbrev S96x1 : Shape := ⟨2, ![96, 1]⟩
abbrev S1 : Shape := ⟨1, ![1]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x96 : S_.BroadcastsInDim S800000x96 (![] : Fin 0 → Fin S800000x96.rank)
  reducesTo_S800000x96_S_d0_1 : S800000x96.ReducesTo [0, 1] S_
  bcast_S_S192x96 : S_.BroadcastsInDim S192x96 (![] : Fin 0 → Fin S192x96.rank)
  reducesTo_S192x96_S_d0_1 : S192x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg3 : IVec S2x800000 32) (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S2x800000 32 := broadcastInDim S2x800000 ![] bcast_S_S2x800000 main_c_28
  let main_v75 : IVec S2x800000 1 := cmpi .sge main_arg3 main_v74
  let main_c_29 : IVec S_ 32 := constantI S_ 32 50000#32
  let main_v76 : IVec S2x800000 32 := broadcastInDim S2x800000 ![] bcast_S_S2x800000 main_c_29
  let main_v77 : IVec S2x800000 1 := cmpi .slt main_arg3 main_v76
  let main_v78 : IVec S2x800000 1 := andi main_v75 main_v77
  let main_c_30 : IVec S_ 1 := constantI S_ 1 1#1
  let main_v79 : IVec S_ 1 := (fun x v => Host.reduce IntOp.andi x v reducesTo_S2x800000_S_d0_1 h_S_) main_v78 main_c_30
  let main_v80 : IVec S_ 1 := andi main_v73 main_v79
  main_v80

def fn_part3 {F : FTy → Type} [FloatOps F] (main_arg3 : IVec S2x800000 32) (main_arg12 : FVec F S96x96 .f32) (main_arg13 : FVec F S96 .f32) (main_arg14 : FVec F S96x1 .f32) (main_arg15 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S96x96 .f32 := Host.absf main_arg12
  let main_cst_20 : FVec F S_ .f32 := constant S_ .f32 0x7F800000#32
  let main_v55 : FVec F S96x96 .f32 := broadcastInDim S96x96 ![] bcast_S_S96x96 main_cst_20
  let main_v56 : IVec S96x96 1 := cmpf .olt main_v54 main_v55
  let main_c_21 : IVec S_ 1 := constantI S_ 1 1#1
  let main_v57 : IVec S_ 1 := (fun x v => Host.reduce IntOp.andi x v reducesTo_S96x96_S_d0_1 h_S_) main_v56 main_c_21
  let main_v58 : IVec S_ 1 := andi main_v53 main_v57
  let main_v59 : FVec F S96 .f32 := Host.absf main_arg13
  let main_cst_22 : FVec F S_ .f32 := constant S_ .f32 0x7F800000#32
  let main_v60 : FVec F S96 .f32 := broadcastInDim S96 ![] bcast_S_S96 main_cst_22
  let main_v61 : IVec S96 1 := cmpf .olt main_v59 main_v60
  let main_c_23 : IVec S_ 1 := constantI S_ 1 1#1
  let main_v62 : IVec S_ 1 := (fun x v => Host.reduce IntOp.andi x v reducesTo_S96_S_d0 h_S_) main_v61 main_c_23
  let main_v63 : IVec S_ 1 := andi main_v58 main_v62
  let main_v64 : FVec F S96x1 .f32 := Host.absf main_arg14
  let main_cst_24 : FVec F S_ .f32 := constant S_ .f32 0x7F800000#32
  let main_v65 : FVec F S96x1 .f32 := broadcastInDim S96x1 ![] bcast_S_S96x1 main_cst_24
  let main_v66 : IVec S96x1 1 := cmpf .olt main_v64 main_v65
  let main_c_25 : IVec S_ 1 := constantI S_ 1 1#1
  let main_v67 : IVec S_ 1 := (fun x v => Host.reduce IntOp.andi x v reducesTo_S96x1_S_d0_1 h_S_) main_v66 main_c_25
  fn_part4 (F := F) main_arg3 main_arg15 main_v63 main_v67

def fn_part2 {F : FTy → Type} [FloatOps F] (main_arg3 : IVec S2x800000 32) (main_arg8 : FVec F S96x96 .f32) (main_arg9 : FVec F S96 .f32) (main_arg10 : FVec F S96x1 .f32) (main_arg11 : FVec F S1 .f32) (main_arg12 : FVec F S96x96 .f32) (main_arg13 : FVec F S96 .f32) (main_arg14 : FVec F S96x1 .f32) (main_arg15 : FVec F S1 .f32) (main_v33 : IVec S_ 1) : IVec S_ 1 :=
  let main_v34 : FVec F S96x96 .f32 := Host.absf main_arg8
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x1 .f32 := Host.absf main_arg10
  let main_cst_16 : FVec F S_ .f32 := constant S_ .f32 0x7F800000#32
  let main_v45 : FVec F S96x1 .f32 := broadcastInDim S96x1 ![] bcast_S_S96x1 main_cst_16
  let main_v46 : IVec S96x1 1 := cmpf .olt main_v44 main_v45
  let main_c_17 : IVec S_ 1 := constantI S_ 1 1#1
  let main_v47 : IVec S_ 1 := (fun x v => Host.reduce IntOp.andi x v reducesTo_S96x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg3 main_arg12 main_arg13 main_arg14 main_arg15 main_v48 main_v49 main_v50

def fn_part1 {F : FTy → Type} [FloatOps F] (main_arg3 : IVec S2x800000 32) (main_arg5 : FVec F S96 .f32) (main_arg6 : FVec F S96x96 .f32) (main_arg7 : FVec F S96 .f32) (main_arg8 : FVec F S96x96 .f32) (main_arg9 : FVec F S96 .f32) (main_arg10 : FVec F S96x1 .f32) (main_arg11 : FVec F S1 .f32) (main_arg12 : FVec F S96x96 .f32) (main_arg13 : FVec F S96 .f32) (main_arg14 : FVec F S96x1 .f32) (main_arg15 : FVec F S1 .f32) (main_v13 : IVec S_ 1) (main_v16 : IVec S192x96 1) : IVec S_ 1 :=
  let main_c_5 : IVec S_ 1 := constantI S_ 1 1#1
  let main_v17 : IVec S_ 1 := (fun x v => Host.reduce IntOp.andi x v reducesTo_S192x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg3 main_arg8 main_arg9 main_arg10 main_arg11 main_arg12 main_arg13 main_arg14 main_arg15 main_v33

def fn {F : FTy → Type} [FloatOps F] (main_arg0 : FVec F S50000x96 .f32) (main_arg1 : FVec F S50000x3 .f32) (main_arg2 : FVec F S800000x96 .f32) (main_arg3 : IVec S2x800000 32) (main_arg4 : FVec F S192x96 .f32) (main_arg5 : FVec F S96 .f32) (main_arg6 : FVec F S96x96 .f32) (main_arg7 : FVec F S96 .f32) (main_arg8 : FVec F S96x96 .f32) (main_arg9 : FVec F S96 .f32) (main_arg10 : FVec F S96x1 .f32) (main_arg11 : FVec F S1 .f32) (main_arg12 : FVec F S96x96 .f32) (main_arg13 : FVec F S96 .f32) (main_arg14 : FVec F S96x1 .f32) (main_arg15 : FVec F S1 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x96 .f32 := Host.absf main_arg2
  let main_cst_2 : FVec F S_ .f32 := constant S_ .f32 0x7F800000#32
  let main_v10 : FVec F S800000x96 .f32 := broadcastInDim S800000x96 ![] bcast_S_S800000x96 main_cst_2
  let main_v11 : IVec S800000x96 1 := cmpf .olt main_v9 main_v10
  let main_c_3 : IVec S_ 1 := constantI S_ 1 1#1
  let main_v12 : IVec S_ 1 := (fun x v => Host.reduce IntOp.andi x v reducesTo_S800000x96_S_d0_1 h_S_) main_v11 main_c_3
  let main_v13 : IVec S_ 1 := andi main_v8 main_v12
  let main_v14 : FVec F S192x96 .f32 := Host.absf main_arg4
  let main_cst_4 : FVec F S_ .f32 := constant S_ .f32 0x7F800000#32
  let main_v15 : FVec F S192x96 .f32 := broadcastInDim S192x96 ![] bcast_S_S192x96 main_cst_4
  let main_v16 : IVec S192x96 1 := cmpf .olt main_v14 main_v15
  fn_part1 (F := F) main_arg3 main_arg5 main_arg6 main_arg7 main_arg8 main_arg9 main_arg10 main_arg11 main_arg12 main_arg13 main_arg14 main_arg15 main_v13 main_v16
-- ==== Kernel.lean ====
abbrev S50000x96 : Shape := ⟨2, ![50000, 96]⟩
abbrev S50000x3 : Shape := ⟨2, ![50000, 3]⟩
abbrev S800000x96 : Shape := ⟨2, ![800000, 96]⟩
abbrev S2x800000 : Shape := ⟨2, ![2, 800000]⟩
abbrev S192x96 : Shape := ⟨2, ![192, 96]⟩
abbrev S96 : Shape := ⟨1, ![96]⟩
abbrev S96x96 : Shape := ⟨2, ![96, 96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x3 : Shape := ⟨2, ![800000, 3]⟩
abbrev S800000x6 : Shape := ⟨2, ![800000, 6]⟩
abbrev S1x96 : Shape := ⟨2, ![1, 96]⟩
abbrev S800000x128 : Shape := ⟨2, ![800000, 128]⟩
abbrev S4000x96 : Shape := ⟨2, ![4000, 96]⟩
abbrev S4000x6 : Shape := ⟨2, ![4000, 6]⟩
abbrev S4000x128 : Shape := ⟨2, ![4000, 128]⟩
abbrev S4000x1 : Shape := ⟨2, ![4000, 1]⟩
abbrev S4000x3 : Shape := ⟨2, ![4000, 3]⟩
abbrev S4000 : Shape := ⟨1, ![4000]⟩
abbrev S4000x29 : Shape := ⟨2, ![4000, 29]⟩
abbrev S50000x128 : Shape := ⟨2, ![50000, 128]⟩
abbrev S5000x96 : Shape := ⟨2, ![5000, 96]⟩
abbrev S5000x128 : Shape := ⟨2, ![5000, 128]⟩
abbrev S5000x3 : Shape := ⟨2, ![5000, 3]⟩
abbrev S5000x29 : Shape := ⟨2, ![5000, 29]⟩

abbrev nBuf : Space → Nat
  | .hbm => 82
  | .vmem => 28
  | .smem => 0
  | _ => 0

abbrev bufTy : (tb : Table) → Fin (tcTables nBuf tb) → BufTy
  | .hbm, ⟨0, _⟩ => ⟨S50000x96, .f32⟩
  | .hbm, ⟨1, _⟩ => ⟨S50000x3, .f32⟩
  | .hbm, ⟨2, _⟩ => ⟨S800000x96, .f32⟩
  | .hbm, ⟨3, _⟩ => ⟨S2x800000, .i32⟩
  | .hbm, ⟨4, _⟩ => ⟨S192x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S96x1, .f32⟩
  | .hbm, ⟨11, _⟩ => ⟨S1, .f32⟩
  | .hbm, ⟨12, _⟩ => ⟨S96x96, .f32⟩
  | .hbm, ⟨13, _⟩ => ⟨S96, .f32⟩
  | .hbm, ⟨14, _⟩ => ⟨S96x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x3, .f32⟩
  | .hbm, ⟨39, _⟩ => ⟨S800000x3, .i1⟩
  | .hbm, ⟨40, _⟩ => ⟨S_, .f32⟩
  | .hbm, ⟨41, _⟩ => ⟨S800000x3, .f32⟩
  | .hbm, ⟨42, _⟩ => ⟨S800000x3, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S1, .i32⟩
  | .hbm, ⟨52, _⟩ => ⟨S_, .i32⟩
  | .hbm, ⟨53, _⟩ => ⟨S800000x1, .i32⟩
  | .hbm, ⟨54, _⟩ => ⟨S800000x1, .i1⟩
  | .hbm, ⟨55, _⟩ => ⟨S1x1, .i32⟩
  | .hbm, ⟨56, _⟩ => ⟨S800000x1, .i32⟩
  | .hbm, ⟨57, _⟩ => ⟨S800000x1, .i1⟩
  | .hbm, ⟨58, _⟩ => ⟨S800000x1, .i1⟩
  | .hbm, ⟨59, _⟩ => ⟨S_, .i1⟩
  | .hbm, ⟨60, _⟩ => ⟨S800000, .i1⟩
  | .hbm, ⟨61, _⟩ => ⟨S800000x3, .f32⟩
  | .hbm, ⟨62, _⟩ => ⟨S800000x3, .i1⟩
  | .hbm, ⟨63, _⟩ => ⟨S_, .f32⟩
  | .hbm, ⟨64, _⟩ => ⟨S800000x3, .f32⟩
  | .hbm, ⟨65, _⟩ => ⟨S800000x3, .f32⟩
  | .hbm, ⟨66, _⟩ => ⟨S800000x6, .f32⟩
  | .hbm, ⟨67, _⟩ => ⟨S1x96, .f32⟩
  | .hbm, ⟨68, _⟩ => ⟨S1x1, .f32⟩
  | .hbm, ⟨69, _⟩ => ⟨S1x96, .f32⟩
  | .hbm, ⟨70, _⟩ => ⟨S1x1, .f32⟩
  | .hbm, ⟨71, _⟩ => ⟨S800000x128, .f32⟩
  | .hbm, ⟨72, _⟩ => ⟨S800000x1, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S1x96, .f32⟩
  | .hbm, ⟨78, _⟩ => ⟨S1x96, .f32⟩
  | .hbm, ⟨79, _⟩ => ⟨S50000x128, .f32⟩
  | .hbm, ⟨80, _⟩ => ⟨S50000x96, .f32⟩
  | .hbm, ⟨81, _⟩ => ⟨S50000x3, .f32⟩
  | .local _ .vmem, ⟨0, _⟩ => ⟨S4000x96, .f32⟩
  | .local _ .vmem, ⟨1, _⟩ => ⟨S4000x96, .f32⟩
  | .local _ .vmem, ⟨2, _⟩ => ⟨S4000x6, .f32⟩
  | .local _ .vmem, ⟨3, _⟩ => ⟨S4000x6, .f32⟩
  | .local _ .vmem, ⟨4, _⟩ => ⟨S96x96, .f32⟩
  | .local _ .vmem, ⟨5, _⟩ => ⟨S1x96, .f32⟩
  | .local _ .vmem, ⟨6, _⟩ => ⟨S96x1, .f32⟩
  | .local _ .vmem, ⟨7, _⟩ => ⟨S1x1, .f32⟩
  | .local _ .vmem, ⟨8, _⟩ => ⟨S96x96, .f32⟩
  | .local _ .vmem, ⟨9, _⟩ => ⟨S1x96, .f32⟩
  | .local _ .vmem, ⟨10, _⟩ => ⟨S96x1, .f32⟩
  | .local _ .vmem, ⟨11, _⟩ => ⟨S1x1, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S5000x96, .f32⟩
  | .local _ .vmem, ⟨17, _⟩ => ⟨S5000x96, .f32⟩
  | .local _ .vmem, ⟨18, _⟩ => ⟨S5000x128, .f32⟩
  | .local _ .vmem, ⟨19, _⟩ => ⟨S5000x128, .f32⟩
  | .local _ .vmem, ⟨20, _⟩ => ⟨S5000x3, .f32⟩
  | .local _ .vmem, ⟨21, _⟩ => ⟨S5000x3, .f32⟩
  | .local _ .vmem, ⟨22, _⟩ => ⟨S192x96, .f32⟩
  | .local _ .vmem, ⟨23, _⟩ => ⟨S1x96, .f32⟩
  | .local _ .vmem, ⟨24, _⟩ => ⟨S96x96, .f32⟩
  | .local _ .vmem, ⟨25, _⟩ => ⟨S1x96, .f32⟩
  | .local _ .vmem, ⟨26, _⟩ => ⟨S5000x128, .f32⟩
  | .local _ .vmem, ⟨27, _⟩ => ⟨S5000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11_0 : Ref sig .tc := ⟨.hbm, 71, rfl⟩
abbrev main_v11_1 : Ref sig .tc := ⟨.hbm, 72, rfl⟩
abbrev main_cst : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S192x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x3_0 : S800000.BroadcastsInDim S800000x3 (![0] : Fin 1 → Fin S800000x3.rank)
  bcast_S_S800000x3 : S_.BroadcastsInDim S800000x3 (![] : Fin 0 → Fin S800000x3.rank)
  concatenates_S800000x3_S800000x3_S800000x6_d1 : Shape.Concatenates [S800000x3, S800000x3] S800000x6 1
  shapeCasts_S96_S1x96 : S96.ShapeCasts S1x96
  shapeCasts_S1_S1x1 : S1.ShapeCasts S1x1
  inb_S4000x96_S4000x96_0_0 : ∀ a, (![0, 0] : Fin 2 → Nat) a + S4000x96.size a ≤ S4000x96.size a
  h_S4000x96 : 0 < S4000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4000x96 : S1x96.Broadcasts S4000x96
  inb_S96x1_S96x1_0_0 : ∀ a, (![0, 0] : Fin 2 → Nat) a + S96x1.size a ≤ S96x1.size a
  h_S96x1 : 0 < S96x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x96 : S4000x1.Broadcasts S4000x96
  inb_S4000x6_S4000x6_0_0 : ∀ a, (![0, 0] : Fin 2 → Nat) a + S4000x6.size a ≤ S4000x6.size a
  h_S4000x6 : 0 < S4000x6.numel
  shapeCasts_S4000x6_S4000x6 : S4000x6.ShapeCasts S4000x6
  slices_S4000x6_o0_0_S4000x3 : S4000x6.Slices ![0, 0] S4000x3
  slices_S4000x6_o0_3_S4000x3 : S4000x6.Slices ![0, 3] S4000x3
  reduces_S4000x3_S4000 : S4000x3.Reduces [1] S4000
  shapeCasts_S4000_S4000x1 : S4000.ShapeCasts S4000x1
  broadcasts_S4000x1_S4000x3 : S4000x1.Broadcasts S4000x3
  concatenates_S4000x96_S4000x3_S4000x29_S4000x128_d1 : Shape.Concatenates [S4000x96, S4000x3, S4000x29] S4000x128 1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  bcast_S_S50000x128 : S_.BroadcastsInDim S50000x128 (![] : Fin 0 → Fin S50000x128.rank)
  inb_S5000x96_S5000x96_0_0 : ∀ a, (![0, 0] : Fin 2 → Nat) a + S5000x96.size a ≤ S5000x96.size a
  h_S5000x96 : 0 < S5000x96.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x96 : S5000x128.Slices ![0, 0] S5000x96
  slices_S5000x128_o0_96_S5000x3 : S5000x128.Slices ![0, 96] S5000x3
  inb_S192x96_S192x96_0_0 : ∀ a, (![0, 0] : Fin 2 → Nat) a + S192x96.size a ≤ S192x96.size a
  h_S192x96 : 0 < S192x96.numel
  slices_S192x96_o0_0_S96x96 : S192x96.Slices ![0, 0] S96x96
  slices_S192x96_o96_0_S96x96 : S192x96.Slices ![96, 0] S96x96
  broadcasts_S1x96_S5000x96 : S1x96.Broadcasts S5000x96
  inb_S5000x3_S5000x3_0_0 : ∀ a, (![0, 0] : Fin 2 → Nat) a + S5000x3.size a ≤ S5000x3.size a
  h_S5000x3 : 0 < S5000x3.numel
  concatenates_S5000x96_S5000x3_S5000x29_S5000x128_d1 : Shape.Concatenates [S5000x96, S5000x3, S5000x29] S5000x128 1
  slices_S50000x128_S50000x96_0_0 : S50000x128.Slices ![0, 0] S50000x96
  slices_S50000x128_S50000x3_0_96 : S50000x128.Slices ![0, 96] S50000x3
  gather_S50000x3_S800000x1_S800000x3_1_0_n_n_0_1_13_wf : GatherDims.WF S50000x3 S800000x1 S800000x3 [1] [0] [] [0] [] 1 ![1, 3]
  dot_S4000x96_S96x96_S4000x96_1_0_0_1_n_n_wf : DotDims.WF S4000x96 S96x96 S4000x96 [1] [0] [0] [1] [] []
  dot_S4000x96_S96x1_S4000x1_1_0_0_1_n_n_wf : DotDims.WF S4000x96 S96x1 S4000x1 [1] [0] [0] [1] [] []
  scatter_S50000x128_S800000x1_S800000x128_1_0_0_1_wf : ScatterDims.WF S50000x128 S800000x1 S800000x128 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x96.size a ≤ S800000x96.size a
  hwx0_0 : ∀ i : grid0.Coords, EltTy.bits .f32 = 32 ∨ (Rect.block (s := S800000x96) S4000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S800000x6.size a
  hwx0_1 : ∀ i : grid0.Coords, EltTy.bits .f32 = 32 ∨ (Rect.block (s := S800000x6) S4000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x1.size a ≤ S96x1.size a
  hwx0_4 : ∀ i : grid0.Coords, EltTy.bits .f32 = 32 ∨ (Rect.block (s := S96x1) S96x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x96.size a ≤ S96x96.size a
  hwx0_6 : ∀ i : grid0.Coords, EltTy.bits .f32 = 32 ∨ (Rect.block (s := S96x96) S96x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S96x1.size a ≤ S96x1.size a
  hwx0_8 : ∀ i : grid0.Coords, EltTy.bits .f32 = 32 ∨ (Rect.block (s := S96x1) S96x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S800000x128.size a
  hwx0_10 : ∀ i : grid0.Coords, EltTy.bits .f32 = 32 ∨ (Rect.block (s := S800000x128) S4000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x1.size a ≤ S800000x1.size a
  hwx0_11 : ∀ i : grid0.Coords, EltTy.bits .f32 = 32 ∨ (Rect.block (s := S800000x1) S4000x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S50000x3.size a
  hwx1_2 : ∀ i : grid1.Coords, EltTy.bits .f32 = 32 ∨ (Rect.block (s := S50000x3) S5000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x96.size a ≤ S192x96.size a
  hwx1_3 : ∀ i : grid1.Coords, EltTy.bits .f32 = 32 ∨ (Rect.block (s := S192x96) S192x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x96.size a ≤ S96x96.size a
  hwx1_5 : ∀ i : grid1.Coords, EltTy.bits .f32 = 32 ∨ (Rect.block (s := S96x96) S96x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x96.size a ≤ S1x96.size a
  hwx1_6 : ∀ i : grid1.Coords, EltTy.bits .f32 = 32 ∨ (Rect.block (s := S1x96) S1x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x96_S96x96_S4000x96_1_0_0_1_n_n : DotDims S4000x96 S96x96 S4000x96 where
  lhsContracting := [1]
  rhsContracting := [0]
  lhsNonContracting := [0]
  rhsNonContracting := [1]
  lhsBatch := []
  rhsBatch := []
  wf := dot_S4000x96_S96x96_S4000x96_1_0_0_1_n_n_wf
def dot_S4000x96_S96x1_S4000x1_1_0_0_1_n_n : DotDims S4000x96 S96x1 S4000x1 where
  lhsContracting := [1]
  rhsContracting := [0]
  lhsNonContracting := [0]
  rhsNonContracting := [1]
  lhsBatch := []
  rhsBatch := []
  wf := dot_S4000x96_S96x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_arg2) S4000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S96x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S96x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S96x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11_0) S4000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_1) S4000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S192x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S96x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x96 : Shape := ⟨2, ![50000, 96]⟩
abbrev S50000x3 : Shape := ⟨2, ![50000, 3]⟩
abbrev S800000x96 : Shape := ⟨2, ![800000, 96]⟩
abbrev S2x800000 : Shape := ⟨2, ![2, 800000]⟩
abbrev S192x96 : Shape := ⟨2, ![192, 96]⟩
abbrev S96 : Shape := ⟨1, ![96]⟩
abbrev S96x96 : Shape := ⟨2, ![96, 96]⟩
abbrev S96x1 : Shape := ⟨2, ![96, 1]⟩
abbrev S1 : Shape := ⟨1, ![1]⟩
abbrev S1x800000 : Shape := ⟨2, ![1, 800000]⟩
abbrev S800000 : Shape := ⟨1, ![800000]⟩
abbrev S1x96 : Shape := ⟨2, ![1, 96]⟩
abbrev S_ : Shape := ⟨0, ![]⟩
abbrev S800000x1 : Shape := ⟨2, ![800000, 1]⟩
abbrev S1x1 : Shape := ⟨2, ![1, 1]⟩
abbrev S50000x192 : Shape := ⟨2, ![50000, 192]⟩
abbrev S800000x3 : Shape := ⟨2, ![800000, 3]⟩

abbrev nBuf : Space → Nat
  | .hbm => 123
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x3, .f32⟩
  | .hbm, ⟨2, _⟩ => ⟨S800000x96, .f32⟩
  | .hbm, ⟨3, _⟩ => ⟨S2x800000, .i32⟩
  | .hbm, ⟨4, _⟩ => ⟨S192x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S96x1, .f32⟩
  | .hbm, ⟨11, _⟩ => ⟨S1, .f32⟩
  | .hbm, ⟨12, _⟩ => ⟨S96x96, .f32⟩
  | .hbm, ⟨13, _⟩ => ⟨S96, .f32⟩
  | .hbm, ⟨14, _⟩ => ⟨S96x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S800000x96, .f32⟩
  | .hbm, ⟨21, _⟩ => ⟨S1x96, .f32⟩
  | .hbm, ⟨22, _⟩ => ⟨S800000x96, .f32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S_, .f32⟩
  | .hbm, ⟨27, _⟩ => ⟨S800000x96, .f32⟩
  | .hbm, ⟨28, _⟩ => ⟨S800000x96, .f32⟩
  | .hbm, ⟨29, _⟩ => ⟨S_, .f32⟩
  | .hbm, ⟨30, _⟩ => ⟨S800000x96, .f32⟩
  | .hbm, ⟨31, _⟩ => ⟨S800000x96, .f32⟩
  | .hbm, ⟨32, _⟩ => ⟨S800000x96, .f32⟩
  | .hbm, ⟨33, _⟩ => ⟨S800000x1, .f32⟩
  | .hbm, ⟨34, _⟩ => ⟨S1x1, .f32⟩
  | .hbm, ⟨35, _⟩ => ⟨S800000x1, .f32⟩
  | .hbm, ⟨36, _⟩ => ⟨S800000x1, .f32⟩
  | .hbm, ⟨37, _⟩ => ⟨S800000x1, .f32⟩
  | .hbm, ⟨38, _⟩ => ⟨S800000x1, .f32⟩
  | .hbm, ⟨39, _⟩ => ⟨S_, .f32⟩
  | .hbm, ⟨40, _⟩ => ⟨S800000x1, .f32⟩
  | .hbm, ⟨41, _⟩ => ⟨S800000x1, .f32⟩
  | .hbm, ⟨42, _⟩ => ⟨S_, .f32⟩
  | .hbm, ⟨43, _⟩ => ⟨S800000x1, .f32⟩
  | .hbm, ⟨44, _⟩ => ⟨S800000x1, .f32⟩
  | .hbm, ⟨45, _⟩ => ⟨S800000x96, .f32⟩
  | .hbm, ⟨46, _⟩ => ⟨S800000x96, .f32⟩
  | .hbm, ⟨47, _⟩ => ⟨S_, .f32⟩
  | .hbm, ⟨48, _⟩ => ⟨S50000x96, .f32⟩
  | .hbm, ⟨49, _⟩ => ⟨S800000x1, .i32⟩
  | .hbm, ⟨50, _⟩ => ⟨S50000x96, .f32⟩
  | .hbm, ⟨51, _⟩ => ⟨S50000x192, .f32⟩
  | .hbm, ⟨52, _⟩ => ⟨S50000x96, .f32⟩
  | .hbm, ⟨53, _⟩ => ⟨S1x96, .f32⟩
  | .hbm, ⟨54, _⟩ => ⟨S50000x96, .f32⟩
  | .hbm, ⟨55, _⟩ => ⟨S50000x96, .f32⟩
  | .hbm, ⟨56, _⟩ => ⟨S50000x96, .f32⟩
  | .hbm, ⟨57, _⟩ => ⟨S50000x96, .f32⟩
  | .hbm, ⟨58, _⟩ => ⟨S_, .f32⟩
  | .hbm, ⟨59, _⟩ => ⟨S50000x96, .f32⟩
  | .hbm, ⟨60, _⟩ => ⟨S50000x96, .f32⟩
  | .hbm, ⟨61, _⟩ => ⟨S_, .f32⟩
  | .hbm, ⟨62, _⟩ => ⟨S50000x96, .f32⟩
  | .hbm, ⟨63, _⟩ => ⟨S50000x96, .f32⟩
  | .hbm, ⟨64, _⟩ => ⟨S50000x96, .f32⟩
  | .hbm, ⟨65, _⟩ => ⟨S50000x96, .f32⟩
  | .hbm, ⟨66, _⟩ => ⟨S1x96, .f32⟩
  | .hbm, ⟨67, _⟩ => ⟨S50000x96, .f32⟩
  | .hbm, ⟨68, _⟩ => ⟨S50000x96, .f32⟩
  | .hbm, ⟨69, _⟩ => ⟨S50000x96, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x3, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x3, .f32⟩
  | .hbm, ⟨88, _⟩ => ⟨S800000x3, .f32⟩
  | .hbm, ⟨89, _⟩ => ⟨S800000x3, .f32⟩
  | .hbm, ⟨90, _⟩ => ⟨S_, .f32⟩
  | .hbm, ⟨91, _⟩ => ⟨S800000, .f32⟩
  | .hbm, ⟨92, _⟩ => ⟨S800000x1, .f32⟩
  | .hbm, ⟨93, _⟩ => ⟨S800000x1, .f32⟩
  | .hbm, ⟨94, _⟩ => ⟨S_, .f32⟩
  | .hbm, ⟨95, _⟩ => ⟨S800000x1, .f32⟩
  | .hbm, ⟨96, _⟩ => ⟨S800000x1, .f32⟩
  | .hbm, ⟨97, _⟩ => ⟨S800000x3, .f32⟩
  | .hbm, ⟨98, _⟩ => ⟨S800000x3, .f32⟩
  | .hbm, ⟨99, _⟩ => ⟨S800000x96, .f32⟩
  | .hbm, ⟨100, _⟩ => ⟨S1x96, .f32⟩
  | .hbm, ⟨101, _⟩ => ⟨S800000x96, .f32⟩
  | .hbm, ⟨102, _⟩ => ⟨S800000x96, .f32⟩
  | .hbm, ⟨103, _⟩ => ⟨S800000x96, .f32⟩
  | .hbm, ⟨104, _⟩ => ⟨S800000x96, .f32⟩
  | .hbm, ⟨105, _⟩ => ⟨S_, .f32⟩
  | .hbm, ⟨106, _⟩ => ⟨S800000x96, .f32⟩
  | .hbm, ⟨107, _⟩ => ⟨S800000x96, .f32⟩
  | .hbm, ⟨108, _⟩ => ⟨S_, .f32⟩
  | .hbm, ⟨109, _⟩ => ⟨S800000x96, .f32⟩
  | .hbm, ⟨110, _⟩ => ⟨S800000x96, .f32⟩
  | .hbm, ⟨111, _⟩ => ⟨S800000x96, .f32⟩
  | .hbm, ⟨112, _⟩ => ⟨S800000x1, .f32⟩
  | .hbm, ⟨113, _⟩ => ⟨S1x1, .f32⟩
  | .hbm, ⟨114, _⟩ => ⟨S800000x1, .f32⟩
  | .hbm, ⟨115, _⟩ => ⟨S800000x1, .f32⟩
  | .hbm, ⟨116, _⟩ => ⟨S800000x3, .f32⟩
  | .hbm, ⟨117, _⟩ => ⟨S800000x3, .f32⟩
  | .hbm, ⟨118, _⟩ => ⟨S_, .f32⟩
  | .hbm, ⟨119, _⟩ => ⟨S50000x3, .f32⟩
  | .hbm, ⟨120, _⟩ => ⟨S800000x1, .i32⟩
  | .hbm, ⟨121, _⟩ => ⟨S50000x3, .f32⟩
  | .hbm, ⟨122, _⟩ => ⟨S50000x3, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_c : Ref sig .tc := ⟨.hbm, 70, rfl⟩
abbrev main_v35 : Ref sig .tc := ⟨.hbm, 71, rfl⟩
abbrev main_v36 : Ref sig .tc := ⟨.hbm, 72, rfl⟩
abbrev main_c_2 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_3 : Ref sig .tc := ⟨.hbm, 79, rfl⟩
abbrev main_v42 : Ref sig .tc := ⟨.hbm, 80, rfl⟩
abbrev main_v43 : Ref sig .tc := ⟨.hbm, 81, rfl⟩
abbrev main_c_4 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_call2_v0 : Ref sig .tc := ⟨.hbm, 89, rfl⟩
abbrev main_call2_cst : Ref sig .tc := ⟨.hbm, 90, rfl⟩
abbrev main_call2_v1 : Ref sig .tc := ⟨.hbm, 91, rfl⟩
abbrev main_call2_v2 : Ref sig .tc := ⟨.hbm, 92, rfl⟩
abbrev main_v50 : Ref sig .tc := ⟨.hbm, 93, rfl⟩
abbrev main_cst_5 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call3_v0 : Ref sig .tc := ⟨.hbm, 103, rfl⟩
abbrev main_call3_v1 : Ref sig .tc := ⟨.hbm, 104, rfl⟩
abbrev main_call3_cst : Ref sig .tc := ⟨.hbm, 105, rfl⟩
abbrev main_call3_v2 : Ref sig .tc := ⟨.hbm, 106, rfl⟩
abbrev main_call3_v3 : Ref sig .tc := ⟨.hbm, 107, rfl⟩
abbrev main_call3_cst_0 : Ref sig .tc := ⟨.hbm, 108, rfl⟩
abbrev main_call3_v4 : Ref sig .tc := ⟨.hbm, 109, rfl⟩
abbrev main_call3_v5 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_6 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S800000_S800000x1_0 : S800000.BroadcastsInDim S800000x1 (![0] : Fin 1 → Fin S800000x1.rank)
  concatenates_S50000x96_S50000x96_S50000x192_d1 : Shape.Concatenates [S50000x96, S50000x96] S50000x192 1
  bcast_S1x96_S50000x96_0_1 : S1x96.BroadcastsInDim S50000x96 (![0, 1] : Fin 2 → Fin S50000x96.rank)
  bcast_S_S800000 : S_.BroadcastsInDim S800000 (![] : Fin 0 → Fin S800000.rank)
  reducesTo_S800000x3_S800000_d1 : S800000x3.ReducesTo [1] S800000
  h_S_ : 0 < S_.numel
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  dot_S800000x96_S96x96_S800000x96_1_0_0_1_n_n_wf : DotDims.WF S800000x96 S96x96 S800000x96 [1] [0] [0] [1] [] []
  dot_S800000x96_S96x1_S800000x1_1_0_0_1_n_n_wf : DotDims.WF S800000x96 S96x1 S800000x1 [1] [0] [0] [1] [] []
  scatter_S50000x96_S800000x1_S800000x96_1_0_0_1_wf : ScatterDims.WF S50000x96 S800000x1 S800000x96 [1] [0] [0] 1
  dot_S50000x192_S192x96_S50000x96_1_0_0_1_n_n_wf : DotDims.WF S50000x192 S192x96 S50000x96 [1] [0] [0] [1] [] []
  dot_S50000x96_S96x96_S50000x96_1_0_0_1_n_n_wf : DotDims.WF S50000x96 S96x96 S50000x96 [1] [0] [0] [1] [] []
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1

variable [Facts₀]

def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def dot_S800000x96_S96x1_S800000x1_1_0_0_1_n_n : DotDims S800000x96 S96x1 S800000x1 where
  lhsContracting := [1]
  rhsContracting := [0]
  lhsNonContracting := [0]
  rhsNonContracting := [1]
  lhsBatch := []
  rhsBatch := []
  wf := dot_S800000x96_S96x1_S800000x1_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.Spec.lean ====
/-
  The three results of one message-passing layer on a graph of 50000 nodes and 800000 edges, entry by entry, as
  functions of the argument arrays over the extended reals.

  Edge e carries a message row m_e (96 numbers), a receiver index and a sender index. Two small perceptrons
  (96 → 96 → 1, the hidden layer passed through x · σ(x), σ the logistic function) read m_e: the first, followed by
  σ, gives the edge's attention a_e; the second gives a scalar φ_e. The weighted message of the edge is a_e · m_e.
  With r_e the difference of the sender's and the receiver's coordinates, the edge's coordinate shift is
  r_e / (|r_e| + 1) · φ_e, where |r_e| is the square root of the sum of the three squares.

  Node n receives the SUM of the weighted messages, and the sum of the shifts, of the edges whose receiver index is
  n. Its new feature row is a perceptron (192 → 96 → 96, the same hidden activation) of its old row followed by its
  received message, plus the old row; the product with the 192 × 96 weight matrix is written as the sum of the
  products with its upper and its lower half. Its new coordinates are the old ones plus the received shift.
-/
import Idealize.ShloMosaic.PureOps.Ideal
import Idealize.ShloMosaic.Lib.ValueIdx

noncomputable section

namespace Cert.Spec

open Idealize.ShloMosaic Idealize.ShloMosaic.ValueIdx

/-- A matrix of extended reals of the given extents. -/
abbrev Mat (a b : Nat) : Type := (⟨2, ![a, b]⟩ : Shape).Idx → EReal
/-- A vector of extended reals of the given extent. -/
abbrev Vc (a : Nat) : Type := (⟨1, ![a]⟩ : Shape).Idx → EReal

/-- The activation x · σ(x). -/
def silu (x : EReal) : EReal := x * Ideal.logistic x

/-- A dense layer at output column j: the row's product with column j of the weights, plus the bias. -/
def dense {K J : Nat} (x : Fin K → EReal) (W : Mat K J) (b : Vc J) (j : Fin J) : EReal :=
  (∑ k : Fin K, x k * W (ix2 k j)) + b (ix1 j)

/-- The number one as both programs spell it. -/
def one : EReal := Ideal.ofBits .f32 0x3F800000#32

/-- A one-row matrix read as a vector. -/
def rowVec {J : Nat} (r : Mat 1 J) : Vc J := fun i => r (ix2 0 (i 0))

/-- Three neighbouring columns of a six-column matrix, from column off. -/
def cols3 (off : Nat) (h : off + 3 ≤ 6) (x : Mat 800000 6) : Mat 800000 3 :=
  fun i => x (ix2 (i 0) ⟨off + (i 1).val, by have h1 : (i 1).val < 3 := (i 1).isLt; omega⟩)

/-! ## One edge -/

/-- The hidden layer of a two-layer perceptron on edge e's message row. -/
def hidden (mj : Mat 800000 96) (W1 : Mat 96 96) (b1 : Vc 96) (e : Fin 800000) (j : Fin 96) : EReal :=
  silu (dense (fun k => mj (ix2 e k)) W1 b1 j)

/-- The perceptron's scalar output on edge e. -/
def head (mj : Mat 800000 96) (W1 : Mat 96 96) (b1 : Vc 96) (W2 : Mat 96 1) (b2 : Vc 1) (e : Fin 800000) : EReal :=
  dense (hidden mj W1 b1 e) W2 b2 0

/-- Edge e's attention: the logistic function of the first perceptron's output. -/
def attention (mj : Mat 800000 96) (Wa1 : Mat 96 96) (ba1 : Vc 96) (Wa2 : Mat 96 1) (ba2 : Vc 1) (e : Fin 800000) : EReal :=
  Ideal.logistic (head mj Wa1 ba1 Wa2 ba2 e)

/-- Column c of edge e's weighted message. -/
def message (mj : Mat 800000 96) (Wa1 : Mat 96 96) (ba1 : Vc 96) (Wa2 : Mat 96 1) (ba2 : Vc 1) (e : Fin 800000) (c : Fin 96) : EReal :=
  mj (ix2 e c) * attention mj Wa1 ba1 Wa2 ba2 e

/-- Component k of the difference of the sender's and the receiver's coordinates on edge e (cs and cr are the
    coordinate rows the two index rows select, one row per edge). -/
def rel (cs cr : Mat 800000 3) (e : Fin 800000) (k : Fin 3) : EReal := cs (ix2 e k) - cr (ix2 e k)

/-- The length of that difference. -/
def dist (cs cr : Mat 800000 3) (e : Fin 800000) : EReal := Ideal.sqrt (∑ k : Fin 3, rel cs cr e k * rel cs cr e k)

/-- Component k of edge e's coordinate shift, given the second perceptron's output phi on that edge. -/
def shift (cs cr : Mat 800000 3) (phi : Fin 800000 → EReal) (e : Fin 800000) (k : Fin 3) : EReal :=
  Ideal.div (rel cs cr e k) (dist cs cr e + one) * phi e

/-! ## One node -/

/-- The sum of u over the edges whose receiver index, read as a signed integer, is n. -/
def received (recv : Fin 800000 → BitVec 32) (u : Fin 800000 → EReal) (n : Fin 50000) : EReal :=
  ∑ e ∈ Finset.univ.filter (fun e : Fin 800000 => (recv e).toInt = (n.val : Int)), u e

/-- The hidden layer of the node perceptron at node n: the old feature row against the upper half of the weights,
    the received message against the lower half. -/
def nodeHidden (nf : Mat 50000 96) (mi : Fin 50000 → Fin 96 → EReal) (Wn1 : Mat 192 96) (bn1 : Vc 96)
    (n : Fin 50000) (j : Fin 96) : EReal :=
  silu (((∑ k : Fin 96, nf (ix2 n k) * Wn1 (ix2 (⟨k.val, by omega⟩ : Fin 192) j))
    + (∑ k : Fin 96, mi n k * Wn1 (ix2 (⟨96 + k.val, by omega⟩ : Fin 192) j))) + bn1 (ix1 j))

/-- Column j of node n's new feature row. -/
def newFeature (nf : Mat 50000 96) (mi : Fin 50000 → Fin 96 → EReal) (Wn1 : Mat 192 96) (bn1 : Vc 96)
    (Wn2 : Mat 96 96) (bn2 : Vc 96) (n : Fin 50000) (j : Fin 96) : EReal :=
  dense (nodeHidden nf mi Wn1 bn1 n) Wn2 bn2 j + nf (ix2 n j)

/-- Component k of node n's new coordinates. -/
def newCoord (co : Mat 50000 3) (dc : Fin 50000 → Fin 3 → EReal) (n : Fin 50000) (k : Fin 3) : EReal :=
  co (ix2 n k) + dc n k

end Cert.Spec

end
-- ==== Proof.LibSegSum.lean ====
/-
  A row-scattering sum read at an entry.

  An accumulating scatter of an E × C array of updates into an N × C array, one row index per update row (the
  indices an E × 1 array of words), adds update row e to the row its index names and drops it when the index,
  read as a signed integer, names no row. Read at entry (n, c) of the result on the extended reals it is therefore
  the entry of the array scattered into, plus the sum of column c of the updates over the rows e whose index is n.
  The column plays no part in which rows are summed: scattering a wider array and reading a column gives what
  scattering that column alone gives.

  The argument. For update entry (e, c') the window starts, on the row axis, at row e's index read signed, and on
  the column axis at 0; the window coordinate is 0 on the row axis (an inserted axis) and c' on the column axis.
  So the entry lands at (index of e, c') when 0 ≤ index of e < N, and nowhere otherwise; it lands at (n, c) exactly
  when c' = c and the index of e is n. The update entries landing at (n, c) are thus the (e, c) with e's index n,
  in bijection with those rows e, and the two sums agree term by term.
-/
import Idealize.ShloMosaic.PureOps.Ideal
import Idealize.ShloMosaic.Lib.ValueIdx

noncomputable section

namespace Cert.LibSegSum

open Idealize.ShloMosaic Idealize.ShloMosaic.ValueIdx

/-- The dimension numbers of a row scatter: the updates' second axis is the window, the operand's first axis is
    the one the indices address, one index per update row. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry (e, c') starts at row e's index, read signed: the row axis is the
    one axis the indices address, and the index read is the one at (e, 0). -/
theorem start_rows_zero :
    (rowsDims N E C wf).start (ix2 e c') idx 0 = (idx (ix2 e 0)).toInt := by
  unfold ScatterDims.start
  rw [dif_pos (show (0 : Fin 2) ∈ (rowsDims N E C wf).scatterDimsToOperandDims from List.mem_singleton.mpr rfl)]
  have hsi : (rowsDims N E C wf).siIdx (ix2 e c') ⟨List.idxOf (0 : Fin 2) (rowsDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at 0: the indices do not address that axis. -/
theorem start_rows_one :
    (rowsDims N E C wf).start (ix2 e c') idx 1 = 0 := by
  unfold ScatterDims.start
  have hk : ¬ (1 : Fin 2) ∈ (rowsDims N E C wf).scatterDimsToOperandDims := by
    show ¬ (1 : Fin 2) ∈ ([0] : List (Fin 2)); decide
  rw [dif_neg hk]

/-- On the row axis the window coordinate is 0: the row axis is an inserted window axis. -/
theorem window_rows_zero : (rowsDims N E C wf).window (ix2 e c') 0 = 0 := by
  unfold ScatterDims.window
  have hk : ¬ (0 : Fin 2) ∈ (rowsDims N E C wf).sKept := by
    show ¬ (0 : Fin 2) ∈ ([1] : List (Fin 2)); decide
  rw [dif_neg hk]

/-- On the column axis the window coordinate is the update entry's column: the column axis is the operand's one
    kept axis, and the updates' one window axis is their second. -/
theorem window_rows_one : (rowsDims N E C wf).window (ix2 e c') 1 = c'.val := by
  unfold ScatterDims.window
  have hk : (1 : Fin 2) ∈ (rowsDims N E C wf).sKept := by
    show (1 : Fin 2) ∈ ([1] : List (Fin 2)); decide
  rw [dif_pos hk]
  rfl

end Coordinates

/-- Where update entry (e, c') lands: at (n, c) exactly when c' = c and row e's index, read signed, is n. -/
theorem resultIdx_rows_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsDims N E C wf).resultIdx? (ix2 e c') idx = some (ix2 n c)
      ↔ c' = c ∧ (idx (ix2 e 0)).toInt = (n.val : Int) := by
  have h0 := start_rows_zero wf idx e c'
  have h1 := start_rows_one wf idx e c'
  have w0 := window_rows_zero wf e c'
  have w1 := window_rows_one wf e c'
  unfold ScatterDims.resultIdx?
  constructor
  · -- The entry lands somewhere, at (start + window) on each axis; read the two coordinates of that place.
    intro h
    split at h
    · rename_i hc
      have hf := Option.some.inj h
      have e0 := congrArg (fun f => (f 0).val) hf
      have e1 := congrArg (fun f => (f 1).val) hf
      have c0 := hc 0
      have c1 := hc 1
      simp only [h0, h1, w0, w1] at e0 e1 c0 c1
      refine ⟨Fin.ext ?_, ?_⟩
      · have : ((ix2 n c : (⟨2, ![N, C]⟩ : Shape).Idx) 1).val = c.val := rfl
        omega
      · have : ((ix2 n c : (⟨2, ![N, C]⟩ : Shape).Idx) 0).val = n.val := rfl
        omega
    · exact absurd h (by simp)
  · -- With c' = c and the index n, the place (n + 0, 0 + c) is inside the operand, and it is (n, c).
    rintro ⟨rfl, hn⟩
    have hc : ∀ a, 0 ≤ (rowsDims N E C wf).start (ix2 e c') idx a + (rowsDims N E C wf).window (ix2 e c') a ∧
        (rowsDims N E C wf).start (ix2 e c') idx a + (rowsDims N E C wf).window (ix2 e c') a
          < (⟨2, ![N, C]⟩ : Shape).size a := by
      intro a
      match a with
      | ⟨0, _⟩ =>
        show 0 ≤ (rowsDims N E C wf).start (ix2 e c') idx 0 + (rowsDims N E C wf).window (ix2 e c') 0 ∧
          (rowsDims N E C wf).start (ix2 e c') idx 0 + (rowsDims N E C wf).window (ix2 e c') 0 < (N : Int)
        rw [h0, w0, hn]; have := n.isLt; omega
      | ⟨1, _⟩ =>
        show 0 ≤ (rowsDims N E C wf).start (ix2 e c') idx 1 + (rowsDims N E C wf).window (ix2 e c') 1 ∧
          (rowsDims N E C wf).start (ix2 e c') idx 1 + (rowsDims N E C wf).window (ix2 e c') 1 < (C : Int)
        rw [h1, w1]; have := c'.isLt; omega
    rw [dif_pos hc]
    congr 1
    funext a
    refine Fin.ext ?_
    match a with
    | ⟨0, _⟩ =>
      show ((rowsDims N E C wf).start (ix2 e c') idx 0 + (rowsDims N E C wf).window (ix2 e c') 0).toNat = n.val
      rw [h0, w0, hn]; omega
    | ⟨1, _⟩ =>
      show ((rowsDims N E C wf).start (ix2 e c') idx 1 + (rowsDims N E C wf).window (ix2 e c') 1).toNat = c'.val
      rw [h1, w1]; omega

/-- The accumulating row scatter read at entry (n, c). -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowsDims N E C wf) x idx upd (ix2 n c)
      = x (ix2 n c) + ∑ e ∈ Finset.univ.filter (fun e : Fin E => (idx (ix2 e 0)).toInt = (n.val : Int)), upd (ix2 e c) := by
  unfold Ideal.hostScatterAdd
  congr 1
  -- Every update index is (a, b) for a row a and a column b.
  have split : ∀ j : (⟨2, ![E, C]⟩ : Shape).Idx, ∃ (a : Fin E) (b : Fin C), j = ix2 a b :=
    fun j => ⟨j 0, j 1, eq_ix2 j⟩
  -- The update entries landing at (n, c) and the rows whose index is n correspond by (a, b) ↦ a and e ↦ (e, c).
  refine Finset.sum_nbij' (fun j => (j 0 : Fin E)) (fun e => ix2 e c) ?_ ?_ ?_ ?_ ?_
  · intro j hj
    obtain ⟨a, b, rfl⟩ := split j
    have h := (resultIdx_rows_iff wf idx a b n c).1 (Finset.mem_filter.1 hj).2
    exact Finset.mem_filter.2 ⟨Finset.mem_univ _, h.2⟩
  · intro e he
    exact Finset.mem_filter.2 ⟨Finset.mem_univ _,
      (resultIdx_rows_iff wf idx e c n c).2 ⟨rfl, (Finset.mem_filter.1 he).2⟩⟩
  · intro j hj
    obtain ⟨a, b, rfl⟩ := split j
    have h := (resultIdx_rows_iff wf idx a b n c).1 (Finset.mem_filter.1 hj).2
    show ix2 a c = ix2 a b
    rw [h.1]
  · intro e _
    rfl
  · intro j hj
    obtain ⟨a, b, rfl⟩ := split j
    have h := (resultIdx_rows_iff wf idx a b n c).1 (Finset.mem_filter.1 hj).2
    show upd (ix2 a b) = upd (ix2 a c)
    rw [h.1]

end Cert.LibSegSum

end
-- ==== Proof.KernelHost.lean ====
/-
  The host operations around the two launches, read as values.

  Before the first launch the program cuts the two rows of the index array out (receivers, then senders), selects for
  each a coordinate row per edge, joins the two selections side by side into a six-column array and reshapes the four
  bias vectors into one-row matrices. A row selection first adds the number of nodes to a negative index, then
  reads the coordinate array at the index and keeps what it read only where the index lies between 0 and 49999,
  writing a fill value elsewhere. Where every index of the row is already in that range nothing is wrapped and
  nothing is filled: the selection IS the plain read.
-/
import proofs.«430715_j17815524344039_3_alg».proof.Proof.Gen.KernelIdeal.Frame
import proofs.«430715_j17815524344039_3_alg».proof.Proof.Spec
import proofs.«430715_j17815524344039_3_alg».proof.Proof.LibSegSum
import Idealize.ShloMosaic.Lib.ValueIdx
import Idealize.ShloMosaic.Lib.ValueLayout
import Idealize.ShloMosaic.Lib.Pipeline.Value
import Idealize.ShloMosaic.Lib.Affine
import Idealize.ShloMosaic.Lib.StableHlo.Run
import Idealize.ShloMosaic.PureOps.Reduce

set_option maxRecDepth 16384

noncomputable section

namespace Cert.KernelIdeal.HostSide

open Idealize.ShloMosaic Idealize.ShloMosaic.TcCoe Idealize.ShloMosaic.ValueIdx Idealize.ShloMosaic.StableHlo
open Cert.KernelIdeal Cert.KernelIdeal.Gen Cert.Spec

/-! ## A conjunction of ones is one -/

/-- Folding "and" over words that are all one, from one, gives one. -/
theorem foldl_andi_ones {ι : Type} (x : ι → BitVec 1) :
    ∀ l : List ι, (∀ i ∈ l, x i = 1#1) → l.foldl (fun r i => IntOp.andi r (x i)) 1#1 = 1#1
  | [], _ => rfl
  | a :: l, h => by
    rw [List.foldl_cons, h a (List.mem_cons_self ..), show IntOp.andi (1#1) (1#1) = 1#1 from by decide]
    exact foldl_andi_ones x l fun i hi => h i (List.mem_cons_of_mem _ hi)

/-- A reduction by "and" of an array of ones, from one, is one at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun i _ => hx i

/-! ## A row selection whose indices are in range -/

/-- An index row after negative entries are moved up by the number of nodes. -/
def wrapped (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The same as a one-column array: the start indices of the read. -/
def starts (v : IVec S800000 32) : IVec S800000x1 32 :=
  broadcastInDim S800000x1 ![0] bcast_S800000_S800000x1_0 (wrapped v)

/-- Per edge, whether its start index lies between 0 and 49999. -/
def inRange (v : IVec S800000 32) : IVec S800000 1 :=
  Host.reduce IntOp.andi
    (andi (cmpi .sge (starts v) (broadcastInDim S800000x1 ![] bcast_S_S800000x1 (constantI S_ 32 0#32)))
      (cmpi .sle (starts v) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The plain read of the coordinate rows the start indices name. -/
def picked (co : FVec Ideal S50000x3 .f32) (v : IVec S800000 32) : FVec Ideal S800000x3 .f32 :=
  Host.gather gather_S50000x3_S800000x1_S800000x3_1_0_n_n_0_1_13 co (starts v)

/-- The row selection as the program computes it: the read where the index is in range, the fill value elsewhere. -/
def taken (co : FVec Ideal S50000x3 .f32) (v : IVec S800000 32) : FVec Ideal S800000x3 .f32 :=
  select (broadcastInDim S800000x3 ![0] bcast_S800000_S800000x3_0 (inRange v)) (picked co v)
    (broadcastInDim S800000x3 ![] bcast_S_S800000x3 (constant S_ .f32 0x7FC00000#32))

/-- An index row is in range when every entry, read as a signed integer, lies in [0, 50000). -/
def RowOk (v : IVec S800000 32) : Prop := ∀ i : S800000.Idx, 0 ≤ (v i).toInt ∧ (v i).toInt < 50000

theorem wrapped_of_ok {v : IVec S800000 32} (hv : RowOk v) : wrapped v = v := by
  funext i
  unfold wrapped
  rw [select_apply]
  have h0 : cmpi .slt v (broadcastInDim S800000 ![] bcast_S_S800000 (constantI S_ 32 0#32)) i = 0#1 := by
    apply eq_zero_of_ne_one
    show ¬ IntOp.cmpi .slt (v i) (0#32) = 1#1
    rw [IntOp.cmpi_slt]
    have := (hv i).1
    simp only [show (0#32 : BitVec 32).toInt = 0 from by decide]
    omega
  rw [h0, select_zero]

theorem inRange_of_ok {v : IVec S800000 32} (hv : RowOk v) (i : S800000.Idx) : inRange v i = 1#1 := by
  unfold inRange
  refine reduce_andi_ones _ _ _ _ (fun y => ?_) rfl i
  have hs : starts v y = v (ix1 (y 0)) := by
    unfold starts
    rw [wrapped_of_ok hv]
    exact broadcastInDim_apply _ _ _ _ _ (fun a => by
      obtain rfl : a = 0 := Subsingleton.elim _ _
      rfl)
  show IntOp.andi (IntOp.cmpi .sge (starts v y) (0#32)) (IntOp.cmpi .sle (starts v y) (49999#32)) = 1#1
  rw [IntOp.andi_eq_one, IntOp.cmpi_sge, IntOp.cmpi_sle, hs]
  have := hv (ix1 (y 0))
  simp only [show (0#32 : BitVec 32).toInt = 0 from by decide, show (49999#32 : BitVec 32).toInt = 49999 from by decide]
  omega

/-- Where the index row is in range the row selection is the plain read. -/
theorem taken_of_ok (co : FVec Ideal S50000x3 .f32) {v : IVec S800000 32} (hv : RowOk v) : taken co v = picked co v := by
  funext j
  unfold taken
  rw [select_apply]
  have h1 : broadcastInDim S800000x3 ![0] bcast_S800000_S800000x3_0 (inRange v) j = inRange v (ix1 (j 0)) :=
    broadcastInDim_apply _ _ _ _ _ (fun a => by
      obtain rfl : a = 0 := Subsingleton.elim _ _
      rfl)
  rw [h1, inRange_of_ok hv, select_one]

/-! ## Contents carried to a buffer's own type and back are unchanged -/

theorem ofBuf_toBuf {sig' : RefSig} {Val : EltTy → Type} {T : BufTy} (x : StableHlo.TRef sig' T) (v : T.Contents Val) :
    x.ofBuf (x.toBuf v) = v := by
  obtain ⟨r, h1, h2, h3⟩ := x
  subst h1
  rfl

theorem toBuf_ofBuf {sig' : RefSig} {Val : EltTy → Type} {T : BufTy} (x : StableHlo.TRef sig' T) (v : x.ref.ty.Contents Val) :
    x.toBuf (x.ofBuf v) = v := by
  obtain ⟨r, h1, h2, h3⟩ := x
  subst h1
  rfl

/-! ## What each host stretch leaves, from any contents -/

section Stretches
-- the buffers' contents before a stretch
variable (V : Valuation τ sig (Elt Ideal))

/-- Row 0 of an index array, as a vector: the receivers. -/
def rowOf0 (x : IVec S2x800000 32) : IVec S800000 32 :=
  shapeCast S800000 (extractStridedSlice S1x800000 ![0, 0] x slices_S2x800000_S1x800000_0_0) shapeCasts_S1x800000_S800000

/-- Row 1 of an index array, as a vector: the senders. -/
def rowOf1 (x : IVec S2x800000 32) : IVec S800000 32 :=
  shapeCast S800000 (extractStridedSlice S1x800000 ![1, 0] x slices_S2x800000_S1x800000_1_0) shapeCasts_S1x800000_S800000

theorem stretch0_recv : StableHlo.after hostOps0 V (Proc.devRef .tc main_v1) = rowOf0 (V (Proc.devRef .tc main_arg3)) := by
  after_results
  rfl

theorem stretch0_send : StableHlo.after hostOps0 V (Proc.devRef .tc main_v3) = rowOf1 (V (Proc.devRef .tc main_arg3)) := by
  after_results
  rfl

/-- The first row selection: the senders' coordinate rows. -/
theorem stretch1_sel : StableHlo.after hostOps0_1 V (Proc.devRef .tc main_v4)
    = taken (V (Proc.devRef .tc main_arg1)) (V (Proc.devRef .tc main_v3)) := by
  after_results_simp
  simp only [ofBuf_toBuf]
  have e3 : (StableHlo.TRef.of main_v3 : StableHlo.TRef sig ⟨S800000, .i32⟩).ofBuf (V (Proc.devRef .tc main_v3))
      = V (Proc.devRef .tc main_v3) := eq_of_heq (cast_heq _ _)
  have e1 : (StableHlo.TRef.of main_arg1 : StableHlo.TRef sig ⟨S50000x3, .f32⟩).ofBuf (V (Proc.devRef .tc main_arg1))
      = V (Proc.devRef .tc main_arg1) := eq_of_heq (cast_heq _ _)
  rw [e3, e1]
  exact eq_of_heq (cast_heq _ _)

/-! ## The buffers each stretch writes -/

/-- The buffers the first stretch (the two index rows) writes. -/
def writes0 : List (Ref sig .tc) := [main_v0, main_v1, main_v2, main_v3]

theorem writes0_sub : (hostOps0 : List (HloOp τ sig (Elt Ideal))).Forall fun op =>
    op.writes ⊆ (writes0.map (Proc.devRef (τ := τ) .tc)).toFinset := by
  simp only [hostOps0, writes0, List.Forall, StableHlo.nullary_writes, StableHlo.unary_writes, StableHlo.binary_writes,
    StableHlo.ternary_writes, StableHlo.reshape_writes, Finset.singleton_subset_iff, List.map_cons, List.map_nil,
    List.toFinset_cons, List.toFinset_nil, Finset.mem_insert, Finset.mem_singleton, true_or, or_true, and_self]

/-- The buffers the first row selection writes. -/
def writes1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]

theorem writes1_sub : (hostOps0_1 : List (HloOp τ sig (Elt Ideal))).Forall fun op =>
    op.writes ⊆ (writes1.map (Proc.devRef (τ := τ) .tc)).toFinset := by
  simp only [hostOps0_1, writes1, List.Forall, StableHlo.nullary_writes, StableHlo.unary_writes, StableHlo.binary_writes,
    StableHlo.ternary_writes, StableHlo.reshape_writes, Finset.singleton_subset_iff, List.map_cons, List.map_nil,
    List.toFinset_cons, List.toFinset_nil, Finset.mem_insert, Finset.mem_singleton, true_or, or_true, and_self]

/-- The buffers the second row selection writes. -/
def writes2 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v5]

theorem writes2_sub : (hostOps0_2 : List (HloOp τ sig (Elt Ideal))).Forall fun op =>
    op.writes ⊆ (writes2.map (Proc.devRef (τ := τ) .tc)).toFinset := by
  simp only [hostOps0_2, writes2, List.Forall, StableHlo.nullary_writes, StableHlo.unary_writes, StableHlo.binary_writes,
    StableHlo.ternary_writes, StableHlo.reshape_writes, Finset.singleton_subset_iff, List.map_cons, List.map_nil,
    List.toFinset_cons, List.toFinset_nil, Finset.mem_insert, Finset.mem_singleton, true_or, or_true, and_self]

/-- The buffers the last stretch before the first launch writes: the joined pairs and the four reshaped biases. -/
def writes3 : List (Ref sig .tc) := [main_v6, main_v7, main_v8, main_v9, main_v10]

theorem writes3_sub : (hostOps0_3 : List (HloOp τ sig (Elt Ideal))).Forall fun op =>
    op.writes ⊆ (writes3.map (Proc.devRef (τ := τ) .tc)).toFinset := by
  simp only [hostOps0_3, writes3, List.Forall, StableHlo.nullary_writes, StableHlo.unary_writes, StableHlo.binary_writes,
    StableHlo.ternary_writes, StableHlo.reshape_writes, Finset.singleton_subset_iff, List.map_cons, List.map_nil,
    List.toFinset_cons, List.toFinset_nil, Finset.mem_insert, Finset.mem_singleton, true_or, or_true, and_self]

/-- The buffers the stretch between the launches writes: the received sums and the two reshaped biases. -/
def writes4 : List (Ref sig .tc) := [main_cst, main_v12, main_v13, main_v14, main_v15, main_v16]

theorem writes4_sub : (hostOps1 : List (HloOp τ sig (Elt Ideal))).Forall fun op =>
    op.writes ⊆ (writes4.map (Proc.devRef (τ := τ) .tc)).toFinset := by
  simp only [hostOps1, writes4, List.Forall, StableHlo.nullary_writes, StableHlo.unary_writes, StableHlo.binary_writes,
    StableHlo.ternary_writes, StableHlo.reshape_writes, Finset.singleton_subset_iff, List.map_cons, List.map_nil,
    List.toFinset_cons, List.toFinset_nil, Finset.mem_insert, Finset.mem_singleton, true_or, or_true, and_self]

/-- The buffers the stretch after the second launch writes: the two results cut out of its output. -/
def writes5 : List (Ref sig .tc) := [main_v18, main_v19]

theorem writes5_sub : (hostOps2 : List (HloOp τ sig (Elt Ideal))).Forall fun op =>
    op.writes ⊆ (writes5.map (Proc.devRef (τ := τ) .tc)).toFinset := by
  simp only [hostOps2, writes5, List.Forall, StableHlo.nullary_writes, StableHlo.unary_writes, StableHlo.binary_writes,
    StableHlo.ternary_writes, StableHlo.reshape_writes, Finset.singleton_subset_iff, List.map_cons, List.map_nil,
    List.toFinset_cons, List.toFinset_nil, Finset.mem_insert, Finset.mem_singleton, true_or, or_true, and_self]

/-! ## What the remaining stretches compute -/

/-- The second row selection: the receivers' coordinate rows. -/
theorem stretch2_sel : StableHlo.after hostOps0_2 V (Proc.devRef .tc main_v5)
    = taken (V (Proc.devRef .tc main_arg1)) (V (Proc.devRef .tc main_v1)) := by
  after_results_simp
  simp only [ofBuf_toBuf]
  have e3 : (StableHlo.TRef.of main_v1 : StableHlo.TRef sig ⟨S800000, .i32⟩).ofBuf (V (Proc.devRef .tc main_v1))
      = V (Proc.devRef .tc main_v1) := eq_of_heq (cast_heq _ _)
  have e1 : (StableHlo.TRef.of main_arg1 : StableHlo.TRef sig ⟨S50000x3, .f32⟩).ofBuf (V (Proc.devRef .tc main_arg1))
      = V (Proc.devRef .tc main_arg1) := eq_of_heq (cast_heq _ _)
  rw [e3, e1]
  exact eq_of_heq (cast_heq _ _)

/-- The two selections side by side: per edge, the sender's coordinates then the receiver's. -/
theorem stretch3_pairs : StableHlo.after hostOps0_3 V (Proc.devRef .tc main_v6)
    = concatenate S800000x6 1 [⟨S800000x3, V (Proc.devRef .tc main_v4)⟩, ⟨S800000x3, V (Proc.devRef .tc main_v5)⟩]
        concatenates_S800000x3_S800000x3_S800000x6_d1 := by
  after_results

/-- The four bias vectors as one-row matrices. -/
theorem stretch3_ba1 : StableHlo.after hostOps0_3 V (Proc.devRef .tc main_v7)
    = shapeCast S1x96 (V (Proc.devRef .tc main_arg9)) shapeCasts_S96_S1x96 := by
  after_results
  rfl
theorem stretch3_ba2 : StableHlo.after hostOps0_3 V (Proc.devRef .tc main_v8)
    = shapeCast S1x1 (V (Proc.devRef .tc main_arg11)) shapeCasts_S1_S1x1 := by
  after_results
  rfl
theorem stretch3_bx1 : StableHlo.after hostOps0_3 V (Proc.devRef .tc main_v9)
    = shapeCast S1x96 (V (Proc.devRef .tc main_arg13)) shapeCasts_S96_S1x96 := by
  after_results
  rfl
theorem stretch3_bx2 : StableHlo.after hostOps0_3 V (Proc.devRef .tc main_v10)
    = shapeCast S1x1 (V (Proc.devRef .tc main_arg15)) shapeCasts_S1_S1x1 := by
  after_results
  rfl

/-- The received sums: the first launch's 128-column output scattered by receiver into an array of zeros. -/
theorem stretch4_sums : StableHlo.after hostOps1 V (Proc.devRef .tc main_v14)
    = Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (V (Proc.devRef .tc main_v1)))
        (V (Proc.devRef .tc main_v11_0)) := by
  after_results
theorem stretch4_bn1 : StableHlo.after hostOps1 V (Proc.devRef .tc main_v15)
    = shapeCast S1x96 (V (Proc.devRef .tc main_arg5)) shapeCasts_S96_S1x96 := by
  after_results
  rfl
theorem stretch4_bn2 : StableHlo.after hostOps1 V (Proc.devRef .tc main_v16)
    = shapeCast S1x96 (V (Proc.devRef .tc main_arg7)) shapeCasts_S96_S1x96 := by
  after_results
  rfl

/-- The first two results: columns 0 … 95 and columns 96 … 98 of the second launch's output. -/
theorem stretch5_feats : StableHlo.after hostOps2 V (Proc.devRef .tc main_v18)
    = extractStridedSlice S50000x96 ![0, 0] (V (Proc.devRef .tc main_v17)) slices_S50000x128_S50000x96_0_0 := by
  after_results
theorem stretch5_coords : StableHlo.after hostOps2 V (Proc.devRef .tc main_v19)
    = extractStridedSlice S50000x3 ![0, 96] (V (Proc.devRef .tc main_v17)) slices_S50000x128_S50000x3_0_96 := by
  after_results

end Stretches

/-! ## From the launch memory to each boundary -/

-- the launch memory and the generator registers
variable (m : (ℓ : Loc nD τ sig) → Buf (Elt Ideal) ℓ) (ρ : Dev nD → PrngReg)

/-- A buffer the first stretch does not write holds its launch contents after it. -/
theorem W1_kept (c : Dev nD) (b : Ref sig .tc) (h0 : b ∉ writes0) :
    W1 m ρ c (Proc.devRef .tc b) = m ((c : Thread nD τ).loc b) :=
  StableHlo.after_of_writes_sub hostOps0 (W0 m ρ c) writes0_sub h0

theorem W2_kept (c : Dev nD) (b : Ref sig .tc) (h0 : b ∉ writes0) (h1 : b ∉ writes1) :
    W2 m ρ c (Proc.devRef .tc b) = m ((c : Thread nD τ).loc b) :=
  (StableHlo.after_of_writes_sub hostOps0_1 (W1 m ρ c) writes1_sub h1).trans (W1_kept m ρ c b h0)

theorem W3_kept (c : Dev nD) (b : Ref sig .tc) (h0 : b ∉ writes0) (h1 : b ∉ writes1) (h2 : b ∉ writes2) :
    W3 m ρ c (Proc.devRef .tc b) = m ((c : Thread nD τ).loc b) :=
  (StableHlo.after_of_writes_sub hostOps0_2 (W2 m ρ c) writes2_sub h2).trans (W2_kept m ρ c b h0 h1)

/-- A buffer no stretch before the first launch writes holds its launch contents when the launch is entered. -/
theorem W4_kept (c : Dev nD) (b : Ref sig .tc) (h0 : b ∉ writes0) (h1 : b ∉ writes1) (h2 : b ∉ writes2) (h3 : b ∉ writes3) :
    W4 m ρ c (Proc.devRef .tc b) = m ((c : Thread nD τ).loc b) :=
  (StableHlo.after_of_writes_sub hostOps0_3 (W3 m ρ c) writes3_sub h3).trans (W3_kept m ρ c b h0 h1 h2)

/-- The same through the first launch, for a buffer that is none of its arrays, … -/
theorem W5_kept (c : Dev nD) (b : Ref sig .tc) (hne : ∀ w, Pipeline.arrRef spec0 w ≠ b)
    (h0 : b ∉ writes0) (h1 : b ∉ writes1) (h2 : b ∉ writes2) (h3 : b ∉ writes3) :
    W5 m ρ c (Proc.devRef .tc b) = m ((c : Thread nD τ).loc b) :=
  (W5_of_ne m ρ c b hne).trans (W4_kept m ρ c b h0 h1 h2 h3)

/-- … and through the stretch between the launches. -/
theorem W6_kept (c : Dev nD) (b : Ref sig .tc) (hne : ∀ w, Pipeline.arrRef spec0 w ≠ b)
    (h0 : b ∉ writes0) (h1 : b ∉ writes1) (h2 : b ∉ writes2) (h3 : b ∉ writes3) (h4 : b ∉ writes4) :
    W6 m ρ c (Proc.devRef .tc b) = m ((c : Thread nD τ).loc b) :=
  (StableHlo.after_of_writes_sub hostOps1 (W5 m ρ c) writes4_sub h4).trans (W5_kept m ρ c b hne h0 h1 h2 h3)

/-- The receiver row and the sender row of the launch memory's index array. -/
abbrev recvRow (c : Dev nD) : IVec S800000 32 := rowOf0 (m ((c : Thread nD τ).loc main_arg3))
abbrev sendRow (c : Dev nD) : IVec S800000 32 := rowOf1 (m ((c : Thread nD τ).loc main_arg3))

theorem W1_recv (c : Dev nD) : W1 m ρ c (Proc.devRef .tc main_v1) = recvRow m c := stretch0_recv (W0 m ρ c)
theorem W1_send (c : Dev nD) : W1 m ρ c (Proc.devRef .tc main_v3) = sendRow m c := stretch0_send (W0 m ρ c)

end Cert.KernelIdeal.HostSide

end
-- ==== Proof.KernelPairs.lean ====
/-
  The coordinate pairs the first launch reads, where both index rows are in range: columns 0 … 2 of the pair array
  are the plain read of the coordinate rows the sender indices name, columns 3 … 5 that of the rows the receiver
  indices name. Also: an entry of an index row is the entry of the index array in that row, and a vector reshaped
  to a one-row matrix and read back as a vector is the vector.
-/
import proofs.«430715_j17815524344039_3_alg».proof.Proof.KernelHost

set_option maxRecDepth 16384

noncomputable section

namespace Cert.KernelIdeal.HostSide

open Idealize.ShloMosaic Idealize.ShloMosaic.TcCoe Idealize.ShloMosaic.ValueIdx Idealize.ShloMosaic.StableHlo
open Cert.KernelIdeal Cert.KernelIdeal.Gen Cert.Spec

/-! ## Entries of the index rows -/

theorem rowOf0_apply (x : IVec S2x800000 32) (e : Fin 800000) : rowOf0 x (ix1 e) = x (ix2 0 e) := by
  unfold rowOf0
  rw [shapeCast_1a_a_apply]
  exact extractStridedSlice_apply _ _ _ _ _ (fun a => by
    match a with
    | ⟨0, _⟩ => rfl
    | ⟨1, _⟩ => exact (Nat.zero_add _).symm)

theorem rowOf1_apply (x : IVec S2x800000 32) (e : Fin 800000) : rowOf1 x (ix1 e) = x (ix2 1 e) := by
  unfold rowOf1
  rw [shapeCast_1a_a_apply]
  exact extractStridedSlice_apply _ _ _ _ _ (fun a => by
    match a with
    | ⟨0, _⟩ => rfl
    | ⟨1, _⟩ => exact (Nat.zero_add _).symm)

/-- An index array all of whose entries are node numbers has both rows in range. -/
theorem rowOk0 (x : IVec S2x800000 32) (h : ∀ i : S2x800000.Idx, 0 ≤ (x i).toInt ∧ (x i).toInt < 50000) : RowOk (rowOf0 x) := by
  intro i
  obtain ⟨e, rfl⟩ : ∃ e : Fin 800000, i = ix1 e := ⟨i 0, eq_ix1 i⟩
  rw [rowOf0_apply]
  exact h _

theorem rowOk1 (x : IVec S2x800000 32) (h : ∀ i : S2x800000.Idx, 0 ≤ (x i).toInt ∧ (x i).toInt < 50000) : RowOk (rowOf1 x) := by
  intro i
  obtain ⟨e, rfl⟩ : ∃ e : Fin 800000, i = ix1 e := ⟨i 0, eq_ix1 i⟩
  rw [rowOf1_apply]
  exact h _

/-! ## A vector as a one-row matrix, read back -/

theorem rowVec_shapeCast {a : Nat} (x : Vc a) (h : (⟨1, ![a]⟩ : Shape).ShapeCasts ⟨2, ![1, a]⟩) :
    rowVec (shapeCast ⟨2, ![1, a]⟩ x h) = x := by
  funext i
  exact (shapeCast_a_1a_apply x h 0 (i 0)).trans (congrArg x (eq_ix1 i).symm)

/-! ## The two halves of the pair array -/

theorem cols_left (x y : FVec Ideal S800000x3 .f32) :
    cols3 0 (by omega) (concatenate S800000x6 1 [⟨S800000x3, x⟩, ⟨S800000x3, y⟩] concatenates_S800000x3_S800000x3_S800000x6_d1) = x := by
  funext i
  unfold cols3
  refine concatenate_pair_apply_left (t := S800000x6) 1 x y _ _ rfl i ?_
  intro b
  match b with
  | ⟨0, _⟩ => rfl
  | ⟨1, _⟩ => exact (Nat.zero_add _).symm

theorem cols_right (x y : FVec Ideal S800000x3 .f32) :
    cols3 3 (by omega) (concatenate S800000x6 1 [⟨S800000x3, x⟩, ⟨S800000x3, y⟩] concatenates_S800000x3_S800000x3_S800000x6_d1) = y := by
  funext i
  unfold cols3
  refine concatenate_pair_apply_right (t := S800000x6) 1 x y _ _ rfl rfl i ?_ ?_
  · intro b hb
    match b, hb with
    | ⟨0, _⟩, _ => rfl
    | ⟨1, _⟩, hb => exact absurd rfl hb
  · exact Nat.add_comm _ _

/-! ## The pair array when the first launch is entered -/

variable (m : (ℓ : Loc nD τ sig) → Buf (Elt Ideal) ℓ) (ρ : Dev nD → PrngReg)

theorem W2_recv (c : Dev nD) : W2 m ρ c (Proc.devRef .tc main_v1) = recvRow m c :=
  (StableHlo.after_of_writes_sub hostOps0_1 (W1 m ρ c) writes1_sub (by decide)).trans (W1_recv m ρ c)

theorem W3_senders (c : Dev nD) :
    W3 m ρ c (Proc.devRef .tc main_v4) = taken (m ((c : Thread nD τ).loc main_arg1)) (sendRow m c) := by
  refine (StableHlo.after_of_writes_sub hostOps0_2 (W2 m ρ c) writes2_sub (by decide)).trans ?_
  refine (stretch1_sel (W1 m ρ c)).trans ?_
  rw [W1_kept m ρ c main_arg1 (by decide), W1_send]

theorem W3_receivers (c : Dev nD) :
    W3 m ρ c (Proc.devRef .tc main_v5) = taken (m ((c : Thread nD τ).loc main_arg1)) (recvRow m c) := by
  refine (stretch2_sel (W2 m ρ c)).trans ?_
  rw [W2_kept m ρ c main_arg1 (by decide) (by decide), W2_recv]

/-- Per edge, the sender's coordinates then the receiver's, as the program selects them. -/
theorem W4_pairs (c : Dev nD) :
    W4 m ρ c (Proc.devRef .tc main_v6)
      = concatenate S800000x6 1 [⟨S800000x3, taken (m ((c : Thread nD τ).loc main_arg1)) (sendRow m c)⟩,
          ⟨S800000x3, taken (m ((c : Thread nD τ).loc main_arg1)) (recvRow m c)⟩] concatenates_S800000x3_S800000x3_S800000x6_d1 := by
  refine (stretch3_pairs (W3 m ρ c)).trans ?_
  rw [W3_senders, W3_receivers]

/-- Where both index rows are in range, the two halves of the pair array are the plain reads. -/
theorem pairs_senders (c : Dev nD) (hs : RowOk (sendRow m c)) (hr : RowOk (recvRow m c)) :
    cols3 0 (by omega) (W4 m ρ c (Proc.devRef .tc main_v6)) = picked (m ((c : Thread nD τ).loc main_arg1)) (sendRow m c) := by
  rw [W4_pairs, cols_left, taken_of_ok _ hs]

theorem pairs_receivers (c : Dev nD) (hs : RowOk (sendRow m c)) (hr : RowOk (recvRow m c)) :
    cols3 3 (by omega) (W4 m ρ c (Proc.devRef .tc main_v6)) = picked (m ((c : Thread nD τ).loc main_arg1)) (recvRow m c) := by
  rw [W4_pairs, cols_right, taken_of_ok _ hr]

end Cert.KernelIdeal.HostSide

end
-- ==== Proof.Edge.lean ====
/-
  The first launch, read as values. Its grid has 200 points; point t stages rows 4000 t … 4000 t + 3999 of the
  message array and of the six-column array of coordinate pairs, and the whole of each weight and bias array, and
  writes back the same rows of a 128-column array and of a one-column array. Every row is computed from its own
  input row alone, so the arrays after the launch are whole-array functions of the arrays before it, row by row:
  columns 0 … 95 of row e of the wide array hold edge e's weighted message, columns 96 … 98 its coordinate shift
  (the sender's coordinates are columns 0 … 2 of the pair array, the receiver's columns 3 … 5), and the one-column
  array holds its attention.
-/
import proofs.«430715_j17815524344039_3_alg».proof.Proof.Gen.KernelIdeal.Frame
import proofs.«430715_j17815524344039_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Edge

open Idealize.ShloMosaic Idealize.ShloMosaic.TcCoe Idealize.ShloMosaic.ValueIdx
open Cert.KernelIdeal Cert.KernelIdeal.Gen Cert.Spec

/-! ## The two products read at an index -/

theorem lhs_wide_0 (i : S4000x96.Idx) (q : dot_S4000x96_S96x96_S4000x96_1_0_0_1_n_n.contr.Idx) :
    (dot_S4000x96_S96x96_S4000x96_1_0_0_1_n_n.lhsIdx i q 0).val = (i 0).val := by
  unfold DotDims.lhsIdx
  rw [dif_neg (show ¬(0 : Fin S4000x96.rank) ∈ dot_S4000x96_S96x96_S4000x96_1_0_0_1_n_n.lhsBatch by decide), dif_pos (show (0 : Fin S4000x96.rank) ∈ dot_S4000x96_S96x96_S4000x96_1_0_0_1_n_n.lhsNonContracting by decide)]
  rfl
theorem lhs_wide_1 (i : S4000x96.Idx) (q : dot_S4000x96_S96x96_S4000x96_1_0_0_1_n_n.contr.Idx) :
    (dot_S4000x96_S96x96_S4000x96_1_0_0_1_n_n.lhsIdx i q 1).val = (q ⟨0, by decide⟩).val :=
  dot_S4000x96_S96x96_S4000x96_1_0_0_1_n_n.lhsIdx_val_of_single rfl i q
theorem rhs_wide_0 (i : S4000x96.Idx) (q : dot_S4000x96_S96x96_S4000x96_1_0_0_1_n_n.contr.Idx) :
    (dot_S4000x96_S96x96_S4000x96_1_0_0_1_n_n.rhsIdx i q 0).val = (q ⟨0, by decide⟩).val :=
  dot_S4000x96_S96x96_S4000x96_1_0_0_1_n_n.rhsIdx_val_of_single rfl i q
theorem rhs_wide_1 (i : S4000x96.Idx) (q : dot_S4000x96_S96x96_S4000x96_1_0_0_1_n_n.contr.Idx) :
    (dot_S4000x96_S96x96_S4000x96_1_0_0_1_n_n.rhsIdx i q 1).val = (i 1).val := by
  unfold DotDims.rhsIdx
  rw [dif_neg (show ¬(1 : Fin S96x96.rank) ∈ dot_S4000x96_S96x96_S4000x96_1_0_0_1_n_n.rhsBatch by decide), dif_pos (show (1 : Fin S96x96.rank) ∈ dot_S4000x96_S96x96_S4000x96_1_0_0_1_n_n.rhsNonContracting by decide)]
  rfl

/-- The 96-column product into a zero accumulator, at row p and column j: the row's product with column j. -/
theorem matmul_wide_apply (l : FVec Ideal S4000x96 .bf16) (r : FVec Ideal S96x96 .bf16) (p : Fin 4000) (j : Fin 96) :
    matmul dot_S4000x96_S96x96_S4000x96_1_0_0_1_n_n none l r (constant (F := Ideal) S4000x96 .f32 0x00000000#32) (ix2 p j)
      = ∑ k : Fin 96, l (ix2 p k) * r (ix2 k j) := by
  simp only [matmul]
  rw [Ideal.matmul_constant_zero_apply, ← Equiv.sum_comp (ValueIdx.contrEquiv1 dot_S4000x96_S96x96_S4000x96_1_0_0_1_n_n 96 rfl rfl).symm]
  refine Finset.sum_congr rfl fun k _ => ?_
  have hk := ValueIdx.contrEquiv1_symm_val dot_S4000x96_S96x96_S4000x96_1_0_0_1_n_n 96 rfl rfl k
  have el : dot_S4000x96_S96x96_S4000x96_1_0_0_1_n_n.lhsIdx (ix2 p j) ((ValueIdx.contrEquiv1 dot_S4000x96_S96x96_S4000x96_1_0_0_1_n_n 96 rfl rfl).symm k) = ix2 p k := funext fun a => Fin.ext (by
    match a with
    | ⟨0, _⟩ => exact lhs_wide_0 _ _
    | ⟨1, _⟩ => exact (lhs_wide_1 _ _).trans hk)
  have er : dot_S4000x96_S96x96_S4000x96_1_0_0_1_n_n.rhsIdx (ix2 p j) ((ValueIdx.contrEquiv1 dot_S4000x96_S96x96_S4000x96_1_0_0_1_n_n 96 rfl rfl).symm k) = ix2 k j := funext fun a => Fin.ext (by
    match a with
    | ⟨0, _⟩ => exact (rhs_wide_0 _ _).trans hk
    | ⟨1, _⟩ => exact rhs_wide_1 _ _)
  rw [el, er]

theorem lhs_thin_0 (i : S4000x1.Idx) (q : dot_S4000x96_S96x1_S4000x1_1_0_0_1_n_n.contr.Idx) :
    (dot_S4000x96_S96x1_S4000x1_1_0_0_1_n_n.lhsIdx i q 0).val = (i 0).val := by
  unfold DotDims.lhsIdx
  rw [dif_neg (show ¬(0 : Fin S4000x96.rank) ∈ dot_S4000x96_S96x1_S4000x1_1_0_0_1_n_n.lhsBatch by decide), dif_pos (show (0 : Fin S4000x96.rank) ∈ dot_S4000x96_S96x1_S4000x1_1_0_0_1_n_n.lhsNonContracting by decide)]
  rfl
theorem lhs_thin_1 (i : S4000x1.Idx) (q : dot_S4000x96_S96x1_S4000x1_1_0_0_1_n_n.contr.Idx) :
    (dot_S4000x96_S96x1_S4000x1_1_0_0_1_n_n.lhsIdx i q 1).val = (q ⟨0, by decide⟩).val :=
  dot_S4000x96_S96x1_S4000x1_1_0_0_1_n_n.lhsIdx_val_of_single rfl i q
theorem rhs_thin_0 (i : S4000x1.Idx) (q : dot_S4000x96_S96x1_S4000x1_1_0_0_1_n_n.contr.Idx) :
    (dot_S4000x96_S96x1_S4000x1_1_0_0_1_n_n.rhsIdx i q 0).val = (q ⟨0, by decide⟩).val :=
  dot_S4000x96_S96x1_S4000x1_1_0_0_1_n_n.rhsIdx_val_of_single rfl i q
theorem rhs_thin_1 (i : S4000x1.Idx) (q : dot_S4000x96_S96x1_S4000x1_1_0_0_1_n_n.contr.Idx) :
    (dot_S4000x96_S96x1_S4000x1_1_0_0_1_n_n.rhsIdx i q 1).val = (i 1).val := by
  unfold DotDims.rhsIdx
  rw [dif_neg (show ¬(1 : Fin S96x1.rank) ∈ dot_S4000x96_S96x1_S4000x1_1_0_0_1_n_n.rhsBatch by decide), dif_pos (show (1 : Fin S96x1.rank) ∈ dot_S4000x96_S96x1_S4000x1_1_0_0_1_n_n.rhsNonContracting by decide)]
  rfl

/-- The one-column product into a zero accumulator, at row p: the row's product with the column. -/
theorem matmul_thin_apply (l : FVec Ideal S4000x96 .bf16) (r : FVec Ideal S96x1 .bf16) (p : Fin 4000) (j : Fin 1) :
    matmul dot_S4000x96_S96x1_S4000x1_1_0_0_1_n_n none l r (constant (F := Ideal) S4000x1 .f32 0x00000000#32) (ix2 p j)
      = ∑ k : Fin 96, l (ix2 p k) * r (ix2 k j) := by
  simp only [matmul]
  rw [Ideal.matmul_constant_zero_apply, ← Equiv.sum_comp (ValueIdx.contrEquiv1 dot_S4000x96_S96x1_S4000x1_1_0_0_1_n_n 96 rfl rfl).symm]
  refine Finset.sum_congr rfl fun k _ => ?_
  have hk := ValueIdx.contrEquiv1_symm_val dot_S4000x96_S96x1_S4000x1_1_0_0_1_n_n 96 rfl rfl k
  have el : dot_S4000x96_S96x1_S4000x1_1_0_0_1_n_n.lhsIdx (ix2 p j) ((ValueIdx.contrEquiv1 dot_S4000x96_S96x1_S4000x1_1_0_0_1_n_n 96 rfl rfl).symm k) = ix2 p k := funext fun a => Fin.ext (by
    match a with
    | ⟨0, _⟩ => exact lhs_thin_0 _ _
    | ⟨1, _⟩ => exact (lhs_thin_1 _ _).trans hk)
  have er : dot_S4000x96_S96x1_S4000x1_1_0_0_1_n_n.rhsIdx (ix2 p j) ((ValueIdx.contrEquiv1 dot_S4000x96_S96x1_S4000x1_1_0_0_1_n_n 96 rfl rfl).symm k) = ix2 k j := funext fun a => Fin.ext (by
    match a with
    | ⟨0, _⟩ => exact (rhs_thin_0 _ _).trans hk
    | ⟨1, _⟩ => exact rhs_thin_1 _ _)
  rw [el, er]

/-! ## The layout operations read at an index -/

section Layout
variable {α : Type}

/-- A one-row matrix broadcast over 4000 rows reads its row. -/
theorem bcast_row96 (b : S1x96.Idx → α) (p : Fin 4000) (j : Fin 96) :
    broadcastTo S4000x96 b broadcasts_S1x96_S4000x96 (ix2 p j) = b (ix2 (0 : Fin 1) j) := by
  refine broadcastTo_apply b broadcasts_S1x96_S4000x96 (ix2 p j) (ix2 (0 : Fin 1) j) fun ax => ?_
  match ax with
  | ⟨0, _⟩ => rfl
  | ⟨1, _⟩ => rfl

/-- A one-entry matrix broadcast over 4000 rows reads its entry. -/
theorem bcast_row1 (b : S1x1.Idx → α) (p : Fin 4000) (j : Fin 1) :
    broadcastTo S4000x1 b broadcasts_S1x1_S4000x1 (ix2 p j) = b (ix2 (0 : Fin 1) (0 : Fin 1)) := by
  refine broadcastTo_apply b broadcasts_S1x1_S4000x1 (ix2 p j) (ix2 (0 : Fin 1) (0 : Fin 1)) fun ax => ?_
  match ax with
  | ⟨0, _⟩ => rfl
  | ⟨1, _⟩ => rfl

/-- A column broadcast over 96 columns reads the row's entry. -/
theorem bcast_col96 (a : S4000x1.Idx → α) (p : Fin 4000) (j : Fin 96) :
    broadcastTo S4000x96 a broadcasts_S4000x1_S4000x96 (ix2 p j) = a (ix2 p (0 : Fin 1)) := by
  refine broadcastTo_apply a broadcasts_S4000x1_S4000x96 (ix2 p j) (ix2 p (0 : Fin 1)) fun ax => ?_
  match ax with
  | ⟨0, _⟩ => rfl
  | ⟨1, _⟩ => rfl

/-- A column broadcast over 3 columns reads the row's entry. -/
theorem bcast_col3 (a : S4000x1.Idx → α) (p : Fin 4000) (k : Fin 3) :
    broadcastTo S4000x3 a broadcasts_S4000x1_S4000x3 (ix2 p k) = a (ix2 p (0 : Fin 1)) := by
  refine broadcastTo_apply a broadcasts_S4000x1_S4000x3 (ix2 p k) (ix2 p (0 : Fin 1)) fun ax => ?_
  match ax with
  | ⟨0, _⟩ => rfl
  | ⟨1, _⟩ => rfl

/-- Columns 0 … 2 of a six-column block. -/
theorem slice_lo (x : S4000x6.Idx → α) (p : Fin 4000) (k : Fin 3) :
    extractStridedSlice S4000x3 ![0, 0] x slices_S4000x6_o0_0_S4000x3 (ix2 p k) = x (ix2 p (⟨k.val, by omega⟩ : Fin 6)) := by
  refine extractStridedSlice_apply ![0, 0] x slices_S4000x6_o0_0_S4000x3 (ix2 p k) (ix2 p (⟨k.val, by omega⟩ : Fin 6)) fun ax => ?_
  match ax with
  | ⟨0, _⟩ => exact (Nat.zero_add _).symm
  | ⟨1, _⟩ => exact (Nat.zero_add _).symm

/-- Columns 3 … 5 of a six-column block. -/
theorem slice_hi (x : S4000x6.Idx → α) (p : Fin 4000) (k : Fin 3) :
    extractStridedSlice S4000x3 ![0, 3] x slices_S4000x6_o0_3_S4000x3 (ix2 p k) = x (ix2 p (⟨3 + k.val, by omega⟩ : Fin 6)) := by
  refine extractStridedSlice_apply ![0, 3] x slices_S4000x6_o0_3_S4000x3 (ix2 p k) (ix2 p (⟨3 + k.val, by omega⟩ : Fin 6)) fun ax => ?_
  match ax with
  | ⟨0, _⟩ => exact (Nat.zero_add _).symm
  | ⟨1, _⟩ => rfl

/-- A vector of 4000 entries cast to one column reads the row's entry. -/
theorem cast_col (v : S4000.Idx → α) (p : Fin 4000) (j : Fin 1) :
    shapeCast S4000x1 v shapeCasts_S4000_S4000x1 (ix2 p j) = v (ix1 p) := by
  refine shapeCast_apply v shapeCasts_S4000_S4000x1 (ix2 p j) (ix1 p) ?_
  rw [Shape.rowMajor_val_two, Shape.rowMajor_val_one]
  show p.val = p.val * 1 + j.val
  omega

/-- The three pieces laid side by side, read in the first piece's columns. -/
theorem cat_left (A : S4000x96.Idx → α) (B : S4000x3.Idx → α) (C : S4000x29.Idx → α) (p : Fin 4000) (q : Fin 128)
    (hq : q.val < 96) :
    concatenate S4000x128 1 [⟨S4000x96, A⟩, ⟨S4000x3, B⟩, ⟨S4000x29, C⟩] concatenates_S4000x96_S4000x3_S4000x29_S4000x128_d1 (ix2 p q)
      = A (ix2 p (⟨q.val, hq⟩ : Fin 96)) := by
  refine concatenate_apply_piece (1 : Fin S4000x128.rank) _ _ (ix2 p q) 0 (by show (0 : ℕ) < 3; omega) S4000x96 A rfl rfl 0 rfl
    (ix2 p (⟨q.val, hq⟩ : Fin 96)) (fun b hb => ?_) ?_
  · match b with
    | ⟨0, _⟩ => rfl
    | ⟨1, _⟩ => exact absurd rfl hb
  · show 0 + q.val = q.val
    omega

/-- … in the second piece's columns … -/
theorem cat_mid (A : S4000x96.Idx → α) (B : S4000x3.Idx → α) (C : S4000x29.Idx → α) (p : Fin 4000) (q : Fin 128)
    (h0 : 96 ≤ q.val) (h1 : q.val < 99) :
    concatenate S4000x128 1 [⟨S4000x96, A⟩, ⟨S4000x3, B⟩, ⟨S4000x29, C⟩] concatenates_S4000x96_S4000x3_S4000x29_S4000x128_d1 (ix2 p q)
      = B (ix2 p (⟨q.val - 96, by omega⟩ : Fin 3)) := by
  refine concatenate_apply_piece (1 : Fin S4000x128.rank) _ _ (ix2 p q) 1 (by show (1 : ℕ) < 3; omega) S4000x3 B rfl rfl 96 rfl
    (ix2 p (⟨q.val - 96, by omega⟩ : Fin 3)) (fun b hb => ?_) ?_
  · match b with
    | ⟨0, _⟩ => rfl
    | ⟨1, _⟩ => exact absurd rfl hb
  · show 96 + (q.val - 96) = q.val
    omega

/-- … and in the third piece's. -/
theorem cat_right (A : S4000x96.Idx → α) (B : S4000x3.Idx → α) (C : S4000x29.Idx → α) (p : Fin 4000) (q : Fin 128)
    (h0 : 99 ≤ q.val) :
    concatenate S4000x128 1 [⟨S4000x96, A⟩, ⟨S4000x3, B⟩, ⟨S4000x29, C⟩] concatenates_S4000x96_S4000x3_S4000x29_S4000x128_d1 (ix2 p q)
      = C (ix2 p (⟨q.val - 99, by omega⟩ : Fin 29)) := by
  refine concatenate_apply_piece (1 : Fin S4000x128.rank) _ _ (ix2 p q) 2 (by show (2 : ℕ) < 3; omega) S4000x29 C rfl rfl 99 rfl
    (ix2 p (⟨q.val - 99, by omega⟩ : Fin 29)) (fun b hb => ?_) ?_
  · match b with
    | ⟨0, _⟩ => rfl
    | ⟨1, _⟩ => exact absurd rfl hb
  · show 99 + (q.val - 99) = q.val
    omega

end Layout

/-- The sum along the three columns, at row p. -/
theorem rowsum3 (v : FVec Ideal S4000x3 .f32) (p : Fin 4000) :
    multiReduction (F := Ideal) .add [1] S4000 v 0x00000000#32 reduces_S4000x3_S4000 (.inl rfl) rfl (ix1 p)
      = ∑ k : Fin 3, v (ix2 p k) := by
  refine (Ideal.multiReduction_add_single v 0x00000000#32 reduces_S4000x3_S4000 (.inl rfl) rfl (ix1 p)).trans ?_
  refine Finset.sum_congr rfl fun k _ => congrArg v ?_
  funext a
  apply Fin.ext
  match a with
  | ⟨0, _⟩ => rfl
  | ⟨1, _⟩ => rfl

/-! ## The body's arithmetic, piece by piece -/

/-- The hidden layer of a perceptron of the body on a block of messages: the block's product with the weights plus
    the bias row, passed through x · σ(x). -/
def hid (x0 : Vec Ideal S4000x96 .f32) (w : Vec Ideal S96x96 .f32) (b : Vec Ideal S1x96 .f32) : FVec Ideal S4000x96 .f32 :=
  mulf
    (addf (matmul dot_S4000x96_S96x96_S4000x96_1_0_0_1_n_n none (k0_pay2 x0) (truncf .bf16 w bitsLt_bf16_f32) (constant (F := Ideal) S4000x96 .f32 0x00000000#32))
      (broadcastTo S4000x96 (shapeCast S1x96 b shapeCasts_S1x96_S1x96) broadcasts_S1x96_S4000x96))
    (logistic
      (addf (matmul dot_S4000x96_S96x96_S4000x96_1_0_0_1_n_n none (k0_pay2 x0) (truncf .bf16 w bitsLt_bf16_f32) (constant (F := Ideal) S4000x96 .f32 0x00000000#32))
        (broadcastTo S4000x96 (shapeCast S1x96 b shapeCasts_S1x96_S1x96) broadcasts_S1x96_S4000x96)))

/-- The perceptron's output column: the hidden layer's product with the second weights plus the bias. -/
def outp (x0 : Vec Ideal S4000x96 .f32) (w1 : Vec Ideal S96x96 .f32) (b1 : Vec Ideal S1x96 .f32)
    (w2 : Vec Ideal S96x1 .f32) (b2 : Vec Ideal S1x1 .f32) : FVec Ideal S4000x1 .f32 :=
  addf (matmul dot_S4000x96_S96x1_S4000x1_1_0_0_1_n_n none (truncf .bf16 (hid x0 w1 b1) bitsLt_bf16_f32) (truncf .bf16 w2 bitsLt_bf16_f32) (constant (F := Ideal) S4000x1 .f32 0x00000000#32))
    (broadcastTo S4000x1 (shapeCast S1x1 b2 shapeCasts_S1x1_S1x1) broadcasts_S1x1_S4000x1)

theorem pay3_eq (x0 : Vec Ideal S4000x96 .f32) (w1 : Vec Ideal S96x96 .f32) (b1 : Vec Ideal S1x96 .f32)
    (w2 : Vec Ideal S96x1 .f32) (b2 : Vec Ideal S1x1 .f32) :
    k0_pay3 (F := Ideal) x0 w1 b1 w2 b2 = logistic (outp x0 w1 b1 w2 b2) := rfl

theorem pay4_eq (x0 : Vec Ideal S4000x96 .f32) (w1 : Vec Ideal S96x96 .f32) (b1 : Vec Ideal S1x96 .f32)
    (w2 : Vec Ideal S96x1 .f32) (b2 : Vec Ideal S1x1 .f32) :
    k0_pay4 (F := Ideal) x0 w1 b1 w2 b2 = outp x0 w1 b1 w2 b2 := rfl

/-- The hidden layer at row p, column j. -/
theorem hid_apply (x0 : Vec Ideal S4000x96 .f32) (w : Vec Ideal S96x96 .f32) (b : Vec Ideal S1x96 .f32) (p : Fin 4000) (j : Fin 96) :
    hid x0 w b (ix2 p j) = silu (dense (fun k => x0 (ix2 p k)) w (rowVec b) j) := by
  have e : addf (matmul dot_S4000x96_S96x96_S4000x96_1_0_0_1_n_n none (k0_pay2 x0) (truncf .bf16 w bitsLt_bf16_f32) (constant (F := Ideal) S4000x96 .f32 0x00000000#32))
      (broadcastTo S4000x96 (shapeCast S1x96 b shapeCasts_S1x96_S1x96) broadcasts_S1x96_S4000x96) (ix2 p j)
      = dense (fun k => x0 (ix2 p k)) w (rowVec b) j := by
    show matmul dot_S4000x96_S96x96_S4000x96_1_0_0_1_n_n none (k0_pay2 x0) (truncf .bf16 w bitsLt_bf16_f32) (constant (F := Ideal) S4000x96 .f32 0x00000000#32) (ix2 p j)
      + broadcastTo S4000x96 (shapeCast S1x96 b shapeCasts_S1x96_S1x96) broadcasts_S1x96_S4000x96 (ix2 p j) = _
    rw [matmul_wide_apply, bcast_row96, shapeCast_self]
    rfl
  show _ * Ideal.logistic _ = _
  rw [e]
  rfl

/-- The output column at row p. -/
theorem outp_apply (x0 : Vec Ideal S4000x96 .f32) (w1 : Vec Ideal S96x96 .f32) (b1 : Vec Ideal S1x96 .f32)
    (w2 : Vec Ideal S96x1 .f32) (b2 : Vec Ideal S1x1 .f32) (p : Fin 4000) (j : Fin 1) :
    outp x0 w1 b1 w2 b2 (ix2 p j)
      = dense (fun i => silu (dense (fun k => x0 (ix2 p k)) w1 (rowVec b1) i)) w2 (rowVec b2) 0 := by
  obtain rfl : j = 0 := Subsingleton.elim _ _
  show matmul dot_S4000x96_S96x1_S4000x1_1_0_0_1_n_n none (truncf .bf16 (hid x0 w1 b1) bitsLt_bf16_f32) (truncf .bf16 w2 bitsLt_bf16_f32) (constant (F := Ideal) S4000x1 .f32 0x00000000#32) (ix2 p 0)
      + broadcastTo S4000x1 (shapeCast S1x1 b2 shapeCasts_S1x1_S1x1) broadcasts_S1x1_S4000x1 (ix2 p 0) = _
  rw [matmul_thin_apply, bcast_row1, shapeCast_self]
  unfold dense
  refine congrArg₂ (· + ·) (Finset.sum_congr rfl fun k _ => ?_) rfl
  show hid x0 w1 b1 (ix2 p k) * w2 (ix2 k 0) = _
  rw [hid_apply]
  rfl

/-- The difference of the two coordinate triples of a block of pairs. -/
def relv (x1 : Vec Ideal S4000x6 .f32) : FVec Ideal S4000x3 .f32 :=
  subf (extractStridedSlice S4000x3 ![0, 0] (shapeCast S4000x6 x1 shapeCasts_S4000x6_S4000x6) slices_S4000x6_o0_0_S4000x3)
    (extractStridedSlice S4000x3 ![0, 3] (shapeCast S4000x6 x1 shapeCasts_S4000x6_S4000x6) slices_S4000x6_o0_3_S4000x3)

theorem relv_apply (x1 : Vec Ideal S4000x6 .f32) (p : Fin 4000) (k : Fin 3) :
    relv x1 (ix2 p k) = x1 (ix2 p (⟨k.val, by omega⟩ : Fin 6)) - x1 (ix2 p (⟨3 + k.val, by omega⟩ : Fin 6)) := by
  show extractStridedSlice S4000x3 ![0, 0] (shapeCast S4000x6 x1 shapeCasts_S4000x6_S4000x6) slices_S4000x6_o0_0_S4000x3 (ix2 p k)
    - extractStridedSlice S4000x3 ![0, 3] (shapeCast S4000x6 x1 shapeCasts_S4000x6_S4000x6) slices_S4000x6_o0_3_S4000x3 (ix2 p k) = _
  rw [slice_lo, slice_hi, shapeCast_self]

/-- The length of the difference plus one, as one column. -/
def denv (x1 : Vec Ideal S4000x6 .f32) : FVec Ideal S4000x1 .f32 :=
  addf (sqrt (shapeCast S4000x1 (multiReduction (F := Ideal) .add [1] S4000 (mulf (relv x1) (relv x1)) 0x00000000#32 reduces_S4000x3_S4000 (.inl rfl) rfl) shapeCasts_S4000_S4000x1))
    (broadcast S4000x1 (Scalar.ofBits (F := Ideal) .f32 0x3F800000#32))

theorem denv_apply (x1 : Vec Ideal S4000x6 .f32) (p : Fin 4000) (j : Fin 1) :
    denv x1 (ix2 p j) = Ideal.sqrt (∑ k : Fin 3, relv x1 (ix2 p k) * relv x1 (ix2 p k)) + one := by
  show Ideal.sqrt (shapeCast S4000x1 (multiReduction (F := Ideal) .add [1] S4000 (mulf (relv x1) (relv x1)) 0x00000000#32 reduces_S4000x3_S4000 (.inl rfl) rfl) shapeCasts_S4000_S4000x1 (ix2 p j))
    + one = _
  rw [cast_col, rowsum3]
  rfl

/-- The body's stored block in terms of those pieces. -/
theorem pay1_eq (x0 : Vec Ideal S4000x96 .f32) (a phi : FVec Ideal S4000x1 .f32) (x1 : Vec Ideal S4000x6 .f32) :
    k0_pay1 (F := Ideal) x0 a phi x1
      = concatenate S4000x128 1
          [⟨S4000x96, mulf x0 (broadcastTo S4000x96 a broadcasts_S4000x1_S4000x96)⟩,
           ⟨S4000x3, mulf (divf (relv x1) (broadcastTo S4000x3 (denv x1) broadcasts_S4000x1_S4000x3)) (broadcastTo S4000x3 phi broadcasts_S4000x1_S4000x3)⟩,
           ⟨S4000x29, broadcast S4000x29 (Scalar.ofBits (F := Ideal) .f32 0x00000000#32)⟩]
          concatenates_S4000x96_S4000x3_S4000x29_S4000x128_d1 := rfl

/-- Columns 0 … 95 of the stored block: the message times the attention. -/
theorem pay1_left (x0 : Vec Ideal S4000x96 .f32) (a phi : FVec Ideal S4000x1 .f32) (x1 : Vec Ideal S4000x6 .f32)
    (p : Fin 4000) (q : Fin 128) (hq : q.val < 96) :
    k0_pay1 (F := Ideal) x0 a phi x1 (ix2 p q) = x0 (ix2 p (⟨q.val, hq⟩ : Fin 96)) * a (ix2 p (0 : Fin 1)) := by
  rw [pay1_eq, cat_left _ _ _ p q hq]
  show x0 (ix2 p (⟨q.val, hq⟩ : Fin 96)) * broadcastTo S4000x96 a broadcasts_S4000x1_S4000x96 (ix2 p (⟨q.val, hq⟩ : Fin 96)) = _
  rw [bcast_col96]

/-- Columns 96 … 98: the difference over its length plus one, times the second perceptron's output. -/
theorem pay1_mid (x0 : Vec Ideal S4000x96 .f32) (a phi : FVec Ideal S4000x1 .f32) (x1 : Vec Ideal S4000x6 .f32)
    (p : Fin 4000) (q : Fin 128) (h0 : 96 ≤ q.val) (h1 : q.val < 99) :
    k0_pay1 (F := Ideal) x0 a phi x1 (ix2 p q)
      = Ideal.div (relv x1 (ix2 p (⟨q.val - 96, by omega⟩ : Fin 3))) (denv x1 (ix2 p (0 : Fin 1))) * phi (ix2 p (0 : Fin 1)) := by
  rw [pay1_eq, cat_mid _ _ _ p q h0 h1]
  show Ideal.div (relv x1 (ix2 p (⟨q.val - 96, by omega⟩ : Fin 3))) (broadcastTo S4000x3 (denv x1) broadcasts_S4000x1_S4000x3 (ix2 p (⟨q.val - 96, by omega⟩ : Fin 3)))
    * broadcastTo S4000x3 phi broadcasts_S4000x1_S4000x3 (ix2 p (⟨q.val - 96, by omega⟩ : Fin 3)) = _
  rw [bcast_col3, bcast_col3]

/-- Columns 99 … 127: the zero word. -/
theorem pay1_right (x0 : Vec Ideal S4000x96 .f32) (a phi : FVec Ideal S4000x1 .f32) (x1 : Vec Ideal S4000x6 .f32)
    (p : Fin 4000) (q : Fin 128) (h0 : 99 ≤ q.val) :
    k0_pay1 (F := Ideal) x0 a phi x1 (ix2 p q) = Ideal.ofBits .f32 0x00000000#32 := by
  rw [pay1_eq, cat_right _ _ _ p q h0]
  rfl

/-! ## The launch's two results as whole-array functions -/

/-- Row e, column q of the 128-column result: the weighted message in columns 0 … 95, the coordinate shift in columns
    96 … 98, the zero word in the rest. -/
def packedAt (M : Mat 800000 96) (P : Mat 800000 6) (wa1 : Mat 96 96) (ba1 : Mat 1 96) (wa2 : Mat 96 1) (ba2 : Mat 1 1)
    (wx1 : Mat 96 96) (bx1 : Mat 1 96) (wx2 : Mat 96 1) (bx2 : Mat 1 1) (e : Fin 800000) (q : Fin 128) : EReal :=
  if h : q.val < 96 then message M wa1 (rowVec ba1) wa2 (rowVec ba2) e ⟨q.val, h⟩
  else if h' : q.val < 99 then
    shift (cols3 0 (by omega) P) (cols3 3 (by omega) P) (head M wx1 (rowVec bx1) wx2 (rowVec bx2)) e ⟨q.val - 96, by omega⟩
  else Ideal.ofBits .f32 0x00000000#32

/-- The 128-column result as one function of the launch's arrays. -/
def packedFn (M : Mat 800000 96) (P : Mat 800000 6) (wa1 : Mat 96 96) (ba1 : Mat 1 96) (wa2 : Mat 96 1) (ba2 : Mat 1 1)
    (wx1 : Mat 96 96) (bx1 : Mat 1 96) (wx2 : Mat 96 1) (bx2 : Mat 1 1) : Mat 800000 128 :=
  fun i => packedAt M P wa1 ba1 wa2 ba2 wx1 bx1 wx2 bx2 (i 0) (i 1)

/-- The one-column result as one function of the launch's arrays. -/
def attnFn (M : Mat 800000 96) (wa1 : Mat 96 96) (ba1 : Mat 1 96) (wa2 : Mat 96 1) (ba2 : Mat 1 1) : Mat 800000 1 :=
  fun i => attention M wa1 (rowVec ba1) wa2 (rowVec ba2) (i 0)

/-! ## One row of a block against one row of the arrays -/

/-- A perceptron's output on row p of a block whose row p is row e of the message array is the perceptron's scalar
    output on edge e. -/
theorem outp_point (x0 : Vec Ideal S4000x96 .f32) (w1 : Vec Ideal S96x96 .f32) (b1 : Vec Ideal S1x96 .f32)
    (w2 : Vec Ideal S96x1 .f32) (b2 : Vec Ideal S1x1 .f32) (M : Mat 800000 96) (e : Fin 800000) (p : Fin 4000) (j : Fin 1)
    (h0 : ∀ k : Fin 96, x0 (ix2 p k) = M (ix2 e k)) :
    outp x0 w1 b1 w2 b2 (ix2 p j) = head M w1 (rowVec b1) w2 (rowVec b2) e := by
  rw [outp_apply]
  have hrow : (fun k : Fin 96 => x0 (ix2 p k)) = fun k : Fin 96 => M (ix2 e k) := funext h0
  rw [hrow]
  rfl

/-- The coordinate difference on row p of a block of pairs whose row p is row e of the pair array. -/
theorem relv_point (x1 : Vec Ideal S4000x6 .f32) (P : Mat 800000 6) (e : Fin 800000) (p : Fin 4000)
    (h1 : ∀ k : Fin 6, x1 (ix2 p k) = P (ix2 e k)) (k : Fin 3) :
    relv x1 (ix2 p k) = rel (cols3 0 (by omega) P) (cols3 3 (by omega) P) e k := by
  rw [relv_apply, h1, h1]
  have e0 : (⟨0 + k.val, by omega⟩ : Fin 6) = ⟨k.val, by omega⟩ := Fin.ext (Nat.zero_add _)
  show _ = P (ix2 e (⟨0 + k.val, _⟩ : Fin 6)) - P (ix2 e (⟨3 + k.val, _⟩ : Fin 6))
  rw [e0]

/-- The stored block at row p, column q, against row e of the arrays. -/
theorem packed_point (x0 : Vec Ideal S4000x96 .f32) (x1 : Vec Ideal S4000x6 .f32) (x2 : Vec Ideal S96x96 .f32)
    (x3 : Vec Ideal S1x96 .f32) (x4 : Vec Ideal S96x1 .f32) (x5 : Vec Ideal S1x1 .f32) (x6 : Vec Ideal S96x96 .f32)
    (x7 : Vec Ideal S1x96 .f32) (x8 : Vec Ideal S96x1 .f32) (x9 : Vec Ideal S1x1 .f32)
    (M : Mat 800000 96) (P : Mat 800000 6) (e : Fin 800000) (p : Fin 4000) (q : Fin 128)
    (h0 : ∀ k : Fin 96, x0 (ix2 p k) = M (ix2 e k)) (h1 : ∀ k : Fin 6, x1 (ix2 p k) = P (ix2 e k)) :
    k0_pay1 (F := Ideal) x0 (k0_pay3 x0 x2 x3 x4 x5) (k0_pay4 x0 x6 x7 x8 x9) x1 (ix2 p q)
      = packedAt M P x2 x3 x4 x5 x6 x7 x8 x9 e q := by
  unfold packedAt
  by_cases hq : q.val < 96
  · rw [dif_pos hq, pay1_left _ _ _ _ p q hq, pay3_eq, h0]
    show M (ix2 e (⟨q.val, hq⟩ : Fin 96)) * Ideal.logistic (outp x0 x2 x3 x4 x5 (ix2 p (0 : Fin 1))) = _
    rw [outp_point x0 x2 x3 x4 x5 M e p 0 h0]
    rfl
  · rw [dif_neg hq]
    by_cases hq' : q.val < 99
    · rw [dif_pos hq', pay1_mid _ _ _ _ p q (by omega) hq', pay4_eq, outp_point x0 x6 x7 x8 x9 M e p 0 h0, denv_apply,
        relv_point x1 P e p h1]
      have hs : (∑ k : Fin 3, relv x1 (ix2 p k) * relv x1 (ix2 p k))
          = ∑ k : Fin 3, rel (cols3 0 (by omega) P) (cols3 3 (by omega) P) e k * rel (cols3 0 (by omega) P) (cols3 3 (by omega) P) e k :=
        Finset.sum_congr rfl fun k _ => by rw [relv_point x1 P e p h1]
      rw [hs]
      rfl
    · rw [dif_neg hq', pay1_right _ _ _ _ p q (by omega)]

/-- The stored column at row p against row e of the arrays. -/
theorem attn_point (x0 : Vec Ideal S4000x96 .f32) (x2 : Vec Ideal S96x96 .f32) (x3 : Vec Ideal S1x96 .f32)
    (x4 : Vec Ideal S96x1 .f32) (x5 : Vec Ideal S1x1 .f32) (M : Mat 800000 96) (e : Fin 800000) (p : Fin 4000) (j : Fin 1)
    (h0 : ∀ k : Fin 96, x0 (ix2 p k) = M (ix2 e k)) :
    k0_pay3 (F := Ideal) x0 x2 x3 x4 x5 (ix2 p j) = attention M x2 (rowVec x3) x4 (rowVec x5) e := by
  rw [pay3_eq]
  show Ideal.logistic (outp x0 x2 x3 x4 x5 (ix2 p j)) = _
  rw [outp_point x0 x2 x3 x4 x5 M e p j h0]
  rfl
-- the buffers' contents when the launch is entered
variable (V : (c : Dev nD) → (b : Ref sig .tc) → Buf (Elt Ideal) ((c : Thread nD τ).loc b))

/-! ## The arrays the launch reads and writes, at their literal extents -/

/-- The edge messages. -/
abbrev msgs (c : Dev nD) : Mat 800000 96 := V c main_arg2
/-- Per edge, the sender's three coordinates followed by the receiver's. -/
abbrev pairs (c : Dev nD) : Mat 800000 6 := V c main_v6
/-- The attention perceptron's weights and biases (the biases as one-row matrices). -/
abbrev wa1 (c : Dev nD) : Mat 96 96 := V c main_arg8
abbrev ba1 (c : Dev nD) : Mat 1 96 := V c main_v7
abbrev wa2 (c : Dev nD) : Mat 96 1 := V c main_arg10
abbrev ba2 (c : Dev nD) : Mat 1 1 := V c main_v8
/-- The coordinate perceptron's weights and biases. -/
abbrev wx1 (c : Dev nD) : Mat 96 96 := V c main_arg12
abbrev bx1 (c : Dev nD) : Mat 1 96 := V c main_v9
abbrev wx2 (c : Dev nD) : Mat 96 1 := V c main_arg14
abbrev bx2 (c : Dev nD) : Mat 1 1 := V c main_v10
/-- The 128-column array after the launch. -/
abbrev packed (c : Dev nD) : Mat 800000 128 := (dat0 (F := Ideal) V c).arrAt 10 cfg0.N
/-- The one-column array after the launch. -/
abbrev attn (c : Dev nD) : Mat 800000 1 := (dat0 (F := Ideal) V c).arrAt 11 cfg0.N

/-! ## The launch's index maps on its grid -/

theorem hz : (![0, 0] : Fin 2 → Nat) = fun _ => 0 := funext fun a => by fin_cases a <;> rfl

/-- Point t stages block row t of each of the four arrays that are cut into rows of 4000. -/
theorem row_index : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Every point stages the one block of each weight and bias array. -/
theorem whole_index : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## Each staged block read off its array -/

/-- Row p of the message block at point t is row 4000 t + p of the message array. -/
theorem msgs_block (c : Dev nD) (t : Fin cfg0.N) (p : Fin 4000) (e : Fin 800000) (he : e.val = 4000 * t.val + p.val) (k : Fin 96) :
    (iblk0 V c 0 t : Vec Ideal S4000x96 .f32) (ix2 p k) = msgs V c (ix2 e k) := by
  obtain ⟨i0, i1, -⟩ := row_index t
  unfold iblk0
  rw [View.read_apply]
  show V c main_arg2 _ = V c main_arg2 _
  congr 1
  funext a
  apply Fin.ext
  match a with
  | ⟨0, _⟩ => show win0_0.index t (0 : Fin 2) * 4000 + 1 * p.val = e.val; rw [i0, he]; omega
  | ⟨1, _⟩ => show win0_0.index t (1 : Fin 2) * 96 + 1 * k.val = k.val; rw [i1]; omega

/-- Row p of the pair block at point t is row 4000 t + p of the pair array. -/
theorem pairs_block (c : Dev nD) (t : Fin cfg0.N) (p : Fin 4000) (e : Fin 800000) (he : e.val = 4000 * t.val + p.val) (k : Fin 6) :
    (iblk0 V c 1 t : Vec Ideal S4000x6 .f32) (ix2 p k) = pairs V c (ix2 e k) := by
  obtain ⟨-, -, i0, i1, -⟩ := row_index t
  unfold iblk0
  rw [View.read_apply]
  show V c main_v6 _ = V c main_v6 _
  congr 1
  funext a
  apply Fin.ext
  match a with
  | ⟨0, _⟩ => show win0_1.index t (0 : Fin 2) * 4000 + 1 * p.val = e.val; rw [i0, he]; omega
  | ⟨1, _⟩ => show win0_1.index t (1 : Fin 2) * 6 + 1 * k.val = k.val; rw [i1]; omega

/-- The weight and bias blocks are the whole arrays. -/
theorem wa1_block (c : Dev nD) (t : Fin cfg0.N) : (iblk0 V c 2 t : Vec Ideal S96x96 .f32) = wa1 V c := by
  obtain ⟨⟨i0, i1⟩, -⟩ := whole_index t
  funext y
  unfold iblk0
  rw [View.read_apply]
  show V c main_arg8 _ = V c main_arg8 _
  congr 1
  funext a
  apply Fin.ext
  match a with
  | ⟨0, _⟩ => show win0_2.index t (0 : Fin 2) * 96 + 1 * (y 0).val = (y 0).val; rw [i0]; omega
  | ⟨1, _⟩ => show win0_2.index t (1 : Fin 2) * 96 + 1 * (y 1).val = (y 1).val; rw [i1]; omega

theorem ba1_block (c : Dev nD) (t : Fin cfg0.N) : (iblk0 V c 3 t : Vec Ideal S1x96 .f32) = ba1 V c := by
  obtain ⟨-, ⟨i0, i1⟩, -⟩ := whole_index t
  funext y
  unfold iblk0
  rw [View.read_apply]
  show V c main_v7 _ = V c main_v7 _
  congr 1
  funext a
  apply Fin.ext
  match a with
  | ⟨0, _⟩ => show win0_3.index t (0 : Fin 2) * 1 + 1 * (y 0).val = (y 0).val; rw [i0]; omega
  | ⟨1, _⟩ => show win0_3.index t (1 : Fin 2) * 96 + 1 * (y 1).val = (y 1).val; rw [i1]; omega

theorem wa2_block (c : Dev nD) (t : Fin cfg0.N) : (iblk0 V c 4 t : Vec Ideal S96x1 .f32) = wa2 V c := by
  obtain ⟨-, -, ⟨i0, i1⟩, -⟩ := whole_index t
  funext y
  unfold iblk0
  rw [View.read_apply]
  show V c main_arg10 _ = V c main_arg10 _
  congr 1
  funext a
  apply Fin.ext
  match a with
  | ⟨0, _⟩ => show win0_4.index t (0 : Fin 2) * 96 + 1 * (y 0).val = (y 0).val; rw [i0]; omega
  | ⟨1, _⟩ => show win0_4.index t (1 : Fin 2) * 1 + 1 * (y 1).val = (y 1).val; rw [i1]; omega

theorem ba2_block (c : Dev nD) (t : Fin cfg0.N) : (iblk0 V c 5 t : Vec Ideal S1x1 .f32) = ba2 V c := by
  obtain ⟨-, -, -, ⟨i0, i1⟩, -⟩ := whole_index t
  funext y
  unfold iblk0
  rw [View.read_apply]
  show V c main_v8 _ = V c main_v8 _
  congr 1
  funext a
  apply Fin.ext
  match a with
  | ⟨0, _⟩ => show win0_5.index t (0 : Fin 2) * 1 + 1 * (y 0).val = (y 0).val; rw [i0]; omega
  | ⟨1, _⟩ => show win0_5.index t (1 : Fin 2) * 1 + 1 * (y 1).val = (y 1).val; rw [i1]; omega

theorem wx1_block (c : Dev nD) (t : Fin cfg0.N) : (iblk0 V c 6 t : Vec Ideal S96x96 .f32) = wx1 V c := by
  obtain ⟨-, -, -, -, ⟨i0, i1⟩, -⟩ := whole_index t
  funext y
  unfold iblk0
  rw [View.read_apply]
  show V c main_arg12 _ = V c main_arg12 _
  congr 1
  funext a
  apply Fin.ext
  match a with
  | ⟨0, _⟩ => show win0_6.index t (0 : Fin 2) * 96 + 1 * (y 0).val = (y 0).val; rw [i0]; omega
  | ⟨1, _⟩ => show win0_6.index t (1 : Fin 2) * 96 + 1 * (y 1).val = (y 1).val; rw [i1]; omega

theorem bx1_block (c : Dev nD) (t : Fin cfg0.N) : (iblk0 V c 7 t : Vec Ideal S1x96 .f32) = bx1 V c := by
  obtain ⟨-, -, -, -, -, ⟨i0, i1⟩, -⟩ := whole_index t
  funext y
  unfold iblk0
  rw [View.read_apply]
  show V c main_v9 _ = V c main_v9 _
  congr 1
  funext a
  apply Fin.ext
  match a with
  | ⟨0, _⟩ => show win0_7.index t (0 : Fin 2) * 1 + 1 * (y 0).val = (y 0).val; rw [i0]; omega
  | ⟨1, _⟩ => show win0_7.index t (1 : Fin 2) * 96 + 1 * (y 1).val = (y 1).val; rw [i1]; omega

theorem wx2_block (c : Dev nD) (t : Fin cfg0.N) : (iblk0 V c 8 t : Vec Ideal S96x1 .f32) = wx2 V c := by
  obtain ⟨-, -, -, -, -, -, ⟨i0, i1⟩, -⟩ := whole_index t
  funext y
  unfold iblk0
  rw [View.read_apply]
  show V c main_arg14 _ = V c main_arg14 _
  congr 1
  funext a
  apply Fin.ext
  match a with
  | ⟨0, _⟩ => show win0_8.index t (0 : Fin 2) * 96 + 1 * (y 0).val = (y 0).val; rw [i0]; omega
  | ⟨1, _⟩ => show win0_8.index t (1 : Fin 2) * 1 + 1 * (y 1).val = (y 1).val; rw [i1]; omega

theorem bx2_block (c : Dev nD) (t : Fin cfg0.N) : (iblk0 V c 9 t : Vec Ideal S1x1 .f32) = bx2 V c := by
  obtain ⟨-, -, -, -, -, -, -, i0, i1⟩ := whole_index t
  funext y
  unfold iblk0
  rw [View.read_apply]
  show V c main_v10 _ = V c main_v10 _
  congr 1
  funext a
  apply Fin.ext
  match a with
  | ⟨0, _⟩ => show win0_9.index t (0 : Fin 2) * 1 + 1 * (y 0).val = (y 0).val; rw [i0]; omega
  | ⟨1, _⟩ => show win0_9.index t (1 : Fin 2) * 1 + 1 * (y 1).val = (y 1).val; rw [i1]; omega

/-! ## What each point writes back -/

/-- Row p, column q of the wide block at point t sits at row 4000 t + p, column q of the wide array. -/
theorem packed_emb (t : Fin cfg0.N) (p : Fin 4000) (q : Fin 128) (e : Fin 800000) (he : e.val = 4000 * t.val + p.val) :
    ((cfg0.win 10).blk t).view.emb (ix2 p q) = (ix2 e q : S800000x128.Idx) := by
  obtain ⟨-, -, -, -, i0, i1, -⟩ := row_index t
  funext a
  apply Fin.ext
  match a with
  | ⟨0, _⟩ => show win0_10.index t (0 : Fin 2) * 4000 + 1 * p.val = e.val; rw [i0, he]; omega
  | ⟨1, _⟩ => show win0_10.index t (1 : Fin 2) * 128 + 1 * q.val = q.val; rw [i1]; omega

/-- Row p of the one-column block at point t sits at row 4000 t + p of the one-column array. -/
theorem attn_emb (t : Fin cfg0.N) (p : Fin 4000) (j : Fin 1) (e : Fin 800000) (he : e.val = 4000 * t.val + p.val) :
    ((cfg0.win 11).blk t).view.emb (ix2 p j) = (ix2 e j : S800000x1.Idx) := by
  obtain ⟨-, -, -, -, -, -, i0, i1⟩ := row_index t
  funext a
  apply Fin.ext
  match a with
  | ⟨0, _⟩ => show win0_11.index t (0 : Fin 2) * 4000 + 1 * p.val = e.val; rw [i0, he]; omega
  | ⟨1, _⟩ => show win0_11.index t (1 : Fin 2) * 1 + 1 * j.val = j.val; rw [i1]; omega

/-- Point t writes back block t of the 128-column function of the arrays. -/
theorem packed_flushed (c : Dev nD) (t : Fin cfg0.N) :
    (dat0 (F := Ideal) V c).flushed 10 t
      = ((cfg0.win 10).blk t).view.read (Elt Ideal)
          (packedFn (msgs V c) (pairs V c) (wa1 V c) (ba1 V c) (wa2 V c) (ba2 V c) (wx1 V c) (bx1 V c) (wx2 V c) (bx2 V c)) := by
  show (cfg0.win 10).cut (grid0.coords t) ((dat0 (F := Ideal) V c).after 10 t) = _
  rw [after0_10]
  unfold out0_10
  rw [View.canon_unit_zero hz]
  simp only [View.ld_unit_zero (S := S4000x96) hz, View.ld_unit_zero (S := S4000x6) hz, View.ld_unit_zero (S := S96x96) hz,
    View.ld_unit_zero (S := S1x96) hz, View.ld_unit_zero (S := S96x1) hz, View.ld_unit_zero (S := S1x1) hz]
  funext y
  obtain ⟨p, q, rfl⟩ : ∃ (p : Fin 4000) (q : Fin 128), y = ix2 p q := ⟨y 0, y 1, eq_ix2 y⟩
  have hN : cfg0.N = 200 := N_0
  have ht : t.val < 200 := hN ▸ t.isLt
  have he : (⟨4000 * t.val + p.val, by omega⟩ : Fin 800000).val = 4000 * t.val + p.val := rfl
  show k0_pay1 (F := Ideal) (iblk0 V c 0 t) (k0_pay3 (iblk0 V c 0 t) (iblk0 V c 2 t) (iblk0 V c 3 t) (iblk0 V c 4 t) (iblk0 V c 5 t))
      (k0_pay4 (iblk0 V c 0 t) (iblk0 V c 6 t) (iblk0 V c 7 t) (iblk0 V c 8 t) (iblk0 V c 9 t)) (iblk0 V c 1 t) (ix2 p q)
    = packedFn (msgs V c) (pairs V c) (wa1 V c) (ba1 V c) (wa2 V c) (ba2 V c) (wx1 V c) (bx1 V c) (wx2 V c) (bx2 V c)
        (((cfg0.win 10).blk t).view.emb (ix2 p q))
  rw [packed_emb t p q _ he]
  refine (packed_point (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (msgs V c) (pairs V c) ⟨4000 * t.val + p.val, by omega⟩ p q
    (msgs_block V c t p _ he) (pairs_block V c t p _ he)).trans ?_
  rw [wa1_block V c t, ba1_block V c t, wa2_block V c t, ba2_block V c t, wx1_block V c t, bx1_block V c t, wx2_block V c t,
    bx2_block V c t]
  rfl

/-- Point t writes back block t of the one-column function of the arrays. -/
theorem attn_flushed (c : Dev nD) (t : Fin cfg0.N) :
    (dat0 (F := Ideal) V c).flushed 11 t
      = ((cfg0.win 11).blk t).view.read (Elt Ideal) (attnFn (msgs V c) (wa1 V c) (ba1 V c) (wa2 V c) (ba2 V c)) := by
  show (cfg0.win 11).cut (grid0.coords t) ((dat0 (F := Ideal) V c).after 11 t) = _
  rw [after0_11]
  unfold out0_11
  rw [View.canon_unit_zero hz]
  simp only [View.ld_unit_zero (S := S4000x96) hz, View.ld_unit_zero (S := S96x96) hz,
    View.ld_unit_zero (S := S1x96) hz, View.ld_unit_zero (S := S96x1) hz, View.ld_unit_zero (S := S1x1) hz]
  funext y
  obtain ⟨p, j, rfl⟩ : ∃ (p : Fin 4000) (j : Fin 1), y = ix2 p j := ⟨y 0, y 1, eq_ix2 y⟩
  have hN : cfg0.N = 200 := N_0
  have ht : t.val < 200 := hN ▸ t.isLt
  have he : (⟨4000 * t.val + p.val, by omega⟩ : Fin 800000).val = 4000 * t.val + p.val := rfl
  show k0_pay3 (F := Ideal) (iblk0 V c 0 t) (iblk0 V c 2 t) (iblk0 V c 3 t) (iblk0 V c 4 t) (iblk0 V c 5 t) (ix2 p j)
    = attnFn (msgs V c) (wa1 V c) (ba1 V c) (wa2 V c) (ba2 V c) (((cfg0.win 11).blk t).view.emb (ix2 p j))
  rw [attn_emb t p j _ he]
  refine (attn_point (iblk0 V c 0 t) (iblk0 V c 2 t) (iblk0 V c 3 t) (iblk0 V c 4 t) (iblk0 V c 5 t) (msgs V c)
    ⟨4000 * t.val + p.val, by omega⟩ p j (msgs_block V c t p _ he)).trans ?_
  rw [wa1_block V c t, ba1_block V c t, wa2_block V c t, ba2_block V c t]
  rfl

/-! ## Every row is some point's -/

/-- An index of the wide array is in point t's block iff each coordinate is in the block's range. -/
theorem packed_mem (t : Fin cfg0.N) (i : S800000x128.Idx) :
    i ∈ ((cfg0.win 10).blk t).view.set ↔ ∀ a : Fin 2, win0_10.index t a * S4000x128.size a ≤ (i a).val
      ∧ (i a).val < win0_10.index t a * S4000x128.size a + S4000x128.size a := by
  show i ∈ ((View.whole main_v11_0).slice (win0_10.rect t)).set ↔ _
  rw [View.set_slice_whole, Rect.mem_set_unit]
  exact Iff.rfl

theorem attn_mem (t : Fin cfg0.N) (i : S800000x1.Idx) :
    i ∈ ((cfg0.win 11).blk t).view.set ↔ ∀ a : Fin 2, win0_11.index t a * S4000x1.size a ≤ (i a).val
      ∧ (i a).val < win0_11.index t a * S4000x1.size a + S4000x1.size a := by
  show i ∈ ((View.whole main_v11_1).slice (win0_11.rect t)).set ↔ _
  rw [View.set_slice_whole, Rect.mem_set_unit]
  exact Iff.rfl

/-- Row r of the wide array is covered by point r / 4000. -/
theorem packed_cover (i : S800000x128.Idx) :
    ∃ t : Fin cfg0.N, (cfg0.win 10).flush t = true ∧ i ∈ ((cfg0.win 10).blk t).view.set := by
  have hN : cfg0.N = 200 := N_0
  have h0 : (i 0).val < 800000 := (i 0).isLt
  have h1 : (i 1).val < 128 := (i 1).isLt
  refine ⟨⟨(i 0).val / 4000, by rw [hN]; omega⟩, flush0_10 _, ?_⟩
  obtain ⟨-, -, -, -, i0, i1, -⟩ := row_index ⟨(i 0).val / 4000, by rw [hN]; omega⟩
  rw [packed_mem]
  intro a
  match a with
  | ⟨0, _⟩ =>
    show win0_10.index _ (0 : Fin 2) * 4000 ≤ (i 0).val ∧ (i 0).val < win0_10.index _ (0 : Fin 2) * 4000 + 4000
    rw [i0]
    show (i 0).val / 4000 * 4000 ≤ (i 0).val ∧ (i 0).val < (i 0).val / 4000 * 4000 + 4000
    omega
  | ⟨1, _⟩ =>
    show win0_10.index _ (1 : Fin 2) * 128 ≤ (i 1).val ∧ (i 1).val < win0_10.index _ (1 : Fin 2) * 128 + 128
    rw [i1]
    omega

/-- Row r of the one-column array is covered by point r / 4000. -/
theorem attn_cover (i : S800000x1.Idx) :
    ∃ t : Fin cfg0.N, (cfg0.win 11).flush t = true ∧ i ∈ ((cfg0.win 11).blk t).view.set := by
  have hN : cfg0.N = 200 := N_0
  have h0 : (i 0).val < 800000 := (i 0).isLt
  have h1 : (i 1).val < 1 := (i 1).isLt
  refine ⟨⟨(i 0).val / 4000, by rw [hN]; omega⟩, flush0_11 _, ?_⟩
  obtain ⟨-, -, -, -, -, -, i0, i1⟩ := row_index ⟨(i 0).val / 4000, by rw [hN]; omega⟩
  rw [attn_mem]
  intro a
  match a with
  | ⟨0, _⟩ =>
    show win0_11.index _ (0 : Fin 2) * 4000 ≤ (i 0).val ∧ (i 0).val < win0_11.index _ (0 : Fin 2) * 4000 + 4000
    rw [i0]
    show (i 0).val / 4000 * 4000 ≤ (i 0).val ∧ (i 0).val < (i 0).val / 4000 * 4000 + 4000
    omega
  | ⟨1, _⟩ =>
    show win0_11.index _ (1 : Fin 2) * 1 ≤ (i 1).val ∧ (i 1).val < win0_11.index _ (1 : Fin 2) * 1 + 1
    rw [i1]
    omega

/-! ## The two arrays after the launch -/

/-- The 128-column array after the launch is that function of the arrays before it. -/
theorem packed_eq (c : Dev nD) :
    packed V c = packedFn (msgs V c) (pairs V c) (wa1 V c) (ba1 V c) (wa2 V c) (ba2 V c) (wx1 V c) (bx1 V c) (wx2 V c) (bx2 V c) :=
  (dat0 (F := Ideal) V c).arrAt_eq_of_cover 10 _ (fun t _ => packed_flushed V c t) packed_cover

/-- The one-column array after the launch is that function of the arrays before it. -/
theorem attn_eq (c : Dev nD) :
    attn V c = attnFn (msgs V c) (wa1 V c) (ba1 V c) (wa2 V c) (ba2 V c) :=
  (dat0 (F := Ideal) V c).arrAt_eq_of_cover 11 _ (fun t _ => attn_flushed V c t) attn_cover

/-! ## What the launch leaves -/

/-- Columns 0 … 95 of row e: the weighted message of edge e. -/
theorem packed_message (c : Dev nD) (e : Fin 800000) (j : Fin 96) :
    packed V c (ix2 e ⟨j.val, by omega⟩)
      = message (msgs V c) (wa1 V c) (rowVec (ba1 V c)) (wa2 V c) (rowVec (ba2 V c)) e j := by
  rw [packed_eq]
  show packedAt _ _ _ _ _ _ _ _ _ _ e ⟨j.val, _⟩ = _
  unfold packedAt
  rw [dif_pos j.isLt]

/-- Columns 96 … 98 of row e: the coordinate shift of edge e. -/
theorem packed_shift (c : Dev nD) (e : Fin 800000) (k : Fin 3) :
    packed V c (ix2 e ⟨96 + k.val, by omega⟩)
      = shift (cols3 0 (by omega) (pairs V c)) (cols3 3 (by omega) (pairs V c))
          (head (msgs V c) (wx1 V c) (rowVec (bx1 V c)) (wx2 V c) (rowVec (bx2 V c))) e k := by
  rw [packed_eq]
  show packedAt _ _ _ _ _ _ _ _ _ _ e ⟨96 + k.val, _⟩ = _
  unfold packedAt
  have hk : k.val < 3 := k.isLt
  rw [dif_neg (show ¬(96 + k.val < 96) by omega), dif_pos (show 96 + k.val < 99 by omega)]
  have e3 : (⟨96 + k.val - 96, by omega⟩ : Fin 3) = k := Fin.ext (by show 96 + k.val - 96 = k.val; omega)
  rw [e3]

/-- The one-column array at row e: the attention of edge e. -/
theorem attn_attention (c : Dev nD) (e : Fin 800000) :
    attn V c (ix2 e 0)
      = attention (msgs V c) (wa1 V c) (rowVec (ba1 V c)) (wa2 V c) (rowVec (ba2 V c)) e := by
  rw [attn_eq]
  rfl

end Cert.KernelIdeal.Edge

end
-- ==== Proof.Node.lean ====
/-
  The second launch, read as values. Its grid has 10 points; point t stages rows 5000 t … 5000 t + 4999 of
  the node features, of the 128-column array of received sums and of the coordinates, and the whole of each weight
  and bias array, and writes back the same rows of a 128-column array. Every row is computed from its own input
  rows alone: columns 0 … 95 of row n hold node n's new feature row, where the received message is columns 0 … 95
  of the received sums, and columns 96 … 98 hold its new coordinates, the old ones plus columns 96 … 98 of the
  received sums.
-/
import proofs.«430715_j17815524344039_3_alg».proof.Proof.Gen.KernelIdeal.Frame
import proofs.«430715_j17815524344039_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Node

open Idealize.ShloMosaic Idealize.ShloMosaic.TcCoe Idealize.ShloMosaic.ValueIdx
open Cert.KernelIdeal Cert.KernelIdeal.Gen Cert.Spec

-- the buffers' contents when the launch is entered
variable (V : (c : Dev nD) → (b : Ref sig .tc) → Buf (Elt Ideal) ((c : Thread nD τ).loc b))

/-! ## The arrays the launch reads and writes, at their literal extents -/

/-- The node features. -/
abbrev feats (c : Dev nD) : Mat 50000 96 := V c main_arg0
/-- Per node, the sums received over its incoming edges: 96 message columns, 3 shift columns, padding. -/
abbrev sums (c : Dev nD) : Mat 50000 128 := V c main_v14
/-- The node coordinates. -/
abbrev coords (c : Dev nD) : Mat 50000 3 := V c main_arg1
/-- The node perceptron's weights and biases (the biases as one-row matrices). -/
abbrev wn1 (c : Dev nD) : Mat 192 96 := V c main_arg4
abbrev bn1 (c : Dev nD) : Mat 1 96 := V c main_v15
abbrev wn2 (c : Dev nD) : Mat 96 96 := V c main_arg6
abbrev bn2 (c : Dev nD) : Mat 1 96 := V c main_v16
/-- The 128-column array after the launch. -/
abbrev outp (c : Dev nD) : Mat 50000 128 := (dat1 (F := Ideal) V c).arrAt 7 cfg1.N

/-! ## A product of a 5000 × 96 block with a 96 × 96 matrix, entry by entry -/

theorem lhs_mm_0 (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_mm_1 (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhs_mm_0 (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhs_mm_1 (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The product into a zero accumulator at row p, column j: the sum over k of the row's entry k times the
    matrix's entry (k, j). -/
theorem mm_apply {φ₁ φ₂ : FTy} (l : FVec Ideal S5000x96 φ₁) (r : FVec Ideal S96x96 φ₂) (p : Fin 5000) (j : Fin 96) :
    matmul dot_S5000x96_S96x96_S5000x96_1_0_0_1_n_n none l r (constant (F := Ideal) S5000x96 .f32 0x00000000#32) (ix2 p j)
      = ∑ k : Fin 96, l (ix2 p k) * r (ix2 k j) := by
  show FloatOps.matmul dot_S5000x96_S96x96_S5000x96_1_0_0_1_n_n none l r (constant (F := Ideal) S5000x96 .f32 0x00000000#32) (ix2 p j) = _
  rw [Ideal.matmul_constant_zero_apply, ← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx (ix2 p j) ((ValueIdx.contrEquiv1 dot_S5000x96_S96x96_S5000x96_1_0_0_1_n_n 96 rfl rfl).symm k) = ix2 p k := funext fun a => Fin.ext (by
    match a with
    | ⟨0, _⟩ => exact lhs_mm_0 _ _
    | ⟨1, _⟩ => exact (lhs_mm_1 _ _).trans hk)
  have er : dot_S5000x96_S96x96_S5000x96_1_0_0_1_n_n.rhsIdx (ix2 p j) ((ValueIdx.contrEquiv1 dot_S5000x96_S96x96_S5000x96_1_0_0_1_n_n 96 rfl rfl).symm k) = ix2 k j := funext fun a => Fin.ext (by
    match a with
    | ⟨0, _⟩ => exact (rhs_mm_0 _ _).trans hk
    | ⟨1, _⟩ => exact rhs_mm_1 _ _)
  rw [el, er]

/-! ## The layout operations of the body, entry by entry -/

/-- Columns 0 … 95 of a 128-column block. -/
theorem slice_msg_apply {α : Type} (x : S5000x128.Idx → α) (p : Fin 5000) (k : Fin 96) :
    extractStridedSlice S5000x96 ![0, 0] x slices_S5000x128_o0_0_S5000x96 (ix2 p k) = x (ix2 p ⟨k.val, by omega⟩) :=
  extractStridedSlice_apply ![0, 0] x slices_S5000x128_o0_0_S5000x96 (ix2 p k) (ix2 p ⟨k.val, by omega⟩) (fun a => match a with
    | ⟨0, _⟩ => by show p.val = 0 + p.val; omega
    | ⟨1, _⟩ => by show k.val = 0 + k.val; omega)

/-- Columns 96 … 98 of a 128-column block. -/
theorem slice_shift_apply {α : Type} (x : S5000x128.Idx → α) (p : Fin 5000) (k : Fin 3) :
    extractStridedSlice S5000x3 ![0, 96] x slices_S5000x128_o0_96_S5000x3 (ix2 p k) = x (ix2 p ⟨96 + k.val, by omega⟩) :=
  extractStridedSlice_apply ![0, 96] x slices_S5000x128_o0_96_S5000x3 (ix2 p k) (ix2 p ⟨96 + k.val, by omega⟩) (fun a => match a with
    | ⟨0, _⟩ => by show p.val = 0 + p.val; omega
    | ⟨1, _⟩ => by show 96 + k.val = 96 + k.val; omega)

/-- Rows 0 … 95 of the 192 × 96 weights. -/
theorem slice_upper_apply {α : Type} (w : S192x96.Idx → α) (k j : Fin 96) :
    extractStridedSlice S96x96 ![0, 0] w slices_S192x96_o0_0_S96x96 (ix2 k j) = w (ix2 ⟨k.val, by omega⟩ j) :=
  extractStridedSlice_apply ![0, 0] w slices_S192x96_o0_0_S96x96 (ix2 k j) (ix2 ⟨k.val, by omega⟩ j) (fun a => match a with
    | ⟨0, _⟩ => by show k.val = 0 + k.val; omega
    | ⟨1, _⟩ => by show j.val = 0 + j.val; omega)

/-- Rows 96 … 191 of the 192 × 96 weights. -/
theorem slice_lower_apply {α : Type} (w : S192x96.Idx → α) (k j : Fin 96) :
    extractStridedSlice S96x96 ![96, 0] w slices_S192x96_o96_0_S96x96 (ix2 k j) = w (ix2 ⟨96 + k.val, by omega⟩ j) :=
  extractStridedSlice_apply ![96, 0] w slices_S192x96_o96_0_S96x96 (ix2 k j) (ix2 ⟨96 + k.val, by omega⟩ j) (fun a => match a with
    | ⟨0, _⟩ => by show 96 + k.val = 96 + k.val; omega
    | ⟨1, _⟩ => by show j.val = 0 + j.val; omega)

/-- A bias row repeated down the 5000 rows. -/
theorem bias_apply {α : Type} (b : S1x96.Idx → α) (p : Fin 5000) (j : Fin 96) :
    broadcastTo S5000x96 b broadcasts_S1x96_S5000x96 (ix2 p j) = b (ix2 0 j) :=
  broadcastTo_apply b broadcasts_S1x96_S5000x96 (ix2 p j) (ix2 0 j) (fun a => match a with
    | ⟨0, _⟩ => rfl
    | ⟨1, _⟩ => rfl)

/-- The stored block, columns 0 … 95: the first piece. -/
theorem concat_feature_apply {α : Type} (a : S5000x96.Idx → α) (b : S5000x3.Idx → α) (z : S5000x29.Idx → α) (p : Fin 5000) (j : Fin 96) :
    concatenate S5000x128 1 [⟨S5000x96, a⟩, ⟨S5000x3, b⟩, ⟨S5000x29, z⟩] concatenates_S5000x96_S5000x3_S5000x29_S5000x128_d1 (ix2 p ⟨j.val, by omega⟩)
      = a (ix2 p j) :=
  concatenate_apply_piece 1 [⟨S5000x96, a⟩, ⟨S5000x3, b⟩, ⟨S5000x29, z⟩] concatenates_S5000x96_S5000x3_S5000x29_S5000x128_d1 (ix2 p ⟨j.val, by omega⟩)
    0 (by show (0 : ℕ) < 3; omega) S5000x96 a rfl rfl 0 rfl (ix2 p j)
    (fun b hb => match b with
      | ⟨0, _⟩ => rfl
      | ⟨1, _⟩ => absurd rfl hb)
    (by show 0 + j.val = j.val; omega)

/-- The stored block, columns 96 … 98: the second piece. -/
theorem concat_coord_apply {α : Type} (a : S5000x96.Idx → α) (b : S5000x3.Idx → α) (z : S5000x29.Idx → α) (p : Fin 5000) (k : Fin 3) :
    concatenate S5000x128 1 [⟨S5000x96, a⟩, ⟨S5000x3, b⟩, ⟨S5000x29, z⟩] concatenates_S5000x96_S5000x3_S5000x29_S5000x128_d1 (ix2 p ⟨96 + k.val, by omega⟩)
      = b (ix2 p k) :=
  concatenate_apply_piece 1 [⟨S5000x96, a⟩, ⟨S5000x3, b⟩, ⟨S5000x29, z⟩] concatenates_S5000x96_S5000x3_S5000x29_S5000x128_d1 (ix2 p ⟨96 + k.val, by omega⟩)
    1 (by show (1 : ℕ) < 3; omega) S5000x3 b rfl rfl 96 rfl (ix2 p k)
    (fun b hb => match b with
      | ⟨0, _⟩ => rfl
      | ⟨1, _⟩ => absurd rfl hb)
    (by show 96 + k.val = 96 + k.val; omega)

/-- The stored block, columns 99 … 127: the zero padding. -/
theorem concat_pad_apply {α : Type} (a : S5000x96.Idx → α) (b : S5000x3.Idx → α) (z : S5000x29.Idx → α) (p : Fin 5000) (k : Fin 29) :
    concatenate S5000x128 1 [⟨S5000x96, a⟩, ⟨S5000x3, b⟩, ⟨S5000x29, z⟩] concatenates_S5000x96_S5000x3_S5000x29_S5000x128_d1 (ix2 p ⟨99 + k.val, by omega⟩)
      = z (ix2 p k) :=
  concatenate_apply_piece 1 [⟨S5000x96, a⟩, ⟨S5000x3, b⟩, ⟨S5000x29, z⟩] concatenates_S5000x96_S5000x3_S5000x29_S5000x128_d1 (ix2 p ⟨99 + k.val, by omega⟩)
    2 (by show (2 : ℕ) < 3; omega) S5000x29 z rfl rfl 99 rfl (ix2 p k)
    (fun b hb => match b with
      | ⟨0, _⟩ => rfl
      | ⟨1, _⟩ => absurd rfl hb)
    (by show 99 + k.val = 99 + k.val; omega)

/-! ## One row of the body's result -/

/-- Column j of a node's new feature row, from the node's old feature row f and its received message g alone. -/
def rowFeature (f g : Fin 96 → EReal) (W1 : Mat 192 96) (b1 : Vc 96) (W2 : Mat 96 96) (b2 : Vc 96) (j : Fin 96) : EReal :=
  dense (fun k => silu (((∑ k' : Fin 96, f k' * W1 (ix2 (⟨k'.val, by omega⟩ : Fin 192) k))
    + (∑ k' : Fin 96, g k' * W1 (ix2 (⟨96 + k'.val, by omega⟩ : Fin 192) k))) + b1 (ix1 k))) W2 b2 j + f j

/-- The specification's new feature row reads only the node's own rows. -/
theorem newFeature_eq_rowFeature (nf : Mat 50000 96) (mi : Fin 50000 → Fin 96 → EReal) (W1 : Mat 192 96) (b1 : Vc 96)
    (W2 : Mat 96 96) (b2 : Vc 96) (n : Fin 50000) (j : Fin 96) :
    newFeature nf mi W1 b1 W2 b2 n j = rowFeature (fun k => nf (ix2 n k)) (mi n) W1 b1 W2 b2 j := rfl

/-- The logistic function is applied entry by entry. -/
theorem logistic_apply {s : Shape} {φ : FTy} (x : FVec Ideal s φ) (i : s.Idx) : logistic x i = Ideal.logistic (x i) := rfl

/-- The hidden layer's argument at row p, column k: the old feature row against rows 0 … 95 of the weights, columns
    0 … 95 of the received sums against rows 96 … 191, plus the bias. -/
theorem preact_apply (x0 : Vec Ideal S5000x96 .f32) (x1 : Vec Ideal S5000x128 .f32) (x7 : Vec Ideal S192x96 .f32)
    (x11 : Vec Ideal S1x96 .f32) (p : Fin 5000) (k : Fin 96) :
    addf (addf
        (matmul dot_S5000x96_S96x96_S5000x96_1_0_0_1_n_n none (truncf .bf16 x0 bitsLt_bf16_f32)
          (extractStridedSlice S96x96 ![0, 0] (truncf .bf16 x7 bitsLt_bf16_f32) slices_S192x96_o0_0_S96x96)
          (constant (F := Ideal) S5000x96 .f32 0x00000000#32))
        (matmul dot_S5000x96_S96x96_S5000x96_1_0_0_1_n_n none
          (truncf .bf16 (extractStridedSlice S5000x96 ![0, 0] (shapeCast S5000x128 x1 shapeCasts_S5000x128_S5000x128)
            slices_S5000x128_o0_0_S5000x96) bitsLt_bf16_f32)
          (extractStridedSlice S96x96 ![96, 0] (truncf .bf16 x7 bitsLt_bf16_f32) slices_S192x96_o96_0_S96x96)
          (constant (F := Ideal) S5000x96 .f32 0x00000000#32)))
      (broadcastTo S5000x96 (shapeCast S1x96 x11 shapeCasts_S1x96_S1x96) broadcasts_S1x96_S5000x96) (ix2 p k)
      = ((∑ k' : Fin 96, x0 (ix2 p k') * x7 (ix2 (⟨k'.val, by omega⟩ : Fin 192) k))
          + (∑ k' : Fin 96, x1 (ix2 p ⟨k'.val, by omega⟩) * x7 (ix2 (⟨96 + k'.val, by omega⟩ : Fin 192) k)))
        + x11 (ix2 0 k) := by
  rw [addf_apply, addf_apply, mm_apply, mm_apply, bias_apply, shapeCast_self, shapeCast_self]
  refine congrArg₂ (· + ·) (congrArg₂ (· + ·) (Finset.sum_congr rfl fun k' _ => ?_) (Finset.sum_congr rfl fun k' _ => ?_)) rfl
  · rw [truncf_apply, slice_upper_apply, truncf_apply]
  · rw [truncf_apply, slice_msg_apply, slice_lower_apply, truncf_apply]

/-- Columns 0 … 95 of row p of the stored block: the new feature row computed from row p of the staged blocks. -/
theorem pay_feature (x0 : Vec Ideal S5000x96 .f32) (x1 : Vec Ideal S5000x128 .f32) (x7 : Vec Ideal S192x96 .f32)
    (x11 : Vec Ideal S1x96 .f32) (x21 : Vec Ideal S96x96 .f32) (x23 : Vec Ideal S1x96 .f32) (x29 : Vec Ideal S5000x3 .f32)
    (p : Fin 5000) (j : Fin 96) :
    k1_pay1 (F := Ideal) x0 x1 x7 x11 x21 x23 x29 (ix2 p ⟨j.val, by omega⟩)
      = rowFeature (fun k => x0 (ix2 p k)) (fun k => x1 (ix2 p ⟨k.val, by omega⟩)) x7 (rowVec x11) x21 (rowVec x23) j := by
  unfold k1_pay1
  rw [concat_feature_apply, addf_apply, addf_apply, mm_apply, bias_apply, shapeCast_self x23]
  unfold rowFeature dense
  refine congrArg₂ (· + ·) (congrArg₂ (· + ·) (Finset.sum_congr rfl fun k _ => ?_) rfl) rfl
  rw [truncf_apply, truncf_apply, mulf_apply, logistic_apply, preact_apply]
  rfl

/-- Columns 96 … 98 of row p of the stored block: the staged coordinates plus columns 96 … 98 of the staged sums. -/
theorem pay_coord (x0 : Vec Ideal S5000x96 .f32) (x1 : Vec Ideal S5000x128 .f32) (x7 : Vec Ideal S192x96 .f32)
    (x11 : Vec Ideal S1x96 .f32) (x21 : Vec Ideal S96x96 .f32) (x23 : Vec Ideal S1x96 .f32) (x29 : Vec Ideal S5000x3 .f32)
    (p : Fin 5000) (k : Fin 3) :
    k1_pay1 (F := Ideal) x0 x1 x7 x11 x21 x23 x29 (ix2 p ⟨96 + k.val, by omega⟩)
      = x29 (ix2 p k) + x1 (ix2 p ⟨96 + k.val, by omega⟩) := by
  unfold k1_pay1
  rw [concat_coord_apply, addf_apply, slice_shift_apply, shapeCast_self]

/-- Columns 99 … 127 of the stored block: zero. -/
theorem pay_pad (x0 : Vec Ideal S5000x96 .f32) (x1 : Vec Ideal S5000x128 .f32) (x7 : Vec Ideal S192x96 .f32)
    (x11 : Vec Ideal S1x96 .f32) (x21 : Vec Ideal S96x96 .f32) (x23 : Vec Ideal S1x96 .f32) (x29 : Vec Ideal S5000x3 .f32)
    (p : Fin 5000) (k : Fin 29) :
    k1_pay1 (F := Ideal) x0 x1 x7 x11 x21 x23 x29 (ix2 p ⟨99 + k.val, by omega⟩)
      = Ideal.ofBits .f32 0x00000000#32 := by
  unfold k1_pay1
  rw [concat_pad_apply]
  rfl

/-! ## The staged blocks, read off the arrays -/

theorem hz : (![0, 0] : Fin 2 → Nat) = fun _ => 0 := funext fun a => by fin_cases a <;> rfl

/-- The printed index maps over the ten grid points: the three row windows and the output window sit at block row t,
    block column 0; the four weight windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the staged feature block at point t is row 5000 t + p of the node features. -/
theorem feats_blk (c : Dev nD) (t : Fin cfg1.N) (p : Fin 5000) (q : Fin 96) (n : Fin 50000) (hn : n.val = 5000 * t.val + p.val) :
    (iblk1 V c 0 t : Vec Ideal S5000x96 .f32) (ix2 p q) = feats V c (ix2 n q) := by
  obtain ⟨e0, e1, -⟩ := idx_facts t
  unfold iblk1
  rw [View.read_apply]
  show V c main_arg0 _ = V c main_arg0 _
  congr 1
  funext a; apply Fin.ext
  match a with
  | ⟨0, _⟩ => show win1_0.index t (0 : Fin 2) * 5000 + 1 * p.val = n.val; rw [e0, hn]; omega
  | ⟨1, _⟩ => show win1_0.index t (1 : Fin 2) * 96 + 1 * q.val = q.val; rw [e1]; omega

/-- Row p of the staged block of received sums at point t is row 5000 t + p of the received sums. -/
theorem sums_blk (c : Dev nD) (t : Fin cfg1.N) (p : Fin 5000) (q : Fin 128) (n : Fin 50000) (hn : n.val = 5000 * t.val + p.val) :
    (iblk1 V c 1 t : Vec Ideal S5000x128 .f32) (ix2 p q) = sums V c (ix2 n q) := by
  obtain ⟨-, -, e0, e1, -⟩ := idx_facts t
  unfold iblk1
  rw [View.read_apply]
  show V c main_v14 _ = V c main_v14 _
  congr 1
  funext a; apply Fin.ext
  match a with
  | ⟨0, _⟩ => show win1_1.index t (0 : Fin 2) * 5000 + 1 * p.val = n.val; rw [e0, hn]; omega
  | ⟨1, _⟩ => show win1_1.index t (1 : Fin 2) * 128 + 1 * q.val = q.val; rw [e1]; omega

/-- Row p of the staged coordinate block at point t is row 5000 t + p of the node coordinates. -/
theorem coords_blk (c : Dev nD) (t : Fin cfg1.N) (p : Fin 5000) (q : Fin 3) (n : Fin 50000) (hn : n.val = 5000 * t.val + p.val) :
    (iblk1 V c 2 t : Vec Ideal S5000x3 .f32) (ix2 p q) = coords V c (ix2 n q) := by
  obtain ⟨-, -, -, -, e0, e1, -⟩ := idx_facts t
  unfold iblk1
  rw [View.read_apply]
  show V c main_arg1 _ = V c main_arg1 _
  congr 1
  funext a; apply Fin.ext
  match a with
  | ⟨0, _⟩ => show win1_2.index t (0 : Fin 2) * 5000 + 1 * p.val = n.val; rw [e0, hn]; omega
  | ⟨1, _⟩ => show win1_2.index t (1 : Fin 2) * 3 + 1 * q.val = q.val; rw [e1]; omega

/-- Each weight and bias window stages its whole array at every point. -/
theorem wn1_blk (c : Dev nD) (t : Fin cfg1.N) : (iblk1 V c 3 t : Vec Ideal S192x96 .f32) = wn1 V c := by
  obtain ⟨-, -, -, -, -, -, e0, e1, -⟩ := idx_facts t
  funext y
  unfold iblk1
  rw [View.read_apply]
  show V c main_arg4 _ = V c main_arg4 y
  congr 1
  funext a; apply Fin.ext
  match a with
  | ⟨0, _⟩ => show win1_3.index t (0 : Fin 2) * 192 + 1 * (y 0).val = (y 0).val; rw [e0]; omega
  | ⟨1, _⟩ => show win1_3.index t (1 : Fin 2) * 96 + 1 * (y 1).val = (y 1).val; rw [e1]; omega

theorem bn1_blk (c : Dev nD) (t : Fin cfg1.N) : (iblk1 V c 4 t : Vec Ideal S1x96 .f32) = bn1 V c := by
  obtain ⟨-, -, -, -, -, -, -, -, e0, e1, -⟩ := idx_facts t
  funext y
  unfold iblk1
  rw [View.read_apply]
  show V c main_v15 _ = V c main_v15 y
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 96 + 1 * (y 1).val = (y 1).val; rw [e1]; omega

theorem wn2_blk (c : Dev nD) (t : Fin cfg1.N) : (iblk1 V c 5 t : Vec Ideal S96x96 .f32) = wn2 V c := by
  obtain ⟨-, -, -, -, -, -, -, -, -, -, e0, e1, -⟩ := idx_facts t
  funext y
  unfold iblk1
  rw [View.read_apply]
  show V c main_arg6 _ = V c main_arg6 y
  congr 1
  funext a; apply Fin.ext
  match a with
  | ⟨0, _⟩ => show win1_5.index t (0 : Fin 2) * 96 + 1 * (y 0).val = (y 0).val; rw [e0]; omega
  | ⟨1, _⟩ => show win1_5.index t (1 : Fin 2) * 96 + 1 * (y 1).val = (y 1).val; rw [e1]; omega

theorem bn2_blk (c : Dev nD) (t : Fin cfg1.N) : (iblk1 V c 6 t : Vec Ideal S1x96 .f32) = bn2 V c := by
  obtain ⟨-, -, -, -, -, -, -, -, -, -, -, -, e0, e1, -⟩ := idx_facts t
  funext y
  unfold iblk1
  rw [View.read_apply]
  show V c main_v16 _ = V c main_v16 y
  congr 1
  funext a; apply Fin.ext
  match a with
  | ⟨0, _⟩ => show win1_6.index t (0 : Fin 2) * 1 + 1 * (y 0).val = (y 0).val; rw [e0]; omega
  | ⟨1, _⟩ => show win1_6.index t (1 : Fin 2) * 96 + 1 * (y 1).val = (y 1).val; rw [e1]; omega

/-! ## The array the launch leaves, as one function of the arrays it reads -/

/-- Entry (n, q) of that array: a column of node n's new feature row, then its three new coordinates, then zero. -/
def nodeOut (c : Dev nD) (n : Fin 50000) (q : Fin 128) : EReal :=
  if h : q.val < 96 then
    rowFeature (fun k => feats V c (ix2 n k)) (fun k => sums V c (ix2 n ⟨k.val, by omega⟩)) (wn1 V c) (rowVec (bn1 V c))
      (wn2 V c) (rowVec (bn2 V c)) ⟨q.val, h⟩
  else if h' : q.val < 99 then
    coords V c (ix2 n ⟨q.val - 96, by omega⟩) + sums V c (ix2 n q)
  else Ideal.ofBits .f32 0x00000000#32

/-- The whole array. -/
def nodeArr (c : Dev nD) : Mat 50000 128 := fun i => nodeOut V c ⟨(i 0).val, idx2_lt0 i⟩ ⟨(i 1).val, idx2_lt1 i⟩

/-- Entry (p, q) of the output block at point t sits at row 5000 t + p, column q of the array. -/
theorem out_emb (t : Fin cfg1.N) (y : S5000x128.Idx) (n : Fin 50000) (hn : n.val = 5000 * t.val + (y 0).val) :
    ((cfg1.win 7).blk t).view.emb y = (ix2 n ⟨(y 1).val, idx2_lt1 y⟩ : S50000x128.Idx) := by
  obtain ⟨-, -, -, -, -, -, -, -, -, -, -, -, -, -, e0, e1⟩ := idx_facts t
  funext a; apply Fin.ext
  match a with
  | ⟨0, _⟩ => show win1_7.index t (0 : Fin 2) * 5000 + 1 * (y 0).val = n.val; rw [e0, hn]; omega
  | ⟨1, _⟩ => show win1_7.index t (1 : Fin 2) * 128 + 1 * (y 1).val = (y 1).val; rw [e1]; omega

/-- The body's stored block at point t, entry by entry, is that function at the block's place in the array. -/
theorem stored_apply (c : Dev nD) (t : Fin cfg1.N) (p : Fin 5000) (q : Fin 128) (n : Fin 50000) (hn : n.val = 5000 * t.val + p.val) :
    k1_pay1 (F := Ideal) (iblk1 V c 0 t) (iblk1 V c 1 t) (iblk1 V c 3 t) (iblk1 V c 4 t) (iblk1 V c 5 t) (iblk1 V c 6 t) (iblk1 V c 2 t) (ix2 p q)
      = nodeOut V c n q := by
  unfold nodeOut
  by_cases h : q.val < 96
  · obtain ⟨j, rfl⟩ : ∃ j : Fin 96, q = ⟨j.val, Nat.lt_of_lt_of_le j.isLt (by decide)⟩ := ⟨⟨q.val, h⟩, rfl⟩
    rw [dif_pos h]
    refine (pay_feature (iblk1 V c 0 t) (iblk1 V c 1 t) (iblk1 V c 3 t) (iblk1 V c 4 t) (iblk1 V c 5 t) (iblk1 V c 6 t) (iblk1 V c 2 t) p j).trans ?_
    rw [wn1_blk, bn1_blk, wn2_blk, bn2_blk,
      show (fun k : Fin 96 => (iblk1 V c 0 t : Vec Ideal S5000x96 .f32) (ix2 p k)) = fun k => feats V c (ix2 n k) from
        funext fun k => feats_blk V c t p k n hn,
      show (fun k : Fin 96 => (iblk1 V c 1 t : Vec Ideal S5000x128 .f32) (ix2 p ⟨k.val, by omega⟩)) = fun k => sums V c (ix2 n ⟨k.val, by omega⟩) from
        funext fun k => sums_blk V c t p ⟨k.val, by omega⟩ n hn]
  · rw [dif_neg h]
    by_cases h' : q.val < 99
    · obtain ⟨k, rfl⟩ : ∃ k : Fin 3, q = ⟨96 + k.val, Nat.lt_of_lt_of_le (Nat.add_lt_add_left k.isLt 96) (by decide)⟩ := ⟨⟨q.val - 96, by omega⟩, Fin.ext (by show q.val = 96 + (q.val - 96); omega)⟩
      rw [dif_pos h']
      refine (pay_coord (iblk1 V c 0 t) (iblk1 V c 1 t) (iblk1 V c 3 t) (iblk1 V c 4 t) (iblk1 V c 5 t) (iblk1 V c 6 t) (iblk1 V c 2 t) p k).trans ?_
      rw [coords_blk V c t p k n hn, sums_blk V c t p ⟨96 + k.val, by omega⟩ n hn]
      exact congrArg (fun k' : Fin 3 => coords V c (ix2 n k') + sums V c (ix2 n ⟨96 + k.val, by omega⟩)) (Fin.ext (by show k.val = 96 + k.val - 96; omega))
    · obtain ⟨k, rfl⟩ : ∃ k : Fin 29, q = ⟨99 + k.val, Nat.lt_of_lt_of_le (Nat.add_lt_add_left k.isLt 99) (by decide)⟩ := ⟨⟨q.val - 99, by have := q.isLt; omega⟩, Fin.ext (by show q.val = 99 + (q.val - 99); omega)⟩
      rw [dif_neg h']
      exact pay_pad (iblk1 V c 0 t) (iblk1 V c 1 t) (iblk1 V c 3 t) (iblk1 V c 4 t) (iblk1 V c 5 t) (iblk1 V c 6 t) (iblk1 V c 2 t) p k

/-- The same at an index of the block. -/
theorem stored_eq (c : Dev nD) (t : Fin cfg1.N) (y : S5000x128.Idx) :
    k1_pay1 (F := Ideal) (iblk1 V c 0 t) (iblk1 V c 1 t) (iblk1 V c 3 t) (iblk1 V c 4 t) (iblk1 V c 5 t) (iblk1 V c 6 t) (iblk1 V c 2 t) y
      = nodeArr V c (((cfg1.win 7).blk t).view.emb y) := by
  have hN : cfg1.N = 10 := N_1
  have ht : t.val < 10 := by have := t.isLt; omega
  have hp : (y 0).val < 5000 := idx2_lt0 y
  rw [out_emb t y ⟨5000 * t.val + (y 0).val, by omega⟩ rfl]
  refine (congrArg _ (eq_ix2 y)).trans ?_
  exact stored_apply V c t ⟨(y 0).val, hp⟩ ⟨(y 1).val, idx2_lt1 y⟩ ⟨5000 * t.val + (y 0).val, by omega⟩ rfl

/-- What point t writes back is block t of that function. -/
theorem flushed_eq (c : Dev nD) (t : Fin cfg1.N) :
    (dat1 (F := Ideal) V c).flushed 7 t = ((cfg1.win 7).blk t).view.read (Elt Ideal) (nodeArr V c) := by
  show (cfg1.win 7).cut (grid1.coords t) ((dat1 (F := Ideal) V c).after 7 t) = _
  rw [after1_7]
  unfold out1_7
  rw [View.canon_unit_zero hz]
  simp only [View.ld_unit_zero (S := S5000x96) hz, View.ld_unit_zero (S := S5000x128) hz, View.ld_unit_zero (S := S5000x3) hz,
    View.ld_unit_zero (S := S192x96) hz, View.ld_unit_zero (S := S1x96) hz, View.ld_unit_zero (S := S96x96) hz]
  exact funext fun y => stored_eq V c t y

/-- An index of the array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v17).slice (win1_7.rect t)).set ↔ _
  rw [View.set_slice_whole, Rect.mem_set_unit]
  exact Iff.rfl

/-- Row r of the array is covered by point r / 5000. -/
theorem cover (i : S50000x128.Idx) : ∃ t : Fin cfg1.N, (cfg1.win 7).flush t = true ∧ i ∈ ((cfg1.win 7).blk t).view.set := by
  have hN : cfg1.N = 10 := N_1
  have hi0 : (i 0).val < 50000 := idx2_lt0 i
  have hi1 : (i 1).val < 128 := idx2_lt1 i
  refine ⟨⟨(i 0).val / 5000, by omega⟩, flush1_7 _, ?_⟩
  rw [mem_blk]
  obtain ⟨-, -, -, -, -, -, -, -, -, -, -, -, -, -, e0, e1⟩ := idx_facts ⟨(i 0).val / 5000, by omega⟩
  intro a
  match a with
  | ⟨0, _⟩ => show win1_7.index ⟨(i 0).val / 5000, _⟩ (0 : Fin 2) * 5000 ≤ (i 0).val ∧ (i 0).val < win1_7.index ⟨(i 0).val / 5000, _⟩ (0 : Fin 2) * 5000 + 5000; rw [e0]; show (i 0).val / 5000 * 5000 ≤ (i 0).val ∧ (i 0).val < (i 0).val / 5000 * 5000 + 5000; omega
  | ⟨1, _⟩ => show win1_7.index ⟨(i 0).val / 5000, _⟩ (1 : Fin 2) * 128 ≤ (i 1).val ∧ (i 1).val < win1_7.index ⟨(i 0).val / 5000, _⟩ (1 : Fin 2) * 128 + 128; rw [e1]; omega

/-- So the array after the launch is that function. -/
theorem outp_eq (c : Dev nD) : outp V c = nodeArr V c :=
  (dat1 (F := Ideal) V c).arrAt_eq_of_cover 7 (nodeArr V c) (fun t _ => flushed_eq V c t) cover

/-! ## What the launch leaves -/

/-- Columns 0 … 95 of row n: the new feature row of node n. -/
theorem outp_feature (c : Dev nD) (n : Fin 50000) (j : Fin 96) :
    outp V c (ix2 n ⟨j.val, by omega⟩)
      = newFeature (feats V c) (fun n' k => sums V c (ix2 n' ⟨k.val, by omega⟩)) (wn1 V c) (rowVec (bn1 V c))
          (wn2 V c) (rowVec (bn2 V c)) n j := by
  rw [outp_eq, newFeature_eq_rowFeature]
  show nodeOut V c n ⟨j.val, _⟩ = _
  unfold nodeOut
  rw [dif_pos (show (⟨j.val, by omega⟩ : Fin 128).val < 96 from j.isLt)]

/-- Columns 96 … 98 of row n: the new coordinates of node n. -/
theorem outp_coord (c : Dev nD) (n : Fin 50000) (k : Fin 3) :
    outp V c (ix2 n ⟨96 + k.val, by omega⟩)
      = newCoord (coords V c) (fun n' k' => sums V c (ix2 n' ⟨96 + k'.val, by omega⟩)) n k := by
  rw [outp_eq]
  show nodeOut V c n ⟨96 + k.val, _⟩ = _
  unfold nodeOut newCoord
  rw [dif_neg (show ¬ (⟨96 + k.val, by omega⟩ : Fin 128).val < 96 from by show ¬ 96 + k.val < 96; omega),
    dif_pos (show (⟨96 + k.val, by omega⟩ : Fin 128).val < 99 from by show 96 + k.val < 99; omega)]
  exact congrArg (fun k' : Fin 3 => coords V c (ix2 n k') + sums V c (ix2 n ⟨96 + k.val, by omega⟩)) (Fin.ext (by show 96 + k.val - 96 = k.val; omega))

end Cert.KernelIdeal.Node

end
-- ==== Proof.KernelValue.lean ====
/-
  The kernel program's three results, entry by entry, as the specification's functions of the launch memory.

  The first launch's arrays are the argument arrays (the biases reshaped to one row) and the pair array; the second
  launch's are the argument arrays and the received sums, which are the first launch's 128-column output summed, per
  node, over the edges whose receiver index names the node — column by column, so that columns 0 … 95 of the sums
  are the received messages and columns 96 … 98 the received coordinate shifts. The first two results are columns
  0 … 95 and 96 … 98 of the second launch's output; the third is the first launch's one-column output, which nothing
  after that launch writes. Only the coordinate shifts read the pair array, so only the second result needs the
  index rows to be in range.
-/
import proofs.«430715_j17815524344039_3_alg».proof.Proof.KernelPairs
import proofs.«430715_j17815524344039_3_alg».proof.Proof.Edge
import proofs.«430715_j17815524344039_3_alg».proof.Proof.Node
import proofs.«430715_j17815524344039_3_alg».proof.Proof.LibSegSum

set_option maxRecDepth 16384

noncomputable section

namespace Cert.KernelIdeal.Results

open Idealize.ShloMosaic Idealize.ShloMosaic.TcCoe Idealize.ShloMosaic.ValueIdx Idealize.ShloMosaic.StableHlo
open Cert.KernelIdeal Cert.KernelIdeal.Gen Cert.KernelIdeal.HostSide Cert.Spec

-- the launch memory and the generator registers
variable (m : (ℓ : Loc nD τ sig) → Buf (Elt Ideal) ℓ) (ρ : Dev nD → PrngReg)

/-! ## The argument arrays at their literal extents -/

abbrev A0 (c : Dev nD) : Mat 50000 96 := m ((c : Thread nD τ).loc main_arg0)
abbrev A1 (c : Dev nD) : Mat 50000 3 := m ((c : Thread nD τ).loc main_arg1)
abbrev A2 (c : Dev nD) : Mat 800000 96 := m ((c : Thread nD τ).loc main_arg2)
abbrev A3 (c : Dev nD) : IVec S2x800000 32 := m ((c : Thread nD τ).loc main_arg3)
abbrev A4 (c : Dev nD) : Mat 192 96 := m ((c : Thread nD τ).loc main_arg4)
abbrev A5 (c : Dev nD) : Vc 96 := m ((c : Thread nD τ).loc main_arg5)
abbrev A6 (c : Dev nD) : Mat 96 96 := m ((c : Thread nD τ).loc main_arg6)
abbrev A7 (c : Dev nD) : Vc 96 := m ((c : Thread nD τ).loc main_arg7)
abbrev A8 (c : Dev nD) : Mat 96 96 := m ((c : Thread nD τ).loc main_arg8)
abbrev A9 (c : Dev nD) : Vc 96 := m ((c : Thread nD τ).loc main_arg9)
abbrev A10 (c : Dev nD) : Mat 96 1 := m ((c : Thread nD τ).loc main_arg10)
abbrev A11 (c : Dev nD) : Vc 1 := m ((c : Thread nD τ).loc main_arg11)
abbrev A12 (c : Dev nD) : Mat 96 96 := m ((c : Thread nD τ).loc main_arg12)
abbrev A13 (c : Dev nD) : Vc 96 := m ((c : Thread nD τ).loc main_arg13)
abbrev A14 (c : Dev nD) : Mat 96 1 := m ((c : Thread nD τ).loc main_arg14)
abbrev A15 (c : Dev nD) : Vc 1 := m ((c : Thread nD τ).loc main_arg15)

/-- The receiver index of edge e. -/
def recv (c : Dev nD) (e : Fin 800000) : BitVec 32 := A3 m c (ix2 0 e)

/-! ## What the first launch reads -/

theorem msgs_eq (c : Dev nD) : Edge.msgs (V4 m ρ) c = A2 m c := W4_kept m ρ c main_arg2 (by decide) (by decide) (by decide) (by decide)
theorem wa1_eq (c : Dev nD) : Edge.wa1 (V4 m ρ) c = A8 m c := W4_kept m ρ c main_arg8 (by decide) (by decide) (by decide) (by decide)
theorem wa2_eq (c : Dev nD) : Edge.wa2 (V4 m ρ) c = A10 m c := W4_kept m ρ c main_arg10 (by decide) (by decide) (by decide) (by decide)
theorem wx1_eq (c : Dev nD) : Edge.wx1 (V4 m ρ) c = A12 m c := W4_kept m ρ c main_arg12 (by decide) (by decide) (by decide) (by decide)
theorem wx2_eq (c : Dev nD) : Edge.wx2 (V4 m ρ) c = A14 m c := W4_kept m ρ c main_arg14 (by decide) (by decide) (by decide) (by decide)

theorem ba1_eq (c : Dev nD) : rowVec (Edge.ba1 (V4 m ρ) c) = A9 m c := by
  have h : Edge.ba1 (V4 m ρ) c = shapeCast S1x96 (A9 m c) shapeCasts_S96_S1x96 :=
    (stretch3_ba1 (W3 m ρ c)).trans (by rw [W3_kept m ρ c main_arg9 (by decide) (by decide) (by decide)])
  rw [h]
  exact rowVec_shapeCast _ _
theorem ba2_eq (c : Dev nD) : rowVec (Edge.ba2 (V4 m ρ) c) = A11 m c := by
  have h : Edge.ba2 (V4 m ρ) c = shapeCast S1x1 (A11 m c) shapeCasts_S1_S1x1 :=
    (stretch3_ba2 (W3 m ρ c)).trans (by rw [W3_kept m ρ c main_arg11 (by decide) (by decide) (by decide)])
  rw [h]
  exact rowVec_shapeCast _ _
theorem bx1_eq (c : Dev nD) : rowVec (Edge.bx1 (V4 m ρ) c) = A13 m c := by
  have h : Edge.bx1 (V4 m ρ) c = shapeCast S1x96 (A13 m c) shapeCasts_S96_S1x96 :=
    (stretch3_bx1 (W3 m ρ c)).trans (by rw [W3_kept m ρ c main_arg13 (by decide) (by decide) (by decide)])
  rw [h]
  exact rowVec_shapeCast _ _
theorem bx2_eq (c : Dev nD) : rowVec (Edge.bx2 (V4 m ρ) c) = A15 m c := by
  have h : Edge.bx2 (V4 m ρ) c = shapeCast S1x1 (A15 m c) shapeCasts_S1_S1x1 :=
    (stretch3_bx2 (W3 m ρ c)).trans (by rw [W3_kept m ρ c main_arg15 (by decide) (by decide) (by decide)])
  rw [h]
  exact rowVec_shapeCast _ _

/-! ## What the first launch leaves, over the argument arrays -/

/-- Columns 0 … 95 of row e of the wide output: edge e's weighted message. -/
theorem packed_msg (c : Dev nD) (e : Fin 800000) (j : Fin 96) :
    Edge.packed (V4 m ρ) c (ix2 e ⟨j.val, by omega⟩) = message (A2 m c) (A8 m c) (A9 m c) (A10 m c) (A11 m c) e j := by
  rw [Edge.packed_message, msgs_eq, wa1_eq, ba1_eq, wa2_eq, ba2_eq]

/-- Columns 96 … 98 of row e, where both index rows are in range: edge e's coordinate shift. -/
theorem packed_shf (c : Dev nD) (hs : RowOk (sendRow m c)) (hr : RowOk (recvRow m c)) (e : Fin 800000) (k : Fin 3) :
    Edge.packed (V4 m ρ) c (ix2 e ⟨96 + k.val, by omega⟩)
      = shift (picked (A1 m c) (sendRow m c)) (picked (A1 m c) (recvRow m c))
          (head (A2 m c) (A12 m c) (A13 m c) (A14 m c) (A15 m c)) e k := by
  rw [Edge.packed_shift]
  have hp : Edge.pairs (V4 m ρ) c = W4 m ρ c (Proc.devRef .tc main_v6) := rfl
  rw [hp, pairs_senders m ρ c hs hr, pairs_receivers m ρ c hs hr, msgs_eq, wx1_eq, bx1_eq, wx2_eq, bx2_eq]

/-- The one-column output at row e: edge e's attention. -/
theorem attn_att (c : Dev nD) (e : Fin 800000) :
    Edge.attn (V4 m ρ) c (ix2 e 0) = attention (A2 m c) (A8 m c) (A9 m c) (A10 m c) (A11 m c) e := by
  rw [Edge.attn_attention, msgs_eq, wa1_eq, ba1_eq, wa2_eq, ba2_eq]

/-! ## The received sums -/

/-- The accumulating scatter of a 128-column array by rows, read at an entry. -/
theorem scatter128_apply (x : FVec Ideal S50000x128 .f32) (idx : IVec S800000x1 32) (upd : FVec Ideal S800000x128 .f32)
    (n : Fin 50000) (col : Fin 128) :
    Host.scatterAdd (F := Ideal) scatter_S50000x128_S800000x1_S800000x128_1_0_0_1 x idx upd (ix2 n col)
      = x (ix2 n col) + ∑ e ∈ Finset.univ.filter (fun e : Fin 800000 => (idx (ix2 e 0)).toInt = (n.val : Int)), upd (ix2 e col) :=
  Cert.LibSegSum.hostScatterAdd_rows_apply Gen.scatter_S50000x128_S800000x1_S800000x128_1_0_0_1_wf x idx upd n col

theorem W5_recv (c : Dev nD) : W5 m ρ c (Proc.devRef .tc main_v1) = recvRow m c :=
  (W5_of_ne m ρ c main_v1 (by decide)).trans
    ((StableHlo.after_of_writes_sub hostOps0_3 (W3 m ρ c) writes3_sub (by decide)).trans
      ((StableHlo.after_of_writes_sub hostOps0_2 (W2 m ρ c) writes2_sub (by decide)).trans (W2_recv m ρ c)))

/-- The received sums as the scatter of the first launch's wide output by receiver into zeros. -/
theorem sums_eq (c : Dev nD) :
    Node.sums (V6 m ρ) c
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 (recvRow m c)) (Edge.packed (V4 m ρ) c) := by
  have h10 : W5 m ρ c (Proc.devRef .tc main_v11_0) = Edge.packed (V4 m ρ) c := W5_arr m ρ c 10
  refine (stretch4_sums (W5 m ρ c)).trans ?_
  rw [W5_recv, h10]

/-- Entry (n, col) of the received sums: the sum of column col of the wide output over the edges received by n. -/
theorem sums_apply (c : Dev nD) (n : Fin 50000) (col : Fin 128) :
    Node.sums (V6 m ρ) c (ix2 n col) = received (recv m c) (fun e => Edge.packed (V4 m ρ) c (ix2 e col)) n := by
  have hz : broadcastInDim S50000x128 ![] bcast_S_S50000x128 (constant (F := Ideal) S_ .f32 0x00000000#32) (ix2 n col) = 0 :=
    (broadcastInDim_apply _ _ _ _ ix0 (fun a => a.elim0)).trans Ideal.ofBits_zero_f32
  have hb : ∀ e : Fin 800000,
      broadcastInDim S800000x1 ![0] bcast_S800000_S800000x1_0 (recvRow m c) (ix2 e 0) = A3 m c (ix2 0 e) := fun e =>
    (broadcastInDim_apply _ _ _ _ (ix1 e) (fun a => by
      obtain rfl : a = 0 := Subsingleton.elim _ _
      rfl)).trans (rowOf0_apply _ e)
  rw [sums_eq, scatter128_apply, hz, zero_add]
  unfold received recv
  simp only [hb]

/-! ## What the second launch reads -/

theorem feats_eq (c : Dev nD) : Node.feats (V6 m ρ) c = A0 m c := W6_kept m ρ c main_arg0 (by decide) (by decide) (by decide) (by decide) (by decide) (by decide)
theorem coords_eq (c : Dev nD) : Node.coords (V6 m ρ) c = A1 m c := W6_kept m ρ c main_arg1 (by decide) (by decide) (by decide) (by decide) (by decide) (by decide)
theorem wn1_eq (c : Dev nD) : Node.wn1 (V6 m ρ) c = A4 m c := W6_kept m ρ c main_arg4 (by decide) (by decide) (by decide) (by decide) (by decide) (by decide)
theorem wn2_eq (c : Dev nD) : Node.wn2 (V6 m ρ) c = A6 m c := W6_kept m ρ c main_arg6 (by decide) (by decide) (by decide) (by decide) (by decide) (by decide)

theorem bn1_eq (c : Dev nD) : rowVec (Node.bn1 (V6 m ρ) c) = A5 m c := by
  have h : Node.bn1 (V6 m ρ) c = shapeCast S1x96 (A5 m c) shapeCasts_S96_S1x96 :=
    (stretch4_bn1 (W5 m ρ c)).trans (by rw [W5_kept m ρ c main_arg5 (by decide) (by decide) (by decide) (by decide) (by decide)])
  rw [h]
  exact rowVec_shapeCast _ _
theorem bn2_eq (c : Dev nD) : rowVec (Node.bn2 (V6 m ρ) c) = A7 m c := by
  have h : Node.bn2 (V6 m ρ) c = shapeCast S1x96 (A7 m c) shapeCasts_S96_S1x96 :=
    (stretch4_bn2 (W5 m ρ c)).trans (by rw [W5_kept m ρ c main_arg7 (by decide) (by decide) (by decide) (by decide) (by decide)])
  rw [h]
  exact rowVec_shapeCast _ _

/-! ## The three results -/

theorem out_eq (c : Dev nD) : W7 m ρ c (Proc.devRef .tc main_v17) = Node.outp (V6 m ρ) c := W7_arr m ρ c 7

/-- The message node n receives, column k. -/
def msgIn (c : Dev nD) (n : Fin 50000) (k : Fin 96) : EReal :=
  received (recv m c) (fun e => message (A2 m c) (A8 m c) (A9 m c) (A10 m c) (A11 m c) e k) n

/-- The coordinate shift node n receives, component k, given the sender's and the receiver's coordinate rows per edge. -/
def shiftIn (cs cr : Mat 800000 3) (c : Dev nD) (n : Fin 50000) (k : Fin 3) : EReal :=
  received (recv m c) (fun e => shift cs cr (head (A2 m c) (A12 m c) (A13 m c) (A14 m c) (A15 m c)) e k) n

/-- The first result at (n, j): column j of node n's new feature row. -/
theorem result_feats (c : Dev nD) (n : Fin 50000) (j : Fin 96) :
    (W8 m ρ c (Proc.devRef .tc main_v18) : Mat 50000 96) (ix2 n j)
      = newFeature (A0 m c) (msgIn m c) (A4 m c) (A5 m c) (A6 m c) (A7 m c) n j := by
  have h : W8 m ρ c (Proc.devRef .tc main_v18)
      = extractStridedSlice S50000x96 ![0, 0] (Node.outp (V6 m ρ) c) slices_S50000x128_S50000x96_0_0 :=
    (stretch5_feats (W7 m ρ c)).trans (by rw [out_eq])
  have hmi : (fun (n' : Fin 50000) (k : Fin 96) => Node.sums (V6 m ρ) c (ix2 n' ⟨k.val, by omega⟩)) = msgIn m c := by
    funext n' k
    rw [sums_apply]
    unfold msgIn
    congr 1
    funext e
    exact packed_msg m ρ c e k
  rw [h, extractStridedSlice_apply _ _ _ _ (ix2 n ⟨j.val, by omega⟩) (fun a => by
    match a with
    | ⟨0, _⟩ => exact (Nat.zero_add _).symm
    | ⟨1, _⟩ => exact (Nat.zero_add _).symm)]
  rw [Node.outp_feature, feats_eq, wn1_eq, bn1_eq, wn2_eq, bn2_eq, hmi]

/-- The second result at (n, k), where both index rows are in range: component k of node n's new coordinates. -/
theorem result_coords (c : Dev nD) (hs : RowOk (sendRow m c)) (hr : RowOk (recvRow m c)) (n : Fin 50000) (k : Fin 3) :
    (W8 m ρ c (Proc.devRef .tc main_v19) : Mat 50000 3) (ix2 n k)
      = newCoord (A1 m c) (shiftIn m (picked (A1 m c) (sendRow m c)) (picked (A1 m c) (recvRow m c)) c) n k := by
  have h : W8 m ρ c (Proc.devRef .tc main_v19)
      = extractStridedSlice S50000x3 ![0, 96] (Node.outp (V6 m ρ) c) slices_S50000x128_S50000x3_0_96 :=
    (stretch5_coords (W7 m ρ c)).trans (by rw [out_eq])
  have hdc : (fun (n' : Fin 50000) (k' : Fin 3) => Node.sums (V6 m ρ) c (ix2 n' ⟨96 + k'.val, by omega⟩))
      = shiftIn m (picked (A1 m c) (sendRow m c)) (picked (A1 m c) (recvRow m c)) c := by
    funext n' k'
    rw [sums_apply]
    unfold shiftIn
    congr 1
    funext e
    exact packed_shf m ρ c hs hr e k'
  rw [h, extractStridedSlice_apply _ _ _ _ (ix2 n ⟨96 + k.val, by omega⟩) (fun a => by
    match a with
    | ⟨0, _⟩ => exact (Nat.zero_add _).symm
    | ⟨1, _⟩ => rfl)]
  rw [Node.outp_coord, coords_eq, hdc]

/-- The third result at row e: edge e's attention. -/
theorem result_attn (c : Dev nD) (e : Fin 800000) :
    (W8 m ρ c (Proc.devRef .tc main_v11_1) : Mat 800000 1) (ix2 e 0)
      = attention (A2 m c) (A8 m c) (A9 m c) (A10 m c) (A11 m c) e := by
  have h : W8 m ρ c (Proc.devRef .tc main_v11_1) = Edge.attn (V4 m ρ) c :=
    (StableHlo.after_of_writes_sub hostOps2 (W7 m ρ c) writes5_sub (by decide)).trans
      ((W7_of_ne m ρ c main_v11_1 (by decide)).trans
        ((StableHlo.after_of_writes_sub hostOps1 (W5 m ρ c) writes4_sub (by decide)).trans (W5_arr m ρ c 11)))
  rw [h]
  exact attn_att m ρ c e

end Cert.KernelIdeal.Results

end
-- ==== Proof.RefValue.lean ====
/-
  The reference program's three results, entry by entry, are the specification's functions of its sixteen arguments:
  the attention of edge e; the new feature row of node n, where the message node n receives is the sum over the
  edges whose receiver index is n of the weighted messages; and the new coordinates of node n, the old ones plus
  the received sum of the coordinate shifts. The reference multiplies the 192-column row "old features followed by
  received message" with the whole first-layer matrix; the sum over 192 columns splits into the sum over the first
  96 (the old features against the upper half of the matrix) and the sum over the last 96 (the received message
  against the lower half), which needs only that addition of extended reals is commutative and associative. The
  sender's and the receiver's coordinate rows stay the two row selections the program computes them by.
-/
import proofs.«430715_j17815524344039_3_alg».proof.Proof.Gen.ReferenceIdeal.Read
import proofs.«430715_j17815524344039_3_alg».proof.Proof.Spec
import proofs.«430715_j17815524344039_3_alg».proof.Proof.LibSegSum
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.Spec

-- the sixteen arguments, in the program's order: node features, coordinates, edge messages, the two index rows
-- (receivers first), then the node, attention and coordinate perceptrons' weights and biases
variable (x0 : (⟨S50000x96, .f32⟩ : BufTy).Contents (Elt Ideal)) (x1 : (⟨S50000x3, .f32⟩ : BufTy).Contents (Elt Ideal))
  (x2 : (⟨S800000x96, .f32⟩ : BufTy).Contents (Elt Ideal)) (x3 : (⟨S2x800000, .i32⟩ : BufTy).Contents (Elt Ideal))
  (x4 : (⟨S192x96, .f32⟩ : BufTy).Contents (Elt Ideal)) (x5 : (⟨S96, .f32⟩ : BufTy).Contents (Elt Ideal))
  (x6 : (⟨S96x96, .f32⟩ : BufTy).Contents (Elt Ideal)) (x7 : (⟨S96, .f32⟩ : BufTy).Contents (Elt Ideal))
  (x8 : (⟨S96x96, .f32⟩ : BufTy).Contents (Elt Ideal)) (x9 : (⟨S96, .f32⟩ : BufTy).Contents (Elt Ideal))
  (x10 : (⟨S96x1, .f32⟩ : BufTy).Contents (Elt Ideal)) (x11 : (⟨S1, .f32⟩ : BufTy).Contents (Elt Ideal))
  (x12 : (⟨S96x96, .f32⟩ : BufTy).Contents (Elt Ideal)) (x13 : (⟨S96, .f32⟩ : BufTy).Contents (Elt Ideal))
  (x14 : (⟨S96x1, .f32⟩ : BufTy).Contents (Elt Ideal)) (x15 : (⟨S1, .f32⟩ : BufTy).Contents (Elt Ideal))

/-- The receiver index of edge e: row 0 of the index array. -/
def recv (e : Fin 800000) : BitVec 32 := x3 (ix2 0 e)

/-- The word 0x3F800000 is the number one. -/
theorem one_word : Ideal.ofBits .f32 0x3F800000#32 = 1 := by
  simp [Ideal.ofBits, Ideal.ieee, -EReal.coe_mul]; norm_num

/-- The first perceptron's hidden layer at (e, j). -/
theorem hidden_a_apply (e : Fin 800000) (j : Fin 96) :
    val_main_v8 (F := Ideal) x2 x8 x9 (ix2 e j) = hidden x2 x8 x9 e j := by
  have l4 : ∀ k : Fin 96, lidx_main_v4 (ix2 e j) k = ix2 e k := fun k =>
    funext fun a => Fin.ext (by match a with | ⟨0, _⟩ => rfl | ⟨1, _⟩ => rfl)
  have r4 : ∀ k : Fin 96, ridx_main_v4 (ix2 e j) k = ix2 k j := fun k =>
    funext fun a => Fin.ext (by match a with | ⟨0, _⟩ => rfl | ⟨1, _⟩ => rfl)
  have b6 : idx_main_v5 (idx_main_v6 (ix2 e j)) = ix1 j :=
    funext fun a => Fin.ext (by match a with | ⟨0, _⟩ => rfl)
  rw [val_main_v8_apply, val_main_call0_v5_apply, val_main_call0_v4_apply, val_main_call0_cst_0_apply,
    val_main_call0_v3_apply, val_main_call0_v2_apply, val_main_call0_cst_apply, val_main_call0_v1_apply,
    val_main_call0_v0_apply, val_main_v7_apply, val_main_v4_apply, val_main_v6_apply, val_main_v5_apply]
  simp only [l4, r4, b6, Ideal.ofBits_def, Ideal.addf_def, Ideal.mulf_def, Ideal.hostDivf_def, Ideal.hostUnary_exp_def,
    Ideal.hostNegf_def, Ideal.negf_def, one_word]
  rfl

/-- The first perceptron's output on edge e. -/
theorem head_a_apply (e : Fin 800000) :
    val_main_v12 (F := Ideal) x2 x8 x9 x10 x11 (ix2 e 0) = head x2 x8 x9 x10 x11 e := by
  have l9 : ∀ k : Fin 96, lidx_main_v9 (ix2 e 0) k = ix2 e k := fun k =>
    funext fun a => Fin.ext (by match a with | ⟨0, _⟩ => rfl | ⟨1, _⟩ => rfl)
  have r9 : ∀ k : Fin 96, ridx_main_v9 (ix2 e 0) k = ix2 k 0 := fun k =>
    funext fun a => Fin.ext (by match a with | ⟨0, _⟩ => rfl | ⟨1, _⟩ => rfl)
  have b11 : idx_main_v10 (idx_main_v11 (ix2 e 0)) = ix1 0 :=
    funext fun a => Fin.ext (by match a with | ⟨0, _⟩ => rfl)
  rw [val_main_v12_apply, val_main_v9_apply, val_main_v11_apply, val_main_v10_apply]
  simp only [l9, r9, b11, hidden_a_apply, Ideal.addf_def]
  rfl

/-- The third result at row e: the attention of edge e. -/
theorem attention_apply (e : Fin 800000) :
    val_main_v18 (F := Ideal) x2 x8 x9 x10 x11 (ix2 e 0) = attention x2 x8 x9 x10 x11 e := by
  rw [val_main_v18_apply, val_main_v17_apply, val_main_cst_0_apply, val_main_v16_apply, val_main_v15_apply,
    val_main_cst_apply, val_main_v14_apply, val_main_v13_apply, head_a_apply]
  simp only [Ideal.ofBits_def, Ideal.addf_def, Ideal.hostDivf_def, Ideal.hostUnary_exp_def,
    Ideal.hostNegf_def, Ideal.negf_def, one_word]
  rfl

/-- Column c of edge e's weighted message, as the program computes it. -/
theorem message_apply (e : Fin 800000) (c : Fin 96) :
    val_main_v20 (F := Ideal) x2 x8 x9 x10 x11 (ix2 e c) = message x2 x8 x9 x10 x11 e c := by
  have i19 : idx_main_v19 (ix2 e c) = ix2 e 0 :=
    funext fun a => Fin.ext (by match a with | ⟨0, _⟩ => rfl | ⟨1, _⟩ => rfl)
  rw [val_main_v20_apply, val_main_v19_apply, i19, attention_apply]
  rfl

/-- The index row the first scatter reads, at update row e: the receiver index of edge e. -/
theorem recv22 (e : Fin 800000) : val_main_v22 (F := Ideal) x3 (ix2 e 0) = recv x3 e := by
  have i : idx_main_v0 (idx_main_v1 (idx_main_v22 (ix2 e 0))) = ix2 0 e :=
    funext fun a => Fin.ext (by
      match a with
      | ⟨0, _⟩ => rfl
      | ⟨1, _⟩ => exact Nat.mod_eq_of_lt e.isLt)
  rw [val_main_v22_apply, val_main_v1_apply, val_main_v0_apply, i]
  rfl

/-- The 96-column accumulating scatter into rows, read at (n, c). -/
theorem scatterAdd96_apply (x : FVec Ideal S50000x96 .f32) (idx : IVec S800000x1 32) (upd : FVec Ideal S800000x96 .f32)
    (n : Fin 50000) (c : Fin 96) :
    Host.scatterAdd (F := Ideal) scatter_S50000x96_S800000x1_S800000x96_1_0_0_1 x idx upd (ix2 n c)
      = x (ix2 n c) + ∑ e ∈ Finset.univ.filter (fun e : Fin 800000 => (idx (ix2 e 0)).toInt = (n.val : Int)), upd (ix2 e c) :=
  Cert.LibSegSum.hostScatterAdd_rows_apply Gen.scatter_S50000x96_S800000x1_S800000x96_1_0_0_1_wf x idx upd n c

/-- The scattered messages at (n, c): the sum of column c of the weighted messages of the edges whose receiver is n. -/
theorem messageSum_apply (n : Fin 50000) (c : Fin 96) :
    val_main_v23 (F := Ideal) x2 x3 x8 x9 x10 x11 (ix2 n c)
      = received (recv x3) (fun e => message x2 x8 x9 x10 x11 e c) n := by
  unfold val_main_v23
  rw [scatterAdd96_apply, val_main_v21_apply, val_main_cst_1_apply]
  simp only [Ideal.ofBits_def, Ideal.ofBits_zero_f32, zero_add, recv22, message_apply]
  rfl

/-- The joined row "old features, then received message" at a column k of its first half: the old feature. -/
theorem joined_left (n : Fin 50000) (j k : Fin 96) :
    val_main_v24 (F := Ideal) x0 x2 x3 x8 x9 x10 x11 (lidx_main_v25 (ix2 n j) ⟨k.val, by omega⟩) = x0 (ix2 n k) := by
  unfold val_main_v24
  generalize val_main_v23 (F := Ideal) x2 x3 x8 x9 x10 x11 = y
  exact concatenate_pair_apply_left 1 x0 y Gen.concatenates_S50000x96_S50000x96_S50000x192_d1 _ rfl (ix2 n k)
    (fun b => match b with | ⟨0, _⟩ => rfl | ⟨1, _⟩ => rfl)

/-- The joined row at column 96 + k: column k of the received message. -/
theorem joined_right (n : Fin 50000) (j k : Fin 96) :
    val_main_v24 (F := Ideal) x0 x2 x3 x8 x9 x10 x11 (lidx_main_v25 (ix2 n j) ⟨96 + k.val, by omega⟩)
      = val_main_v23 (F := Ideal) x2 x3 x8 x9 x10 x11 (ix2 n k) := by
  unfold val_main_v24
  generalize val_main_v23 (F := Ideal) x2 x3 x8 x9 x10 x11 = y
  exact concatenate_pair_apply_right 1 x0 y Gen.concatenates_S50000x96_S50000x96_S50000x192_d1 _ rfl rfl (ix2 n k)
    (fun b hb => match b, hb with
      | ⟨0, _⟩, _ => rfl
      | ⟨1, _⟩, hb => absurd rfl hb)
    (by show k.val + 96 = 96 + k.val; omega)

/-- A sum over 192 terms is the sum of its first 96 and of its last 96 terms. -/
theorem sum_halves (f : Fin 192 → EReal) :
    ∑ k : Fin 192, f k = (∑ k : Fin 96, f ⟨k.val, by omega⟩) + ∑ k : Fin 96, f ⟨96 + k.val, by omega⟩ :=
  Fin.sum_univ_add (M := EReal) (a := 96) (b := 96) f

/-- The node perceptron's hidden layer at (n, j). -/
theorem nodeHidden_apply (n : Fin 50000) (j : Fin 96) :
    val_main_v29 (F := Ideal) x0 x2 x3 x4 x5 x8 x9 x10 x11 (ix2 n j)
      = nodeHidden x0 (fun n' c => received (recv x3) (fun e => message x2 x8 x9 x10 x11 e c) n') x4 x5 n j := by
  have rL : ∀ k : Fin 96, ridx_main_v25 (ix2 n j) ⟨k.val, by omega⟩ = ix2 (⟨k.val, by omega⟩ : Fin 192) j := fun k =>
    funext fun a => Fin.ext (by match a with | ⟨0, _⟩ => rfl | ⟨1, _⟩ => rfl)
  have rR : ∀ k : Fin 96, ridx_main_v25 (ix2 n j) ⟨96 + k.val, by omega⟩ = ix2 (⟨96 + k.val, by omega⟩ : Fin 192) j := fun k =>
    funext fun a => Fin.ext (by match a with | ⟨0, _⟩ => rfl | ⟨1, _⟩ => rfl)
  have b27 : idx_main_v26 (idx_main_v27 (ix2 n j)) = ix1 j :=
    funext fun a => Fin.ext (by match a with | ⟨0, _⟩ => rfl)
  rw [val_main_v29_apply, val_main_call1_v5_apply, val_main_call1_v4_apply, val_main_call1_cst_0_apply,
    val_main_call1_v3_apply, val_main_call1_v2_apply, val_main_call1_cst_apply, val_main_call1_v1_apply,
    val_main_call1_v0_apply, val_main_v28_apply, val_main_v25_apply, val_main_v27_apply, val_main_v26_apply,
    sum_halves]
  simp only [joined_left, joined_right, messageSum_apply, rL, rR, b27, Ideal.ofBits_def, Ideal.addf_def, Ideal.mulf_def,
    Ideal.hostDivf_def, Ideal.hostUnary_exp_def, Ideal.hostNegf_def, Ideal.negf_def, one_word]
  rfl

/-- The first result at (n, j): column j of node n's new feature row. -/
theorem feature_apply (n : Fin 50000) (j : Fin 96) :
    val_main_v34 (F := Ideal) x0 x2 x3 x4 x5 x6 x7 x8 x9 x10 x11 (ix2 n j)
      = newFeature x0 (fun n' c => received (recv x3) (fun e => message x2 x8 x9 x10 x11 e c) n') x4 x5 x6 x7 n j := by
  have l30 : ∀ k : Fin 96, lidx_main_v30 (ix2 n j) k = ix2 n k := fun k =>
    funext fun a => Fin.ext (by match a with | ⟨0, _⟩ => rfl | ⟨1, _⟩ => rfl)
  have r30 : ∀ k : Fin 96, ridx_main_v30 (ix2 n j) k = ix2 k j := fun k =>
    funext fun a => Fin.ext (by match a with | ⟨0, _⟩ => rfl | ⟨1, _⟩ => rfl)
  have b32 : idx_main_v31 (idx_main_v32 (ix2 n j)) = ix1 j :=
    funext fun a => Fin.ext (by match a with | ⟨0, _⟩ => rfl)
  rw [val_main_v34_apply, val_main_v33_apply, val_main_v30_apply, val_main_v32_apply, val_main_v31_apply]
  simp only [l30, r30, b32, nodeHidden_apply, Ideal.addf_def]
  rfl

/-- The second perceptron's hidden layer at (e, j). -/
theorem hidden_c_apply (e : Fin 800000) (j : Fin 96) :
    val_main_v59 (F := Ideal) x2 x12 x13 (ix2 e j) = hidden x2 x12 x13 e j := by
  have l55 : ∀ k : Fin 96, lidx_main_v55 (ix2 e j) k = ix2 e k := fun k =>
    funext fun a => Fin.ext (by match a with | ⟨0, _⟩ => rfl | ⟨1, _⟩ => rfl)
  have r55 : ∀ k : Fin 96, ridx_main_v55 (ix2 e j) k = ix2 k j := fun k =>
    funext fun a => Fin.ext (by match a with | ⟨0, _⟩ => rfl | ⟨1, _⟩ => rfl)
  have b57 : idx_main_v56 (idx_main_v57 (ix2 e j)) = ix1 j :=
    funext fun a => Fin.ext (by match a with | ⟨0, _⟩ => rfl)
  rw [val_main_v59_apply, val_main_call3_v5_apply, val_main_call3_v4_apply, val_main_call3_cst_0_apply,
    val_main_call3_v3_apply, val_main_call3_v2_apply, val_main_call3_cst_apply, val_main_call3_v1_apply,
    val_main_call3_v0_apply, val_main_v58_apply, val_main_v55_apply, val_main_v57_apply, val_main_v56_apply]
  simp only [l55, r55, b57, Ideal.ofBits_def, Ideal.addf_def, Ideal.mulf_def, Ideal.hostDivf_def, Ideal.hostUnary_exp_def,
    Ideal.hostNegf_def, Ideal.negf_def, one_word]
  rfl

/-- The second perceptron's output on edge e. -/
theorem head_c_apply (e : Fin 800000) :
    val_main_v63 (F := Ideal) x2 x12 x13 x14 x15 (ix2 e 0) = head x2 x12 x13 x14 x15 e := by
  have l60 : ∀ k : Fin 96, lidx_main_v60 (ix2 e 0) k = ix2 e k := fun k =>
    funext fun a => Fin.ext (by match a with | ⟨0, _⟩ => rfl | ⟨1, _⟩ => rfl)
  have r60 : ∀ k : Fin 96, ridx_main_v60 (ix2 e 0) k = ix2 k 0 := fun k =>
    funext fun a => Fin.ext (by match a with | ⟨0, _⟩ => rfl | ⟨1, _⟩ => rfl)
  have b62 : idx_main_v61 (idx_main_v62 (ix2 e 0)) = ix1 0 :=
    funext fun a => Fin.ext (by match a with | ⟨0, _⟩ => rfl)
  rw [val_main_v63_apply, val_main_v60_apply, val_main_v62_apply, val_main_v61_apply]
  simp only [l60, r60, b62, hidden_c_apply, Ideal.addf_def]
  rfl

/-- The coordinate shift of edge e at component k, as the program computes it from the two row selections. -/
theorem shift_apply (e : Fin 800000) (k : Fin 3) :
    val_main_v65 (F := Ideal) x1 x2 x3 x12 x13 x14 x15 (ix2 e k)
      = shift (val_main_v41 (F := Ideal) x1 x3) (val_main_v48 (F := Ideal) x1 x3) (head x2 x12 x13 x14 x15) e k := by
  have i64 : idx_main_v64 (ix2 e k) = ix2 e 0 :=
    funext fun a => Fin.ext (by match a with | ⟨0, _⟩ => rfl | ⟨1, _⟩ => rfl)
  have i53 : idx_main_call2_v2 (idx_main_v53 (ix2 e k)) = ix1 e :=
    funext fun a => Fin.ext (by match a with | ⟨0, _⟩ => rfl)
  have i1 : ∀ q : Fin 3, idx_main_call2_v1 (ix1 e) q = ix2 e q := fun q =>
    funext fun a => Fin.ext (by match a with | ⟨0, _⟩ => rfl | ⟨1, _⟩ => rfl)
  rw [val_main_v65_apply, val_main_v64_apply, i64, head_c_apply, val_main_v54_apply, val_main_v53_apply,
    val_main_v52_apply, val_main_v51_apply, val_main_cst_5_apply, val_main_v50_apply, val_main_call2_v2_apply, i53,
    val_main_call2_v1_apply, val_main_call2_cst_apply]
  simp only [i1, val_main_call2_v0_apply, val_main_v49_apply, Ideal.ofBits_def, Ideal.addf_def, Ideal.subf_def,
    Ideal.mulf_def, Ideal.hostDivf_def, Ideal.hostUnary_sqrt_def, Ideal.ofBits_zero_f32, zero_add]
  rfl

/-- The index row the second scatter reads, at update row e: the receiver index of edge e. -/
theorem recv67 (e : Fin 800000) : val_main_v67 (F := Ideal) x3 (ix2 e 0) = recv x3 e := by
  have i : idx_main_v0 (idx_main_v1 (idx_main_v67 (ix2 e 0))) = ix2 0 e :=
    funext fun a => Fin.ext (by
      match a with
      | ⟨0, _⟩ => rfl
      | ⟨1, _⟩ => exact Nat.mod_eq_of_lt e.isLt)
  rw [val_main_v67_apply, val_main_v1_apply, val_main_v0_apply, i]
  rfl

/-- The three-column accumulating scatter into rows, read at (n, k). -/
theorem scatterAdd3_apply (x : FVec Ideal S50000x3 .f32) (idx : IVec S800000x1 32) (upd : FVec Ideal S800000x3 .f32)
    (n : Fin 50000) (k : Fin 3) :
    Host.scatterAdd (F := Ideal) scatter_S50000x3_S800000x1_S800000x3_1_0_0_1 x idx upd (ix2 n k)
      = x (ix2 n k) + ∑ e ∈ Finset.univ.filter (fun e : Fin 800000 => (idx (ix2 e 0)).toInt = (n.val : Int)), upd (ix2 e k) :=
  Cert.LibSegSum.hostScatterAdd_rows_apply Gen.scatter_S50000x3_S800000x1_S800000x3_1_0_0_1_wf x idx upd n k

/-- The scattered coordinate shifts at (n, k): the sum of the shifts of the edges whose receiver is n. -/
theorem shiftSum_apply (n : Fin 50000) (k : Fin 3) :
    val_main_v68 (F := Ideal) x1 x2 x3 x12 x13 x14 x15 (ix2 n k)
      = received (recv x3)
          (fun e => shift (val_main_v41 (F := Ideal) x1 x3) (val_main_v48 (F := Ideal) x1 x3) (head x2 x12 x13 x14 x15) e k) n := by
  unfold val_main_v68
  rw [scatterAdd3_apply, val_main_v66_apply, val_main_cst_6_apply]
  simp only [Ideal.ofBits_def, Ideal.ofBits_zero_f32, zero_add, recv67, shift_apply]
  rfl

/-- The second result at (n, k): component k of node n's new coordinates. -/
theorem coord_apply (n : Fin 50000) (k : Fin 3) :
    val_main_v69 (F := Ideal) x1 x2 x3 x12 x13 x14 x15 (ix2 n k)
      = newCoord x1 (fun n' k' => received (recv x3)
          (fun e => shift (val_main_v41 (F := Ideal) x1 x3) (val_main_v48 (F := Ideal) x1 x3) (head x2 x12 x13 x14 x15) e k') n') n k := by
  rw [val_main_v69_apply, shiftSum_apply]
  rfl

end Cert.ReferenceIdeal.RefValue

end
-- ==== Proof.PreDecode.lean ====
/-
  What the precondition says of the index array: every entry of both of its rows, read as a signed integer, is a
  node number, at least 0 and below 50000. The precondition is a conjunction; its last conjunct says that the
  entrywise "0 ≤ index and index < 50000" holds at every entry, and a conjunction of bits that is one has every
  conjunct one.
-/
import proofs.«430715_j17815524344039_3_alg».proof.Pre_finite_inputs
import proofs.«430715_j17815524344039_3_alg».proof.Proof.Gen.Pre_finite_inputs
import Idealize.ShloMosaic.Lib.ReduceAll
import Idealize.ShloMosaic.Lib.Affine
import Idealize.ShloMosaic.Lib.ValueIdx

noncomputable section

namespace Cert.PreDecode

open Idealize.ShloMosaic Cert.Pre_finite_inputs Cert.Pre_finite_inputs.Gen

/-- An array without axes has one index. -/
instance : Subsingleton S_.Idx := ⟨fun a b => funext fun d => d.elim0⟩

/-- Where the precondition holds every entry of the index array is a node number. -/
theorem index_range (a0 : FVec Ideal S50000x96 .f32) (a1 : FVec Ideal S50000x3 .f32) (a2 : FVec Ideal S800000x96 .f32)
    (a3 : IVec S2x800000 32) (a4 : FVec Ideal S192x96 .f32) (a5 : FVec Ideal S96 .f32) (a6 : FVec Ideal S96x96 .f32)
    (a7 : FVec Ideal S96 .f32) (a8 : FVec Ideal S96x96 .f32) (a9 : FVec Ideal S96 .f32) (a10 : FVec Ideal S96x1 .f32)
    (a11 : FVec Ideal S1 .f32) (a12 : FVec Ideal S96x96 .f32) (a13 : FVec Ideal S96 .f32) (a14 : FVec Ideal S96x1 .f32)
    (a15 : FVec Ideal S1 .f32)
    (h : fn (F := Ideal) a0 a1 a2 a3 a4 a5 a6 a7 a8 a9 a10 a11 a12 a13 a14 a15 = fun _ => 1#1) (i : S2x800000.Idx) :
    0 ≤ (a3 i).toInt ∧ (a3 i).toInt < 50000 := by
  have h0 := congrFun h ValueIdx.ix0
  dsimp only [fn, fn_part1, fn_part2, fn_part3, fn_part4] at h0
  have h1 := (IntOp.andi_eq_one.mp h0).2
  have h2 := Host.reduce_andi_all _ _ _ _ _ h1 i
  have h3 : IntOp.andi (IntOp.cmpi .sge (a3 i) (0#32)) (IntOp.cmpi .slt (a3 i) (50000#32)) = 1#1 := h2
  obtain ⟨hge, hlt⟩ := IntOp.andi_eq_one.mp h3
  have hge' := IntOp.cmpi_sge.mp hge
  have hlt' := IntOp.cmpi_slt.mp hlt
  simp only [show (0#32 : BitVec 32).toInt = 0 from by decide, show (50000#32 : BitVec 32).toInt = 50000 from by decide]
    at hge' hlt'
  exact ⟨hge', hlt'⟩

end Cert.PreDecode

end
-- ==== Proof.lean ====
/-
  One message-passing layer on a graph, computed two ways, gives the same three results over the extended reals
  whenever every entry of the index array is a node number.

  The kernel program packs each edge's weighted message and coordinate shift into one wide row, sums the wide rows
  per receiving node in one pass, and updates the nodes from the wide sums; the reference sums the messages and the
  shifts separately and multiplies the joined row "old features, received message" with the whole first-layer
  matrix. Entry by entry both are the specification's functions of the sixteen arguments: a sum over the edges a
  node receives is taken column by column, so a column of the wide sum is the sum of that column; a product with
  the joined row splits into the products with its two halves; and the logistic function is the same function
  however it is spelled. The one place the two programs treat an index differently is the selection of coordinate
  rows: the kernel program writes a fill value where an index names no node, the reference reads the nearest row.
  Where every index names a node neither happens, and both select the same rows.

  The frames are the generated ones (the reference's is its generated run with the results dropped), and the
  idealization rewrote nothing, so there is nothing to preserve.
-/
import proofs.«430715_j17815524344039_3_alg».proof.Defs
import proofs.«430715_j17815524344039_3_alg».proof.Proof.Gen.Kernel
import proofs.«430715_j17815524344039_3_alg».proof.Proof.Gen.Kernel.Skeleton
import proofs.«430715_j17815524344039_3_alg».proof.Proof.Gen.Kernel.Launch
import proofs.«430715_j17815524344039_3_alg».proof.Proof.Gen.Kernel.Points
import proofs.«430715_j17815524344039_3_alg».proof.Proof.Gen.Kernel.Frame
import proofs.«430715_j17815524344039_3_alg».proof.Proof.Gen.KernelIdeal
import proofs.«430715_j17815524344039_3_alg».proof.Proof.Gen.KernelIdeal.Skeleton
import proofs.«430715_j17815524344039_3_alg».proof.Proof.Gen.KernelIdeal.Launch
import proofs.«430715_j17815524344039_3_alg».proof.Proof.Gen.KernelIdeal.Points
import proofs.«430715_j17815524344039_3_alg».proof.Proof.Gen.KernelIdeal.Frame
import proofs.«430715_j17815524344039_3_alg».proof.Proof.Gen.ReferenceIdeal
import proofs.«430715_j17815524344039_3_alg».proof.Proof.Gen.Pre_finite_inputs
import proofs.«430715_j17815524344039_3_alg».proof.Proof.Gen.ReferenceIdeal.Run
import proofs.«430715_j17815524344039_3_alg».proof.Proof.Gen.ReferenceIdeal.Read
import proofs.«430715_j17815524344039_3_alg».proof.Proof.KernelRun
import proofs.«430715_j17815524344039_3_alg».proof.Proof.KernelValue
import proofs.«430715_j17815524344039_3_alg».proof.Proof.RefValue
import proofs.«430715_j17815524344039_3_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.KernelIdeal.Results Cert.KernelIdeal.HostSide Cert.Spec

/-! ## The frames, and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)
theorem preserves : Cert.preserves_Kernel_KernelIdeal := trivial

/-! ## The two programs select the same coordinate rows -/

/-- The reference's sender selection is the plain read at the wrapped sender row. -/
theorem ref_senders (x1 : FVec Ideal Cert.ReferenceIdeal.S50000x3 .f32) (x3 : IVec Cert.ReferenceIdeal.S2x800000 32) :
    Cert.ReferenceIdeal.Read.val_main_v41 (F := Ideal) x1 x3 = picked x1 (rowOf1 x3) := by
  unfold Cert.ReferenceIdeal.Read.val_main_v41 Cert.ReferenceIdeal.Read.val_main_v40 Cert.ReferenceIdeal.Read.val_main_v39 Cert.ReferenceIdeal.Read.val_main_v38 Cert.ReferenceIdeal.Read.val_main_v37
    Cert.ReferenceIdeal.Read.val_main_v36 Cert.ReferenceIdeal.Read.val_main_v35 Cert.ReferenceIdeal.Read.val_main_c Cert.ReferenceIdeal.Read.val_main_c_2 Cert.ReferenceIdeal.Read.val_main_v3 Cert.ReferenceIdeal.Read.val_main_v2
    picked starts wrapped rowOf1
  rfl

/-- The reference's receiver selection is the plain read at the wrapped receiver row. -/
theorem ref_receivers (x1 : FVec Ideal Cert.ReferenceIdeal.S50000x3 .f32) (x3 : IVec Cert.ReferenceIdeal.S2x800000 32) :
    Cert.ReferenceIdeal.Read.val_main_v48 (F := Ideal) x1 x3 = picked x1 (rowOf0 x3) := by
  unfold Cert.ReferenceIdeal.Read.val_main_v48 Cert.ReferenceIdeal.Read.val_main_v47 Cert.ReferenceIdeal.Read.val_main_v46 Cert.ReferenceIdeal.Read.val_main_v45 Cert.ReferenceIdeal.Read.val_main_v44
    Cert.ReferenceIdeal.Read.val_main_v43 Cert.ReferenceIdeal.Read.val_main_v42 Cert.ReferenceIdeal.Read.val_main_c_3 Cert.ReferenceIdeal.Read.val_main_c_4 Cert.ReferenceIdeal.Read.val_main_v1 Cert.ReferenceIdeal.Read.val_main_v0
    picked starts wrapped rowOf0
  rfl

/-! ## Equal results -/

theorem algebraic : Cert.algebraic_KernelIdeal_ReferenceIdeal := by
  intro m ρ m' ρ' hpre hagree
  have hidx : ∀ (c : Dev Cert.KernelIdeal.nD) (i : Cert.KernelIdeal.S2x800000.Idx), 0 ≤ (A3 m c i).toInt ∧ (A3 m c i).toInt < 50000 :=
    fun c i => Cert.PreDecode.index_range _ _ _ _ _ _ _ _ _ _ _ _ _ _ _ _ (hpre c) i
  have hs : ∀ c : Dev Cert.KernelIdeal.nD, RowOk (sendRow m c) := fun c => rowOk1 _ (hidx c)
  have hr : ∀ c : Dev Cert.KernelIdeal.nD, RowOk (recvRow m c) := fun c => rowOk0 _ (hidx c)
  refine ⟨fun c => Cert.KernelIdeal.Gen.W8 m ρ c (Proc.devRef .tc Cert.KernelIdeal.main_v18),
    fun c => Cert.KernelIdeal.Gen.W8 m ρ c (Proc.devRef .tc Cert.KernelIdeal.main_v19),
    fun c => Cert.KernelIdeal.Gen.W8 m ρ c (Proc.devRef .tc Cert.KernelIdeal.main_v11_1), ?_, ?_⟩
  · refine (θ_run (Cert.KernelIdeal.defs (F := Ideal)) _ _).mono (fun r h c => ?_) (Cert.KernelIdeal.Whole.run (F := Ideal) m ρ)
    exact ⟨h c _ (Cert.KernelIdeal.Gen.mem_uc Cert.KernelIdeal.main_v18 (by decide)),
       h c _ (Cert.KernelIdeal.Gen.mem_uc Cert.KernelIdeal.main_v19 (by decide)),
       h c _ (Cert.KernelIdeal.Gen.mem_uc Cert.KernelIdeal.main_v11_1 (by decide)),
       (h c _ (Cert.KernelIdeal.Gen.mem_uc Cert.KernelIdeal.main_arg0 (by decide))).trans (Cert.KernelIdeal.Gen.W8_main_arg0 m ρ c),
       (h c _ (Cert.KernelIdeal.Gen.mem_uc Cert.KernelIdeal.main_arg1 (by decide))).trans (Cert.KernelIdeal.Gen.W8_main_arg1 m ρ c),
       (h c _ (Cert.KernelIdeal.Gen.mem_uc Cert.KernelIdeal.main_arg2 (by decide))).trans (Cert.KernelIdeal.Gen.W8_main_arg2 m ρ c),
       (h c _ (Cert.KernelIdeal.Gen.mem_uc Cert.KernelIdeal.main_arg3 (by decide))).trans (Cert.KernelIdeal.Gen.W8_main_arg3 m ρ c),
       (h c _ (Cert.KernelIdeal.Gen.mem_uc Cert.KernelIdeal.main_arg4 (by decide))).trans (Cert.KernelIdeal.Gen.W8_main_arg4 m ρ c),
       (h c _ (Cert.KernelIdeal.Gen.mem_uc Cert.KernelIdeal.main_arg5 (by decide))).trans (Cert.KernelIdeal.Gen.W8_main_arg5 m ρ c),
       (h c _ (Cert.KernelIdeal.Gen.mem_uc Cert.KernelIdeal.main_arg6 (by decide))).trans (Cert.KernelIdeal.Gen.W8_main_arg6 m ρ c),
       (h c _ (Cert.KernelIdeal.Gen.mem_uc Cert.KernelIdeal.main_arg7 (by decide))).trans (Cert.KernelIdeal.Gen.W8_main_arg7 m ρ c),
       (h c _ (Cert.KernelIdeal.Gen.mem_uc Cert.KernelIdeal.main_arg8 (by decide))).trans (Cert.KernelIdeal.Gen.W8_main_arg8 m ρ c),
       (h c _ (Cert.KernelIdeal.Gen.mem_uc Cert.KernelIdeal.main_arg9 (by decide))).trans (Cert.KernelIdeal.Gen.W8_main_arg9 m ρ c),
       (h c _ (Cert.KernelIdeal.Gen.mem_uc Cert.KernelIdeal.main_arg10 (by decide))).trans (Cert.KernelIdeal.Gen.W8_main_arg10 m ρ c),
       (h c _ (Cert.KernelIdeal.Gen.mem_uc Cert.KernelIdeal.main_arg11 (by decide))).trans (Cert.KernelIdeal.Gen.W8_main_arg11 m ρ c),
       (h c _ (Cert.KernelIdeal.Gen.mem_uc Cert.KernelIdeal.main_arg12 (by decide))).trans (Cert.KernelIdeal.Gen.W8_main_arg12 m ρ c),
       (h c _ (Cert.KernelIdeal.Gen.mem_uc Cert.KernelIdeal.main_arg13 (by decide))).trans (Cert.KernelIdeal.Gen.W8_main_arg13 m ρ c),
       (h c _ (Cert.KernelIdeal.Gen.mem_uc Cert.KernelIdeal.main_arg14 (by decide))).trans (Cert.KernelIdeal.Gen.W8_main_arg14 m ρ c),
       (h c _ (Cert.KernelIdeal.Gen.mem_uc Cert.KernelIdeal.main_arg15 (by decide))).trans (Cert.KernelIdeal.Gen.W8_main_arg15 m ρ c)⟩
  · refine (θ_run (Cert.ReferenceIdeal.defs (F := Ideal)) _ _).mono (fun r h c =>
        ⟨(h c).1.trans ?_, (h c).2.1.trans ?_, (h c).2.2.1.trans ?_, (h c).2.2.2⟩) (Cert.ReferenceIdeal.Value.run (F := Ideal) m' ρ')
    · obtain ⟨h0, h1, h2, h3, h4, h5, h6, h7, h8, h9, h10, h11, h12, h13, h14, h15⟩ := hagree c
      funext i
      obtain ⟨n, j, rfl⟩ : ∃ (n : Fin 50000) (j : Fin 96), i = ix2 n j := ⟨i 0, i 1, eq_ix2 i⟩
      rw [Cert.ReferenceIdeal.Read.val_main_v34_eq, h0, h2, h3, h4, h5, h6, h7, h8, h9, h10, h11, Cert.ReferenceIdeal.RefValue.feature_apply]
      exact (result_feats m ρ c n j).symm
    · obtain ⟨h0, h1, h2, h3, h4, h5, h6, h7, h8, h9, h10, h11, h12, h13, h14, h15⟩ := hagree c
      funext i
      obtain ⟨n, k, rfl⟩ : ∃ (n : Fin 50000) (k : Fin 3), i = ix2 n k := ⟨i 0, i 1, eq_ix2 i⟩
      rw [Cert.ReferenceIdeal.Read.val_main_v69_eq, h1, h2, h3, h12, h13, h14, h15, Cert.ReferenceIdeal.RefValue.coord_apply, ref_senders, ref_receivers]
      exact (result_coords m ρ c (hs c) (hr c) n k).symm
    · obtain ⟨h0, h1, h2, h3, h4, h5, h6, h7, h8, h9, h10, h11, h12, h13, h14, h15⟩ := hagree c
      refine (Cert.ReferenceIdeal.Read.val_main_v18_eq (F := Ideal) _ _ _ _ _).trans ?_
      funext i
      obtain ⟨e, z, rfl⟩ : ∃ (e : Fin 800000) (z : Fin 1), i = ix2 e z := ⟨i 0, i 1, eq_ix2 i⟩
      obtain rfl : z = 0 := Subsingleton.elim _ _
      rw [h2, h8, h9, h10, h11, Cert.ReferenceIdeal.RefValue.attention_apply]
      exact (result_attn m ρ c e).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
